-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x4096 : Shape := ⟨2, ![4096, 4096]⟩
abbrev S32x4096x128 : Shape := ⟨3, ![32, 4096, 128]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S32x4096x128 : S_.BroadcastsInDim S32x4096x128 (![] : Fin 0 → Fin S32x4096x128.rank)
  reducesTo_S32x4096x128_S_d0_1_2 : S32x4096x128.ReducesTo [0, 1, 2] S_

variable [Facts]

def fn_part1 {F : FTy → Type} [FloatOps F] (main_arg4 : FVec F S32x4096x128 .f32) (main_arg5 : FVec F S32x4096x128 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S32x4096x128 .f32 := Host.absf main_arg4
  let main_cst_6 : FVec F S_ .f32 := constant S_ .f32 0x7F800000#32
  let main_v20 : FVec F S32x4096x128 .f32 := broadcastInDim S32x4096x128 ![] bcast_S_S32x4096x128 main_cst_6
  let main_v21 : IVec S32x4096x128 1 := cmpf .olt main_v19 main_v20
  let main_c_7 : IVec S_ 1 := constantI S_ 1 1#1
  let main_v22 : IVec S_ 1 := (fun x v => Host.reduce IntOp.andi x v reducesTo_S32x4096x128_S_d0_1_2 h_S_) main_v21 main_c_7
  let main_v23 : IVec S_ 1 := andi main_v18 main_v22
  let main_v24 : FVec F S32x4096x128 .f32 := Host.absf main_arg5
  let main_cst_8 : FVec F S_ .f32 := constant S_ .f32 0x7F800000#32
  let main_v25 : FVec F S32x4096x128 .f32 := broadcastInDim S32x4096x128 ![] bcast_S_S32x4096x128 main_cst_8
  let main_v26 : IVec S32x4096x128 1 := cmpf .olt main_v24 main_v25
  let main_c_9 : IVec S_ 1 := constantI S_ 1 1#1
  let main_v27 : IVec S_ 1 := (fun x v => Host.reduce IntOp.andi x v reducesTo_S32x4096x128_S_d0_1_2 h_S_) main_v26 main_c_9
  let main_v28 : IVec S_ 1 := andi main_v23 main_v27
  main_v28

def fn {F : FTy → Type} [FloatOps F] (main_arg0 : FVec F S1024x4096 .f32) (main_arg1 : FVec F S4096x4096 .f32) (main_arg2 : FVec F S4096x4096 .f32) (main_arg3 : FVec F S4096x4096 .f32) (main_arg4 : FVec F S32x4096x128 .f32) (main_arg5 : FVec F S32x4096x128 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_v13 main_v16
-- ==== Kernel.lean ====
abbrev S1024x4096 : Shape := ⟨2, ![1024, 4096]⟩
abbrev S4096x4096 : Shape := ⟨2, ![4096, 4096]⟩
abbrev S32x4096x128 : Shape := ⟨3, ![32, 4096, 128]⟩
abbrev S1024x512 : Shape := ⟨2, ![1024, 512]⟩
abbrev S1024x1024 : Shape := ⟨2, ![1024, 1024]⟩
abbrev S1024x128 : Shape := ⟨2, ![1024, 128]⟩
abbrev S1x1024x128 : Shape := ⟨3, ![1, 1024, 128]⟩
abbrev S1024x1 : Shape := ⟨2, ![1024, 1]⟩
abbrev S128x1024 : Shape := ⟨2, ![128, 1024]⟩
abbrev S1024 : Shape := ⟨1, ![1024]⟩

abbrev nBuf : Space → Nat
  | .hbm => 11
  | .vmem => 30
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S32x4096x128, .f32⟩
  | .hbm, ⟨5, _⟩ => ⟨S32x4096x128, .f32⟩
  | .hbm, ⟨6, _⟩ => ⟨S1024x4096, .bf16⟩
  | .hbm, ⟨7, _⟩ => ⟨S1024x4096, .bf16⟩
  | .hbm, ⟨8, _⟩ => ⟨S1024x4096, .bf16⟩
  | .hbm, ⟨9, _⟩ => ⟨S1024x4096, .bf16⟩
  | .hbm, ⟨10, _⟩ => ⟨S1024x4096, .f32⟩
  | .local _ .vmem, ⟨0, _⟩ => ⟨S1024x4096, .bf16⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .bf16⟩
  | .local _ .vmem, ⟨20, _⟩ => ⟨S1024x128, .bf16⟩
  | .local _ .vmem, ⟨21, _⟩ => ⟨S1024x128, .bf16⟩
  | .local _ .vmem, ⟨22, _⟩ => ⟨S1x1024x128, .f32⟩
  | .local _ .vmem, ⟨23, _⟩ => ⟨S1x1024x128, .f32⟩
  | .local _ .vmem, ⟨24, _⟩ => ⟨S1x1024x128, .f32⟩
  | .local _ .vmem, ⟨25, _⟩ => ⟨S1x1024x128, .f32⟩
  | .local _ .vmem, ⟨26, _⟩ => ⟨S1024x128, .f32⟩
  | .local _ .vmem, ⟨27, _⟩ => ⟨S1024x128, .f32⟩
  | .local _ .vmem, ⟨28, _⟩ => ⟨S1024x1, .f32⟩
  | .local _ .vmem, ⟨29, _⟩ => ⟨S1024x128, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_scratch0 : Ref sig .tc := ⟨.vmem, 28, rfl⟩
abbrev cc1_scratch1 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k0_cond2 (i : grid0.Coords) : BitVec 1 :=
  let arg1 : BitVec 32 := BitVec.ofNat 32 (i 1).val
  let c3_i32 : BitVec 32 := 3#32
  let v32 : BitVec 1 := Scalar.cmpi .eq arg1 c3_i32
  let v33 : BitVec 32 := Scalar.extui v32
  let c0_i32_21 : BitVec 32 := 0#32
  let v34 : BitVec 1 := Scalar.cmpi .ne v33 c0_i32_21
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![32, 4], ![false, false]⟩

def k1_cond2 (i : grid1.Coords) : BitVec 1 :=
  let arg1 : BitVec 32 := BitVec.ofNat 32 (i 1).val
  let c3_i32 : BitVec 32 := 3#32
  let v36 : BitVec 1 := Scalar.cmpi .eq arg1 c3_i32
  let v37 : BitVec 32 := Scalar.extui v36
  let c0_i32_22 : BitVec 32 := 0#32
  let v38 : BitVec 1 := Scalar.cmpi .ne v37 c0_i32_22
  v38

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg1 c2_i32
  let c1_i32 : BitVec 32 := 1#32
  let v1 : BitVec 32 := Scalar.select v0 c1_i32 arg1
  let c0_i32 : BitVec 32 := 0#32
  let c0_i32_0 : BitVec 32 := 0#32
  ![arg0.toNat, v1.toNat, c0_i32.toNat]

def cc1_transform_4 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg1 c2_i32
  let c1_i32 : BitVec 32 := 1#32
  let v1 : BitVec 32 := Scalar.select v0 c1_i32 arg1
  let c0_i32 : BitVec 32 := 0#32
  let c0_i32_0 : BitVec 32 := 0#32
  ![arg0.toNat, v1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  h_S1024x1024 : 0 < S1024x1024.numel
  shapeCasts_S1024x1024_S1024x1024 : S1024x1024.ShapeCasts S1024x1024
  packedbf16_S1024x512_S1024x512_0_0 : (Rect.unit (s := S1024x512) ![0, 0] S1024x512.size inb_S1024x512_S1024x512_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  transposes_S1024x128_p1_0_S128x1024 : S1024x128.Transposes [1, 0] S128x1024
  reduces_S1024x1024_S1024 : S1024x1024.Reduces [1] S1024
  shapeCasts_S1024_S1024x1 : S1024.ShapeCasts S1024x1
  broadcasts_S1024x1_S1024x128 : S1024x1.Broadcasts S1024x128
  dot_S1024x1024_S1024x512_S1024x512_1_0_0_1_n_n_wf : DotDims.WF S1024x1024 S1024x512 S1024x512 [1] [0] [0] [1] [] []
  dot_S1024x128_S128x1024_S1024x1024_1_0_0_1_n_n_wf : DotDims.WF S1024x128 S128x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x1024.size a ≤ S1024x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S1024x4096.size a
  hwx0_0 : ∀ i : grid0.Coords, EltTy.bits .bf16 = 32 ∨ (Rect.block (s := S1024x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .f32 = 32 ∨ (Rect.block (s := S4096x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x4096.size a
  hwx0_3 : ∀ i : grid0.Coords, EltTy.bits .f32 = 32 ∨ (Rect.block (s := S4096x4096) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x4096.size a
  hwx0_4 : ∀ i : grid0.Coords, EltTy.bits .bf16 = 32 ∨ (Rect.block (s := S1024x4096) S1024x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x4096.size a
  hwx0_5 : ∀ i : grid0.Coords, EltTy.bits .bf16 = 32 ∨ (Rect.block (s := S1024x4096) S1024x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x4096.size a
  hwx0_6 : ∀ i : grid0.Coords, EltTy.bits .bf16 = 32 ∨ (Rect.block (s := S1024x4096) S1024x512.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S1024x4096.size a
  hwx1_0 : ∀ i : grid1.Coords, EltTy.bits .bf16 = 32 ∨ (Rect.block (s := S1024x4096) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S1024x4096.size a
  hwx1_1 : ∀ i : grid1.Coords, EltTy.bits .bf16 = 32 ∨ (Rect.block (s := S1024x4096) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S1024x4096.size a
  hwx1_2 : ∀ i : grid1.Coords, EltTy.bits .bf16 = 32 ∨ (Rect.block (s := S1024x4096) S1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S32x4096x128.size a
  hwx1_3 : ∀ i : grid1.Coords, EltTy.bits .f32 = 32 ∨ (Rect.block (s := S32x4096x128) S1x1024x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x128.size a ≤ S32x4096x128.size a
  hwx1_4 : ∀ i : grid1.Coords, EltTy.bits .f32 = 32 ∨ (Rect.block (s := S32x4096x128) S1x1024x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S1024x4096.size a
  hwx1_5 : ∀ i : grid1.Coords, EltTy.bits .f32 = 32 ∨ (Rect.block (s := S1024x4096) S1024x128.size (cc1_transform_5 i) (hinb1_5 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v0) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v1_0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_2) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S1x1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S1x1024x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1024x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S1024x4096 : Shape := ⟨2, ![1024, 4096]⟩
abbrev S4096x4096 : Shape := ⟨2, ![4096, 4096]⟩
abbrev S32x4096x128 : Shape := ⟨3, ![32, 4096, 128]⟩
abbrev S4096x12288 : Shape := ⟨2, ![4096, 12288]⟩
abbrev S1024x12288 : Shape := ⟨2, ![1024, 12288]⟩
abbrev S1024x32x128 : Shape := ⟨3, ![1024, 32, 128]⟩
abbrev S32x1024x128 : Shape := ⟨3, ![32, 1024, 128]⟩
abbrev S_ : Shape := ⟨0, ![]⟩
abbrev S32x1024x4096 : Shape := ⟨3, ![32, 1024, 4096]⟩
abbrev S32x1024 : Shape := ⟨2, ![32, 1024]⟩
abbrev S32x1024x1 : Shape := ⟨3, ![32, 1024, 1]⟩

abbrev nBuf : Space → Nat
  | .hbm => 35
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S32x4096x128, .f32⟩
  | .hbm, ⟨5, _⟩ => ⟨S32x4096x128, .f32⟩
  | .hbm, ⟨6, _⟩ => ⟨S4096x12288, .f32⟩
  | .hbm, ⟨7, _⟩ => ⟨S1024x12288, .f32⟩
  | .hbm, ⟨8, _⟩ => ⟨S1024x4096, .f32⟩
  | .hbm, ⟨9, _⟩ => ⟨S1024x4096, .f32⟩
  | .hbm, ⟨10, _⟩ => ⟨S1024x4096, .f32⟩
  | .hbm, ⟨11, _⟩ => ⟨S1024x32x128, .f32⟩
  | .hbm, ⟨12, _⟩ => ⟨S32x1024x128, .f32⟩
  | .hbm, ⟨13, _⟩ => ⟨S1024x32x128, .f32⟩
  | .hbm, ⟨14, _⟩ => ⟨S32x1024x128, .f32⟩
  | .hbm, ⟨15, _⟩ => ⟨S1024x32x128, .f32⟩
  | .hbm, ⟨16, _⟩ => ⟨S32x1024x128, .f32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S32x4096x128, .f32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S32x4096x128, .f32⟩
  | .hbm, ⟨25, _⟩ => ⟨S32x1024x4096, .f32⟩
  | .hbm, ⟨26, _⟩ => ⟨S32x1024x4096, .f32⟩
  | .hbm, ⟨27, _⟩ => ⟨S_, .f32⟩
  | .hbm, ⟨28, _⟩ => ⟨S32x1024, .f32⟩
  | .hbm, ⟨29, _⟩ => ⟨S32x1024x1, .f32⟩
  | .hbm, ⟨30, _⟩ => ⟨S32x1024x4096, .f32⟩
  | .hbm, ⟨31, _⟩ => ⟨S32x1024x4096, .f32⟩
  | .hbm, ⟨32, _⟩ => ⟨S32x1024x128, .f32⟩
  | .hbm, ⟨33, _⟩ => ⟨S1024x32x128, .f32⟩
  | .hbm, ⟨34, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_c_0 : Ref sig .tc := ⟨.hbm, 18, rfl⟩
abbrev main_c_1 : Ref sig .tc := ⟨.hbm, 19, rfl⟩
abbrev main_v11 : Ref sig .tc := ⟨.hbm, 20, rfl⟩
abbrev main_c_2 : Ref sig .tc := ⟨.hbm, 21, rfl⟩
abbrev main_c_3 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  concatenates_S4096x4096_S4096x4096_S4096x4096_S4096x12288_d1 : Shape.Concatenates [S4096x4096, S4096x4096, S4096x4096] S4096x12288 1
  slices_S1024x12288_S1024x4096_0_0 : S1024x12288.Slices ![0, 0] S1024x4096
  slices_S1024x12288_S1024x4096_0_4096 : S1024x12288.Slices ![0, 4096] S1024x4096
  slices_S1024x12288_S1024x4096_0_8192 : S1024x12288.Slices ![0, 8192] S1024x4096
  shapeCasts_S1024x4096_S1024x32x128 : S1024x4096.ShapeCasts S1024x32x128
  transposes_S1024x32x128_S32x1024x128_1_0_2 : S1024x32x128.Transposes [1, 0, 2] S32x1024x128
  updateFits_S32x4096x128_S32x1024x128 : S32x4096x128.Slices (fun _ => 0) S32x1024x128
  h_S_ : 0 < S_.numel
  reducesTo_S32x1024x4096_S32x1024_d2 : S32x1024x4096.ReducesTo [2] S32x1024
  bcast_S32x1024_S32x1024x1_0_1 : S32x1024.BroadcastsInDim S32x1024x1 (![0, 1] : Fin 2 → Fin S32x1024x1.rank)
  bcast_S32x1024x1_S32x1024x4096_0_1_2 : S32x1024x1.BroadcastsInDim S32x1024x4096 (![0, 1, 2] : Fin 3 → Fin S32x1024x4096.rank)
  transposes_S32x1024x128_S1024x32x128_1_0_2 : S32x1024x128.Transposes [1, 0, 2] S1024x32x128
  shapeCasts_S1024x32x128_S1024x4096 : S1024x32x128.ShapeCasts S1024x4096
  dot_S1024x4096_S4096x12288_S1024x12288_1_0_0_1_n_n_wf : DotDims.WF S1024x4096 S4096x12288 S1024x12288 [1] [0] [0] [1] [] []
  dot_S32x1024x128_S32x4096x128_S32x1024x4096_2_2_1_1_0_0_wf : DotDims.WF S32x1024x128 S32x4096x128 S32x1024x4096 [2] [2] [1] [1] [0] [0]
  dot_S32x1024x4096_S32x4096x128_S32x1024x128_2_1_1_2_0_0_wf : DotDims.WF S32x1024x4096 S32x4096x128 S32x1024x128 [2] [1] [1] [2] [0] [0]

variable [Facts₀]

def dot_S1024x4096_S4096x12288_S1024x12288_1_0_0_1_n_n : DotDims S1024x4096 S4096x12288 S1024x12288 where
  lhsContracting := [1]
  rhsContracting := [0]
  lhsNonContracting := [0]
  rhsNonContracting := [1]
  lhsBatch := []
  rhsBatch := []
  wf := dot_S1024x4096_S4096x12288_S1024x12288_1_0_0_1_n_n_wf
def dot_S32x1024x128_S32x4096x128_S32x1024x4096_2_2_1_1_0_0 : DotDims S32x1024x128 S32x4096x128 S32x1024x4096 where
  lhsContracting := [2]
  rhsContracting := [2]
  lhsNonContracting := [1]
  rhsNonContracting := [1]
  lhsBatch := [0]
  rhsBatch := [0]
  wf := dot_S32x1024x128_S32x4096x128_S32x1024x4096_2_2_1_1_0_0_wf
def dot_S32x1024x4096_S32x4096x128_S32x1024x128_2_1_1_2_0_0 : DotDims S32x1024x4096 S32x4096x128 S32x1024x128 where
  lhsContracting := [2]
  rhsContracting := [1]
  lhsNonContracting := [1]
  rhsNonContracting := [2]
  lhsBatch := [0]
  rhsBatch := [0]
  wf := dot_S32x1024x4096_S32x4096x128_S32x1024x128_2_1_1_2_0_0_wf

class Facts : Prop extends Facts₀ where

variable [Facts]
-- ==== Proof.LibWholeBlock.lean ====
/-
  Buffers written and read WHOLE: what a buffer holds after stores through the rectangle that is the whole
  shape at zero offsets, stated over an abstract shape so that no extent is ever unfolded.
-/
import Idealize.ShloMosaic.Lib.Pipeline.Value
import Idealize.ShloMosaic.Lib.Pipeline.FrameBody

noncomputable section

namespace Cert.LibWholeBlock

open Idealize.ShloMosaic

variable {Val : EltTy → Type} [∀ e, Nonempty (Val e)] {S : Shape} {e : EltTy}
variable {sig : RefSig} {κ : Kind} {sp : Space}

/-- One whole-shape store leaves its payload, whatever the buffer held. -/
theorem read_store (v : View sig κ sp S e) {off : Fin S.rank → Nat} (h : off = fun _ => 0)
    (inb : ∀ a, off a + S.size a ≤ S.size a) (f : v.ty.Contents Val) (p : S.Idx → Val e) :
    v.read Val (v.writes Val f [(⟨Rect.unit off S.size inb, p⟩ : View.Piece Val S e)]) = p := by
  rw [View.read_writes_eq_canon _ _ _ (fun y => ⟨_, List.mem_singleton_self _, View.mem_set_unit_zero h inb y⟩),
    View.canon_unit_zero h]

/-- A whole-shape store of `z`, then a whole-shape store of a function `g` of what a whole-shape load then reads:
    the buffer holds `g z`. -/
theorem read_store_load_store (v : View sig κ sp S e) {off : Fin S.rank → Nat} (h : off = fun _ => 0)
    (inb : ∀ a, off a + S.size a ≤ S.size a) (f : v.ty.Contents Val) (z : S.Idx → Val e)
    (g : (S.Idx → Val e) → (S.Idx → Val e)) :
    v.read Val (v.writes Val f [(⟨Rect.unit off S.size inb,
        g (v.readCov [(⟨Rect.unit off S.size inb, z⟩ : View.Piece Val S e)] (Rect.unit off S.size inb).toLoadRect)⟩ : View.Piece Val S e),
      ⟨Rect.unit off S.size inb, z⟩]) = g z := by
  rw [View.read_writes_eq_canon _ _ _ (fun y => ⟨_, List.mem_cons_self, View.mem_set_unit_zero h inb y⟩),
    View.canon_cons_unit_zero h, View.readCov_unit_zero _ h]

/-- A whole-shape load reads the buffer's contents. -/
theorem readAt_whole (v : View sig κ sp S e) {off : Fin S.rank → Nat} (h : off = fun _ => 0)
    (inb : ∀ a, off a + S.size a ≤ S.size a) (f : v.ty.Contents Val) :
    View.readAt Val v (Rect.unit off S.size inb).toLoadRect f = v.read Val f := by
  rw [View.readAt_eq_ld, View.ld_unit_zero h]

/-- Two stores, the later whole: the buffer holds the later payload. -/
theorem read_store_over (v : View sig κ sp S e) {off : Fin S.rank → Nat} (h : off = fun _ => 0)
    (inb : ∀ a, off a + S.size a ≤ S.size a) (f : v.ty.Contents Val) (p : S.Idx → Val e) (L : List (View.Piece Val S e)) :
    v.read Val (v.writes Val f ((⟨Rect.unit off S.size inb, p⟩ : View.Piece Val S e) :: L)) = p := by
  rw [View.read_writes_eq_canon _ _ _ (fun y => ⟨_, List.mem_cons_self, View.mem_set_unit_zero h inb y⟩),
    View.canon_cons_unit_zero h]

/-- A whole-shape load after stores of which the LAST was whole reads that store's payload. -/
theorem readCov_store_over (v : View sig κ sp S e) {off : Fin S.rank → Nat} (h : off = fun _ => 0)
    (inb : ∀ a, off a + S.size a ≤ S.size a) (p : S.Idx → Val e) (L : List (View.Piece Val S e)) :
    v.readCov ((⟨Rect.unit off S.size inb, p⟩ : View.Piece Val S e) :: L) (Rect.unit off S.size inb).toLoadRect = p := by
  rw [View.readCov_eq_canon_ld _ _ _ (fun y => ⟨_, List.mem_cons_self, View.mem_set_unit_zero h inb y⟩),
    View.canon_cons_unit_zero h, View.ld_unit_zero h]

end Cert.LibWholeBlock

end
-- ==== Proof.KBody0.lean ====
import proofs.«404418_j31731218382918_3_alg».proof.Proof.Gen.Kernel.Launch
import proofs.«404418_j31731218382918_3_alg».proof.Proof.Gen.Kernel.Skeleton
import proofs.«404418_j31731218382918_3_alg».proof.Proof.Gen.Kernel.Points
import Idealize.ShloMosaic.Lib.Pipeline.Value
import proofs.«404418_j31731218382918_3_alg».proof.Proof.LibWholeBlock
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWholeBlock

/-! ## The projection kernel's body, point by point

At a grid point (n, k) the body multiplies columns k·1024 … k·1024+1023 of the resident input by the point's
block of each of the three weights and adds the product to that weight's accumulator; at k = 0 the accumulators
are zeroed first, at k = 3 they are rounded into the three output blocks. -/

/-- The first branch's condition (the accumulators are zeroed): the second coordinate is 0. -/
abbrev condReset0 (i : grid0.Coords) : Prop := (Scalar.cmpi .ne (Scalar.extui (Scalar.cmpi .eq (BitVec.ofNat 32 (i 1).val) 0#32)) 0#32) = 1#1
/-- The second branch's condition (the outputs are written): the second coordinate is 3. -/
abbrev condOut0 (i : grid0.Coords) : Prop := k0_cond2 i = 1#1

/-- The input's columns the point reads, as a rectangle of the resident block. -/
abbrev rX (i : grid0.Coords) : Rect S1024x4096 := Rect.unit (s := S1024x4096) (k0_off1 i) S1024x1024.size (k0_off1_inb i)

theorem hz2 : (![0, 0] : Fin 2 → Nat) = fun _ => 0 := by funext a; fin_cases a <;> rfl

/-- The input's columns the point at `i` multiplies. -/
def xcols (i : grid0.Coords) (x : Vec F S1024x4096 .bf16) : Vec F S1024x1024 .bf16 := View.ld x (rX i)

/-- One step of each accumulator: the accumulator `a` plus the product of the point's input columns and weight block `w`. -/
def stepQ (i : grid0.Coords) (x : Vec F S1024x4096 .bf16) (w a : Vec F S1024x512 .f32) : Vec F S1024x512 .f32 := k0_pay9 (xcols i x) w a
def stepK (i : grid0.Coords) (x : Vec F S1024x4096 .bf16) (w a : Vec F S1024x512 .f32) : Vec F S1024x512 .f32 := k0_pay10 (xcols i x) w a
def stepV (i : grid0.Coords) (x : Vec F S1024x4096 .bf16) (w a : Vec F S1024x512 .f32) : Vec F S1024x512 .f32 := k0_pay1 (k0_pay11 (xcols i x) w a)

set_option maxHeartbeats 4000000 in
/-- The body at a point with k = 0: the accumulators, at anything, are zeroed and stepped; the output buffers are not touched. -/
theorem body0_first (c : Dev nD) (E : Set ℕ) (i : grid0.Coords) (hr : condReset0 i) (ho : ¬condOut0 i)
    (arg2 : Memref sig .tc .vmem S1024x4096 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole)
    (x : Vec F S1024x4096 .bf16) (w1 w2 w3 : Vec F S1024x512 .f32) (K : PUnit → sProp 𝕄) :
    iprop(owns (c : Thread nD τ) arg2 fullShare x ∗ owns (c : Thread nD τ) arg3 fullShare w1 ∗ owns (c : Thread nD τ) arg4 fullShare w2 ∗ owns (c : Thread nD τ) arg5 fullShare w3
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x ∗ owns (c : Thread nD τ) arg3 fullShare w1 ∗ owns (c : Thread nD τ) arg4 fullShare w2 ∗ owns (c : Thread nD τ) arg5 fullShare w3
            ∗ owns (c : Thread nD τ) arg9 fullShare (stepQ i x w1 k0_pay5) ∗ owns (c : Thread nD τ) arg10 fullShare (stepK i x w2 k0_pay6) ∗ owns (c : Thread nD τ) arg11 fullShare (stepV i x w3 k0_pay7)) -∗ K ⟨⟩))
      ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11) K := by
  simp only [cc0__qkv_kernel_eq_skeleton]; unfold cc0__qkv_kernel_skel
  unfold owns
  iintro ⟨⟨%f2, %hf2, H2⟩, ⟨%f3, %hf3, H3⟩, ⟨%f4, %hf4, H4⟩, ⟨%f5, %hf5, H5⟩, ⟨%d9, %f9, -, H9⟩, ⟨%d10, %f10, -, H10⟩, ⟨%d11, %f11, -, H11⟩, Hk⟩
  subst hf2; subst hf3; subst hf4; subst hf5
  sl_exec (disch := first | exact hr | exact ho)
  sl_step
  sl_unfold_run_names
  iapply Hk
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H9]
  · iexists _; isplitr
    swap; · iexact H9
    ipureintro
    rw [readAt_whole _ hz2]
    exact read_store_load_store arg9.view hz2 _ f9 k0_pay5 (fun a => k0_pay9 (xcols i (arg2.view.read (Elt F) f2)) (arg3.view.read (Elt F) f3) a)
  isplitl [H10]
  · iexists _; isplitr
    swap; · iexact H10
    ipureintro
    rw [readAt_whole _ hz2]
    exact read_store_load_store arg10.view hz2 _ f10 k0_pay6 (fun a => k0_pay10 (xcols i (arg2.view.read (Elt F) f2)) (arg4.view.read (Elt F) f4) a)
  · iexists _; isplitr
    swap; · iexact H11
    ipureintro
    rw [readAt_whole _ hz2]
    exact read_store_load_store arg11.view hz2 _ f11 k0_pay7 (fun a => k0_pay1 (k0_pay11 (xcols i (arg2.view.read (Elt F) f2)) (arg5.view.read (Elt F) f5) a))

set_option maxHeartbeats 4000000 in
/-- The body at a point with 0 < k < 3: the accumulators are stepped; the output buffers are not touched. -/
theorem body0_mid (c : Dev nD) (E : Set ℕ) (i : grid0.Coords) (hr : ¬condReset0 i) (ho : ¬condOut0 i)
    (arg2 : Memref sig .tc .vmem S1024x4096 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole)
    (x : Vec F S1024x4096 .bf16) (w1 w2 w3 a9 a10 a11 : Vec F S1024x512 .f32) (K : PUnit → sProp 𝕄) :
    iprop(owns (c : Thread nD τ) arg2 fullShare x ∗ owns (c : Thread nD τ) arg3 fullShare w1 ∗ owns (c : Thread nD τ) arg4 fullShare w2 ∗ owns (c : Thread nD τ) arg5 fullShare w3
        ∗ owns (c : Thread nD τ) arg9 fullShare a9 ∗ owns (c : Thread nD τ) arg10 fullShare a10 ∗ owns (c : Thread nD τ) arg11 fullShare a11
        ∗ (iprop(owns (c : Thread nD τ) arg2 fullShare x ∗ owns (c : Thread nD τ) arg3 fullShare w1 ∗ owns (c : Thread nD τ) arg4 fullShare w2 ∗ owns (c : Thread nD τ) arg5 fullShare w3
            ∗ owns (c : Thread nD τ) arg9 fullShare (stepQ i x w1 a9) ∗ owns (c : Thread nD τ) arg10 fullShare (stepK i x w2 a10) ∗ owns (c : Thread nD τ) arg11 fullShare (stepV i x w3 a11)) -∗ K ⟨⟩))
      ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11) K := by
  simp only [cc0__qkv_kernel_eq_skeleton]; unfold cc0__qkv_kernel_skel
  unfold owns
  iintro ⟨⟨%f2, %hf2, H2⟩, ⟨%f3, %hf3, H3⟩, ⟨%f4, %hf4, H4⟩, ⟨%f5, %hf5, H5⟩, ⟨%f9, %hf9, H9⟩, ⟨%f10, %hf10, H10⟩, ⟨%f11, %hf11, H11⟩, Hk⟩
  subst hf2; subst hf3; subst hf4; subst hf5; subst hf9; subst hf10; subst hf11
  sl_exec (disch := first | exact hr | exact ho)
  sl_step
  sl_unfold_run_names
  iapply Hk
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H9]
  · iexists _; isplitr
    swap; · iexact H9
    ipureintro
    rw [readAt_whole _ hz2, readAt_whole _ hz2]
    exact read_store arg9.view hz2 _ f9 _
  isplitl [H10]
  · iexists _; isplitr
    swap; · iexact H10
    ipureintro
    rw [readAt_whole _ hz2, readAt_whole _ hz2]
    exact read_store arg10.view hz2 _ f10 _
  · iexists _; isplitr
    swap; · iexact H11
    ipureintro
    rw [readAt_whole _ hz2, readAt_whole _ hz2]
    exact read_store arg11.view hz2 _ f11 _

set_option maxHeartbeats 4000000 in
/-- The body at a point with k = 3: the accumulators are stepped and rounded into the three output blocks, whatever those held. -/
theorem body0_last (c : Dev nD) (E : Set ℕ) (i : grid0.Coords) (hr : ¬condReset0 i) (ho : condOut0 i)
    (arg2 : Memref sig .tc .vmem S1024x4096 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole)
    (x : Vec F S1024x4096 .bf16) (w1 w2 w3 a9 a10 a11 : Vec F S1024x512 .f32) (K : PUnit → sProp 𝕄) :
    iprop(owns (c : Thread nD τ) arg2 fullShare x ∗ owns (c : Thread nD τ) arg3 fullShare w1 ∗ owns (c : Thread nD τ) arg4 fullShare w2 ∗ owns (c : Thread nD τ) arg5 fullShare w3
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare a9 ∗ owns (c : Thread nD τ) arg10 fullShare a10 ∗ owns (c : Thread nD τ) arg11 fullShare a11
        ∗ (iprop(owns (c : Thread nD τ) arg2 fullShare x ∗ owns (c : Thread nD τ) arg3 fullShare w1 ∗ owns (c : Thread nD τ) arg4 fullShare w2 ∗ owns (c : Thread nD τ) arg5 fullShare w3
            ∗ owns (c : Thread nD τ) arg6 fullShare (k0_pay2 (stepQ i x w1 a9)) ∗ owns (c : Thread nD τ) arg7 fullShare (k0_pay3 (stepK i x w2 a10)) ∗ owns (c : Thread nD τ) arg8 fullShare (k0_pay4 (stepV i x w3 a11))
            ∗ owns (c : Thread nD τ) arg9 fullShare (stepQ i x w1 a9) ∗ owns (c : Thread nD τ) arg10 fullShare (stepK i x w2 a10) ∗ owns (c : Thread nD τ) arg11 fullShare (stepV i x w3 a11)) -∗ K ⟨⟩))
      ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11) K := by
  simp only [cc0__qkv_kernel_eq_skeleton]; unfold cc0__qkv_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, ⟨%f11, %hf11, H11⟩, Hk⟩
  subst hf2; subst hf3; subst hf4; subst hf5; subst hf9; subst hf10; subst hf11
  sl_exec (disch := first | exact hr | exact ho)
  sl_step
  sl_unfold_run_names
  iapply Hk
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]
  · iexists _; isplitr
    swap; · iexact H6
    ipureintro
    rw [View.readCov_unit_zero _ hz2, readAt_whole _ hz2, readAt_whole _ hz2]
    exact read_store arg6.view hz2 _ f6 _
  isplitl [H7]
  · iexists _; isplitr
    swap; · iexact H7
    ipureintro
    rw [View.readCov_unit_zero _ hz2, readAt_whole _ hz2, readAt_whole _ hz2]
    exact read_store arg7.view hz2 _ f7 _
  isplitl [H8]
  · iexists _; isplitr
    swap; · iexact H8
    ipureintro
    rw [View.readCov_unit_zero _ hz2, readAt_whole _ hz2, readAt_whole _ hz2]
    exact read_store arg8.view hz2 _ f8 _
  isplitl [H9]
  · iexists _; isplitr
    swap; · iexact H9
    ipureintro
    rw [readAt_whole _ hz2, readAt_whole _ hz2]
    exact read_store arg9.view hz2 _ f9 _
  isplitl [H10]
  · iexists _; isplitr
    swap; · iexact H10
    ipureintro
    rw [readAt_whole _ hz2, readAt_whole _ hz2]
    exact read_store arg10.view hz2 _ f10 _
  · iexists _; isplitr
    swap; · iexact H11
    ipureintro
    rw [readAt_whole _ hz2, readAt_whole _ hz2]
    exact read_store arg11.view hz2 _ f11 _

end Cert.Kernel.Hand

end
-- ==== Proof.KData0.lean ====
import proofs.«404418_j31731218382918_3_alg».proof.Proof.Gen.Kernel.Launch
import proofs.«404418_j31731218382918_3_alg».proof.Proof.Gen.Kernel.Skeleton
import proofs.«404418_j31731218382918_3_alg».proof.Proof.Gen.Kernel.Points
import Idealize.ShloMosaic.Lib.Pipeline.Value
import Idealize.ShloMosaic.Lib.Pipeline.Frame
import proofs.«404418_j31731218382918_3_alg».proof.Proof.KBody0
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWholeBlock

/-! ## The projection region's proof data

The three accumulators are carried from point to point of a column block n: after point (n, k) they hold the
sum over the input-column blocks 0 … k of the products with the weights' blocks; the output blocks are their
roundings after k = 3. -/

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The resident input and the three weights' blocks at a point, at their literal types. -/
abbrev xb0 (c : Dev nD) (t : Fin cfg0.N) : Vec F S1024x4096 .bf16 := iblk0 V c 0 t
abbrev wq0 (c : Dev nD) (t : Fin cfg0.N) : Vec F S1024x512 .f32 := iblk0 V c 1 t
abbrev wk0 (c : Dev nD) (t : Fin cfg0.N) : Vec F S1024x512 .f32 := iblk0 V c 2 t
abbrev wv0 (c : Dev nD) (t : Fin cfg0.N) : Vec F S1024x512 .f32 := iblk0 V c 3 t

/-- The three accumulators' contents. -/
abbrev Acc3 (F : FTy → Type) [FloatOps F] : Type := Vec F S1024x512 .f32 × Vec F S1024x512 .f32 × Vec F S1024x512 .f32

/-- The zeroed accumulators, and one point's step of all three. -/
def zero3 : Acc3 F := (k0_pay5, k0_pay6, k0_pay7)
def step0 (c : Dev nD) (t : Fin cfg0.N) (a : Acc3 F) : Acc3 F :=
  (stepQ (grid0.coords t) (xb0 V c t) (wq0 V c t) a.1, stepK (grid0.coords t) (xb0 V c t) (wk0 V c t) a.2.1,
    stepV (grid0.coords t) (xb0 V c t) (wv0 V c t) a.2.2)

/-- THE ACCUMULATION: what the three scratch buffers hold after the body at position `n` — the step of the zeroed
    accumulators at a point with k = 0, else the step of what the point before left. -/
def acc0 (c : Dev nD) : (n : ℕ) → n < cfg0.N → Acc3 F
  | 0, hn => step0 V c ⟨0, hn⟩ zero3
  | n + 1, hn => step0 V c ⟨n + 1, hn⟩ (if (n + 1) % 4 = 0 then zero3 else acc0 c n (Nat.lt_of_succ_lt hn))

theorem acc0_first (c : Dev nD) (t : Fin cfg0.N) (h : t.val % 4 = 0) : acc0 V c t.val t.isLt = step0 V c t zero3 := by
  obtain ⟨n, hn⟩ := t
  cases n with
  | zero => rfl
  | succ n => exact congrArg (step0 V c ⟨n + 1, hn⟩) (if_pos h)

theorem acc0_next (c : Dev nD) (t : Fin cfg0.N) (h : ¬t.val % 4 = 0) :
    acc0 V c t.val t.isLt = step0 V c t (acc0 V c (t.val - 1) (Nat.lt_of_le_of_lt (Nat.sub_le _ _) t.isLt)) := by
  obtain ⟨n, hn⟩ := t
  cases n with
  | zero => exact absurd (Nat.zero_mod _) h
  | succ n => exact congrArg (step0 V c ⟨n + 1, hn⟩) (if_neg h)

/-- The scoped buffers the projection kernel never touches (the attention region's), each at some contents. -/
def other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The region's invariant before position `n`: the three accumulators at SOME contents — after the first point,
    those the point before left —, the untouched scoped buffers, the generator register at some state. -/
def Phi0 (c : Dev nD) (n : ℕ) (hn : n ≤ cfg0.N) : sProp 𝕄 :=
  iprop(∃ a : Acc3 F, ⌜∀ h : n ≠ 0, a = acc0 V c (n - 1) (by omega)⌝
    ∗ owns (c : Thread nD τ) (Memref.whole cc0_scratch0) fullShare a.1
    ∗ owns (c : Thread nD τ) (Memref.whole cc0_scratch1) fullShare a.2.1
    ∗ owns (c : Thread nD τ) (Memref.whole cc0_scratch2) fullShare a.2.2
    ∗ other0 c ∗ (∃ r, prngReg c r))

/-- The proof data of the projection pipeline on core `c`: the arrays as the region finds them; after the body each
    input's buffer at its block, each output's at the rounding of its accumulator; the invariant `Phi0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay2 (acc0 V c t.val t.isLt).1
    | ⟨5, _⟩ => k0_pay3 (acc0 V c t.val t.isLt).2.1
    | ⟨6, _⟩ => k0_pay4 (acc0 V c t.val t.isLt).2.2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay2 (acc0 V c t.val t.isLt).1 := by dsimp only [dat0]
theorem after0_5 (c : Dev nD) (t : Fin cfg0.N) : (dat0 V c).after 5 t = k0_pay3 (acc0 V c t.val t.isLt).2.1 := by dsimp only [dat0]
theorem after0_6 (c : Dev nD) (t : Fin cfg0.N) : (dat0 V c).after 6 t = k0_pay4 (acc0 V c t.val t.isLt).2.2 := by dsimp only [dat0]

/-- Each input's current staging buffer holds its block at every point, fetched there or not: the body leaves it in place. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ### The branch conditions and the output windows' idle points, decided over the grid -/

theorem hcondR0 : ∀ t : Fin cfg0.N, condReset0 (grid0.coords t) ↔ t.val % 4 = 0 :=
  (by decide +kernel : ∀ t : Fin grid0.N, condReset0 (grid0.coords t) ↔ t.val % 4 = 0)
theorem hcondO0 : ∀ t : Fin cfg0.N, condOut0 (grid0.coords t) ↔ t.val % 4 = 3 :=
  (by decide +kernel : ∀ t : Fin grid0.N, condOut0 (grid0.coords t) ↔ t.val % 4 = 3)
theorem idle0_4 : ∀ t : Fin cfg0.N, ¬t.val % 4 = 3 → cfg0.idle 4 (grid0.coords t) = true :=
  (by decide +kernel : ∀ t : Fin grid0.N, ¬t.val % 4 = 3 → cfg0.idle 4 (grid0.coords t) = true)
theorem live0_4 : ∀ t : Fin cfg0.N, t.val % 4 = 3 → cfg0.idle 4 (grid0.coords t) = false :=
  (by decide +kernel : ∀ t : Fin grid0.N, t.val % 4 = 3 → cfg0.idle 4 (grid0.coords t) = false)
theorem noflush0_4 (t : Fin cfg0.N) (h : ¬t.val % 4 = 3) : (cfg0.win 4).flush t = false := by
  cases hf : (cfg0.win 4).flush t
  · rfl
  · exact absurd ((flush0_4 t).mp hf) h
theorem idle0_5 : ∀ t : Fin cfg0.N, ¬t.val % 4 = 3 → cfg0.idle 5 (grid0.coords t) = true :=
  (by decide +kernel : ∀ t : Fin grid0.N, ¬t.val % 4 = 3 → cfg0.idle 5 (grid0.coords t) = true)
theorem live0_5 : ∀ t : Fin cfg0.N, t.val % 4 = 3 → cfg0.idle 5 (grid0.coords t) = false :=
  (by decide +kernel : ∀ t : Fin grid0.N, t.val % 4 = 3 → cfg0.idle 5 (grid0.coords t) = false)
theorem noflush0_5 (t : Fin cfg0.N) (h : ¬t.val % 4 = 3) : (cfg0.win 5).flush t = false := by
  cases hf : (cfg0.win 5).flush t
  · rfl
  · exact absurd ((flush0_5 t).mp hf) h
theorem idle0_6 : ∀ t : Fin cfg0.N, ¬t.val % 4 = 3 → cfg0.idle 6 (grid0.coords t) = true :=
  (by decide +kernel : ∀ t : Fin grid0.N, ¬t.val % 4 = 3 → cfg0.idle 6 (grid0.coords t) = true)
theorem live0_6 : ∀ t : Fin cfg0.N, t.val % 4 = 3 → cfg0.idle 6 (grid0.coords t) = false :=
  (by decide +kernel : ∀ t : Fin grid0.N, t.val % 4 = 3 → cfg0.idle 6 (grid0.coords t) = false)
theorem noflush0_6 (t : Fin cfg0.N) (h : ¬t.val % 4 = 3) : (cfg0.win 6).flush t = false := by
  cases hf : (cfg0.win 6).flush t
  · rfl
  · exact absurd ((flush0_6 t).mp hf) h

end Region0

end Cert.Kernel.Hand

end
-- ==== Proof.KOblig0.lean ====
import proofs.«404418_j31731218382918_3_alg».proof.Proof.Gen.Kernel.Launch
import proofs.«404418_j31731218382918_3_alg».proof.Proof.Gen.Kernel.Skeleton
import proofs.«404418_j31731218382918_3_alg».proof.Proof.Gen.Kernel.Points
import Idealize.ShloMosaic.Lib.Pipeline.Value
import Idealize.ShloMosaic.Lib.Pipeline.Frame
import proofs.«404418_j31731218382918_3_alg».proof.Proof.KData0
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWholeBlock

/-! ## The projection region's body obligation

At every point the body, handed the invariant and the seven windows' current buffers, returns the invariant at
the next position and each buffer at what the proof data says: by cases on the second coordinate k. -/

section Region0

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

theorem leaves_in0 (c : Dev nD) (t : Fin cfg0.N) :
    (dat0 V c).leavesExact 0 t = owns (c : Thread nD τ) (st0_0 t) fullShare (iblk0 V c 0 t)
    ∧ (dat0 V c).leavesExact 1 t = owns (c : Thread nD τ) (st0_1 t) fullShare (iblk0 V c 1 t)
    ∧ (dat0 V c).leavesExact 2 t = owns (c : Thread nD τ) (st0_2 t) fullShare (iblk0 V c 2 t)
    ∧ (dat0 V c).leavesExact 3 t = owns (c : Thread nD τ) (st0_3 t) fullShare (iblk0 V c 3 t) := by
  refine ⟨?_, ?_, ?_, ?_⟩
  · rw [← after0_0 V c t]
  · rw [← after0_1 V c t]
  · rw [← after0_2 V c t]
  · rw [← after0_3 V c t]

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  obtain ⟨hl0, hl1, hl2, hl3⟩ := leaves_in0 V c t
  rw [hl0, hl1, hl2, hl3]
  rw [show (dat0 V c).owesAt () t.succ = (dat0 V c).owesAt () t.castSucc from rfl]
  rw [show (dat0 V c).Φ t.succ = Phi0 V c (t.val + 1) t.isLt from rfl, Phi0_castSucc]
  unfold Phi0
  by_cases h0 : t.val % 4 = 0
  · -- k = 0: the accumulators are zeroed and stepped
    have h3 : ¬t.val % 4 = 3 := by omega
    rw [Dat.leavesExact_idle (dat0 V c) 4 t (idle0_4 t h3) (noflush0_4 t h3),
      Dat.leavesExact_idle (dat0 V c) 5 t (idle0_5 t h3) (noflush0_5 t h3),
      Dat.leavesExact_idle (dat0 V c) 6 t (idle0_6 t h3) (noflush0_6 t h3)]
    iintro ⟨⟨%a, -, H9, H10, H11, Hoth, Hg⟩, Ho, ⟨%d0, H0⟩, ⟨%d1, H1⟩, ⟨%d2, H2⟩, ⟨%d3, H3⟩, H4, H5, H6⟩
    iapply (body0_first c Set.univ (grid0.coords t) ((hcondR0 t).mpr h0) (fun h => h3 ((hcondO0 t).mp h))
      _ _ _ _ _ _ _ _ _ _ _ _ _ _ _ _ _ _ _ _ (xb0 V c t) (wq0 V c t) (wk0 V c t) (wv0 V c t) _)
    isplitl [H0]; · iexact H0
    isplitl [H1]; · iexact H1
    isplitl [H2]; · iexact H2
    isplitl [H3]; · iexact H3
    isplitl [H9]; · iexists _; iexact H9
    isplitl [H10]; · iexists _; iexact H10
    isplitl [H11]; · iexists _; iexact H11
    iintro ⟨H0, H1, H2, H3, H9, H10, H11⟩
    isplitl [H9 H10 H11 Hoth Hg]
    · iexists (acc0 V c t.val t.isLt)
      isplitr; · ipureintro; intro _; rfl
      rw [acc0_first V c t h0]
      isplitl [H9]; · iexact H9
      isplitl [H10]; · iexact H10
      isplitl [H11]; · iexact H11
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hz : t.val ≠ 0 := fun e => h0 (by rw [e])
    by_cases h3 : t.val % 4 = 3
    · -- k = 3: the accumulators are stepped and written out
      rw [show (dat0 V c).leavesExact 4 t = owns (c : Thread nD τ) (st0_4 t) fullShare ((dat0 V c).after 4 t) from by
            unfold Dat.leavesExact; rw [live0_4 t h3],
        show (dat0 V c).leavesExact 5 t = owns (c : Thread nD τ) (st0_5 t) fullShare ((dat0 V c).after 5 t) from by
            unfold Dat.leavesExact; rw [live0_5 t h3],
        show (dat0 V c).leavesExact 6 t = owns (c : Thread nD τ) (st0_6 t) fullShare ((dat0 V c).after 6 t) from by
            unfold Dat.leavesExact; rw [live0_6 t h3],
        after0_4, after0_5, after0_6]
      iintro ⟨⟨%a, %ha, H9, H10, H11, Hoth, Hg⟩, Ho, ⟨%d0, H0⟩, ⟨%d1, H1⟩, ⟨%d2, H2⟩, ⟨%d3, H3⟩, ⟨%d4, H4⟩, ⟨%d5, H5⟩, ⟨%d6, H6⟩⟩
      obtain rfl := ha hz
      iapply (body0_last c Set.univ (grid0.coords t) (fun h => h0 ((hcondR0 t).mp h)) ((hcondO0 t).mpr h3)
        _ _ _ _ _ _ _ _ _ _ _ _ _ _ _ _ _ _ _ _ (xb0 V c t) (wq0 V c t) (wk0 V c t) (wv0 V c t) _ _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H9]; · iexact H9
      isplitl [H10]; · iexact H10
      isplitl [H11]; · iexact H11
      iintro ⟨H0, H1, H2, H3, H4, H5, H6, H9, H10, H11⟩
      rw [acc0_next V c t h0]
      isplitl [H9 H10 H11 Hoth Hg]
      · iexists (step0 V c t (acc0 V c (t.val - 1) (Nat.lt_of_le_of_lt (Nat.sub_le _ _) t.isLt)))
        isplitr; · ipureintro; intro _; exact (acc0_next V c t h0).symm
        isplitl [H9]; · iexact H9
        isplitl [H10]; · iexact H10
        isplitl [H11]; · iexact H11
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- 0 < k < 3: the accumulators are stepped
      rw [Dat.leavesExact_idle (dat0 V c) 4 t (idle0_4 t h3) (noflush0_4 t h3),
        Dat.leavesExact_idle (dat0 V c) 5 t (idle0_5 t h3) (noflush0_5 t h3),
        Dat.leavesExact_idle (dat0 V c) 6 t (idle0_6 t h3) (noflush0_6 t h3)]
      iintro ⟨⟨%a, %ha, H9, H10, H11, Hoth, Hg⟩, Ho, ⟨%d0, H0⟩, ⟨%d1, H1⟩, ⟨%d2, H2⟩, ⟨%d3, H3⟩, H4, H5, H6⟩
      obtain rfl := ha hz
      iapply (body0_mid c Set.univ (grid0.coords t) (fun h => h0 ((hcondR0 t).mp h)) (fun h => h3 ((hcondO0 t).mp h))
        _ _ _ _ _ _ _ _ _ _ _ _ _ _ _ _ _ _ _ _ (xb0 V c t) (wq0 V c t) (wk0 V c t) (wv0 V c t) _ _ _ _)
      isplitl [H0]; · iexact H0
      isplitl [H1]; · iexact H1
      isplitl [H2]; · iexact H2
      isplitl [H3]; · iexact H3
      isplitl [H9]; · iexact H9
      isplitl [H10]; · iexact H10
      isplitl [H11]; · iexact H11
      iintro ⟨H0, H1, H2, H3, H9, H10, H11⟩
      isplitl [H9 H10 H11 Hoth Hg]
      · iexists (step0 V c t (acc0 V c (t.val - 1) (Nat.lt_of_le_of_lt (Nat.sub_le _ _) t.isLt)))
        isplitr; · ipureintro; intro _; exact (acc0_next V c t h0).symm
        isplitl [H9]; · iexact H9
        isplitl [H10]; · iexact H10
        isplitl [H11]; · iexact H11
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with — the generator register and every scoped buffer that is no staging buffer, at
    anything — is the invariant before the first point. -/
theorem hin0 (c : Dev nD) : iprop((∃ r, prngReg c r) ∗ Pipeline.scopedRest (Ix := Unit) (Name := ℕ) (U := UR sig nD τ) (Lvl := ℕ) (Val := Elt F) spec0 c) ⊢ (dat0 V c).Φ 0 := by
  rw [show (dat0 V c).Φ 0 = Phi0 V c 0 (Nat.zero_le _) from rfl, scopedRest0_eq]
  unfold Phi0 other0
  simp only [owns_whole_eq]
  iintro ⟨Hg, ⟨%f9, H9⟩, ⟨%f10, H10⟩, ⟨%f11, H11⟩, Hoth⟩
  iexists (f9, f10, f11)
  isplitr; · ipureintro; intro h; exact absurd rfl h
  isplitl [H9]; · iexists f9; isplitr; · ipureintro; rfl
                  iexact H9
  isplitl [H10]; · iexists f10; isplitr; · ipureintro; rfl
                   iexact H10
  isplitl [H11]; · iexists f11; isplitr; · ipureintro; rfl
                   iexact H11
  isplitl [Hoth]; · iexact Hoth
  iexact Hg

/-- And the invariant, at any position, gives them back: the accumulators' contents are forgotten. -/
theorem hout0 (c : Dev nD) (t : Fin (cfg0.N + 1)) : (dat0 V c).Φ t ⊢ iprop((∃ r, prngReg c r) ∗ Pipeline.scopedRest (Ix := Unit) (Name := ℕ) (U := UR sig nD τ) (Lvl := ℕ) (Val := Elt F) spec0 c) := by
  rw [show (dat0 V c).Φ t = Phi0 V c t.val (Nat.le_of_lt_succ t.isLt) from rfl, scopedRest0_eq]
  unfold Phi0 other0
  simp only [owns_whole_eq]
  iintro ⟨%a, -, ⟨%f9, -, H9⟩, ⟨%f10, -, H10⟩, ⟨%f11, -, H11⟩, Hoth, Hg⟩
  isplitl [Hg]; · iexact Hg
  isplitl [H9]; · iexists f9; iexact H9
  isplitl [H10]; · iexists f10; iexact H10
  isplitl [H11]; · iexists f11; iexact H11
  iexact Hoth

end Region0

end Cert.Kernel.Hand

end
-- ==== Proof.KDefs1.lean ====
import proofs.«404418_j31731218382918_3_alg».proof.Proof.Gen.Kernel.Launch
import proofs.«404418_j31731218382918_3_alg».proof.Proof.Gen.Kernel.Skeleton
import proofs.«404418_j31731218382918_3_alg».proof.Proof.Gen.Kernel.Points
import Idealize.ShloMosaic.Lib.Pipeline.Value
import proofs.«404418_j31731218382918_3_alg».proof.Proof.LibWholeBlock
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWholeBlock

/-! ## The attention kernel's body, point by point

At a grid point (h, t) the body takes head h's queries, the t-th tile of 1024 cache rows of that head — the
new keys and values in its place at t = 2 —, forms the 1024 × 1024 exponentials of the scores, adds their row
sums to the running denominator and their product with the values to the running numerator; at t = 0 both
are zeroed first, at t = 3 the quotient is written into the output block. -/

/-- The first branch's condition (the running sums are zeroed): the second coordinate is 0. -/
abbrev condReset1 (i : grid1.Coords) : Prop := (Scalar.cmpi .ne (Scalar.extui (Scalar.cmpi .eq (BitVec.ofNat 32 (i 1).val) 0#32)) 0#32) = 1#1
/-- The second branch's condition (the output is written): the second coordinate is 3. -/
abbrev condOut1 (i : grid1.Coords) : Prop := k1_cond2 i = 1#1

theorem hz2' : (![0, 0] : Fin 2 → Nat) = fun _ => 0 := by funext a; fin_cases a <;> rfl
theorem hz3 : (![0, 0, 0] : Fin 3 → Nat) = fun _ => 0 := by funext a; fin_cases a <;> rfl

/-- One step of the running denominator `l` and of the running numerator `a`, from the queries `q`, the new keys
    and values `kn`, `vn`, and the cache tiles `kc`, `vc`. -/
def stepL (i : grid1.Coords) (q kn : Vec F S1024x128 .bf16) (kc : Vec F S1x1024x128 .f32) (l : Vec F S1024x1 .f32) : Vec F S1024x1 .f32 := k1_pay6 i kn kc q l
def stepA (i : grid1.Coords) (q kn vn : Vec F S1024x128 .bf16) (kc vc : Vec F S1x1024x128 .f32) (a : Vec F S1024x128 .f32) : Vec F S1024x128 .f32 := k1_pay1 a (k1_pay7 i kn kc vn vc q)

end Cert.Kernel.Hand

end
-- ==== Proof.KData1.lean ====
import proofs.«404418_j31731218382918_3_alg».proof.Proof.Gen.Kernel.Launch
import proofs.«404418_j31731218382918_3_alg».proof.Proof.Gen.Kernel.Skeleton
import proofs.«404418_j31731218382918_3_alg».proof.Proof.Gen.Kernel.Points
import Idealize.ShloMosaic.Lib.Pipeline.Value
import Idealize.ShloMosaic.Lib.Pipeline.Frame
import proofs.«404418_j31731218382918_3_alg».proof.Proof.KDefs1
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWholeBlock

/-! ## The attention region's proof data

The running denominator and numerator of a head are carried over its four cache tiles: after point (h, t) they
hold the sums over tiles 0 … t; the output block of head h is their quotient after t = 3. -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The head's queries, new keys and values, and the point's cache tiles, at their literal types. -/
abbrev q1 (c : Dev nD) (t : Fin cfg1.N) : Vec F S1024x128 .bf16 := iblk1 V c 0 t
abbrev kn1 (c : Dev nD) (t : Fin cfg1.N) : Vec F S1024x128 .bf16 := iblk1 V c 1 t
abbrev vn1 (c : Dev nD) (t : Fin cfg1.N) : Vec F S1024x128 .bf16 := iblk1 V c 2 t
abbrev kc1 (c : Dev nD) (t : Fin cfg1.N) : Vec F S1x1024x128 .f32 := iblk1 V c 3 t
abbrev vc1 (c : Dev nD) (t : Fin cfg1.N) : Vec F S1x1024x128 .f32 := iblk1 V c 4 t

/-- The running denominator and numerator. -/
abbrev Acc2 (F : FTy → Type) [FloatOps F] : Type := Vec F S1024x1 .f32 × Vec F S1024x128 .f32

/-- The zeroed running sums, and one point's step of both. -/
def zero2 : Acc2 F := (k1_pay3, k1_pay4)
def step1 (c : Dev nD) (t : Fin cfg1.N) (a : Acc2 F) : Acc2 F :=
  (stepL (grid1.coords t) (q1 V c t) (kn1 V c t) (kc1 V c t) a.1,
    stepA (grid1.coords t) (q1 V c t) (kn1 V c t) (vn1 V c t) (kc1 V c t) (vc1 V c t) a.2)

/-- THE ACCUMULATION: what the two scratch buffers hold after the body at position `n` — the step of the zeroed sums
    at a point with t = 0, else the step of what the point before left. -/
def acc1 (c : Dev nD) : (n : ℕ) → n < cfg1.N → Acc2 F
  | 0, hn => step1 V c ⟨0, hn⟩ zero2
  | n + 1, hn => step1 V c ⟨n + 1, hn⟩ (if (n + 1) % 4 = 0 then zero2 else acc1 c n (Nat.lt_of_succ_lt hn))

theorem acc1_first (c : Dev nD) (t : Fin cfg1.N) (h : t.val % 4 = 0) : acc1 V c t.val t.isLt = step1 V c t zero2 := by
  obtain ⟨n, hn⟩ := t
  cases n with
  | zero => rfl
  | succ n => exact congrArg (step1 V c ⟨n + 1, hn⟩) (if_pos h)

theorem acc1_next (c : Dev nD) (t : Fin cfg1.N) (h : ¬t.val % 4 = 0) :
    acc1 V c t.val t.isLt = step1 V c t (acc1 V c (t.val - 1) (Nat.lt_of_le_of_lt (Nat.sub_le _ _) t.isLt)) := by
  obtain ⟨n, hn⟩ := t
  cases n with
  | zero => exact absurd (Nat.zero_mod _) h
  | succ n => exact congrArg (step1 V c ⟨n + 1, hn⟩) (if_neg h)

/-- The scoped buffers the attention kernel never touches (the projection region's), each at some contents. -/
def other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

/-- The region's invariant before position `n`: the two running sums at SOME contents — after the first point, those
    the point before left —, the untouched scoped buffers, the generator register at some state. -/
def Phi1 (c : Dev nD) (n : ℕ) (hn : n ≤ cfg1.N) : sProp 𝕄 :=
  iprop(∃ a : Acc2 F, ⌜∀ h : n ≠ 0, a = acc1 V c (n - 1) (by omega)⌝
    ∗ owns (c : Thread nD τ) (Memref.whole cc1_scratch0) fullShare a.1
    ∗ owns (c : Thread nD τ) (Memref.whole cc1_scratch1) fullShare a.2
    ∗ other1 c ∗ (∃ r, prngReg c r))

/-- The proof data of the attention pipeline on core `c`: the arrays as the region finds them; after the body each
    input's buffer at its block, the output's at the quotient of the running sums; the invariant `Phi1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay2 (acc1 V c t.val t.isLt).2 (acc1 V c t.val t.isLt).1
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k1_pay2 (acc1 V c t.val t.isLt).2 (acc1 V c t.val t.isLt).1 := by dsimp only [dat1]

/-- Each input's current staging buffer holds its block at every point, fetched there or not: the body leaves it in
    place (a cache tile is not fetched at t = 2, where the index map repeats tile 1's block: it is still there). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ### The branch conditions and the output window's idle points, decided over the grid -/

theorem hcondR1 : ∀ t : Fin cfg1.N, condReset1 (grid1.coords t) ↔ t.val % 4 = 0 :=
  (by decide +kernel : ∀ t : Fin grid1.N, condReset1 (grid1.coords t) ↔ t.val % 4 = 0)
theorem hcondO1 : ∀ t : Fin cfg1.N, condOut1 (grid1.coords t) ↔ t.val % 4 = 3 :=
  (by decide +kernel : ∀ t : Fin grid1.N, condOut1 (grid1.coords t) ↔ t.val % 4 = 3)
theorem idle1_5 : ∀ t : Fin cfg1.N, ¬t.val % 4 = 3 → cfg1.idle 5 (grid1.coords t) = true :=
  (by decide +kernel : ∀ t : Fin grid1.N, ¬t.val % 4 = 3 → cfg1.idle 5 (grid1.coords t) = true)
theorem live1_5 : ∀ t : Fin cfg1.N, t.val % 4 = 3 → cfg1.idle 5 (grid1.coords t) = false :=
  (by decide +kernel : ∀ t : Fin grid1.N, t.val % 4 = 3 → cfg1.idle 5 (grid1.coords t) = false)
theorem noflush1_5 (t : Fin cfg1.N) (h : ¬t.val % 4 = 3) : (cfg1.win 5).flush t = false := by
  cases hf : (cfg1.win 5).flush t
  · rfl
  · exact absurd ((flush1_5 t).mp hf) h

end Region1

end Cert.Kernel.Hand

end
-- ==== Proof.KBody1.lean ====
import proofs.«404418_j31731218382918_3_alg».proof.Proof.Gen.Kernel.Launch
import proofs.«404418_j31731218382918_3_alg».proof.Proof.Gen.Kernel.Skeleton
import proofs.«404418_j31731218382918_3_alg».proof.Proof.Gen.Kernel.Points
import Idealize.ShloMosaic.Lib.Pipeline.Value
import proofs.«404418_j31731218382918_3_alg».proof.Proof.LibWholeBlock
import proofs.«404418_j31731218382918_3_alg».proof.Proof.KDefs1
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWholeBlock

/-! ## The attention kernel's body at the three kinds of point -/

set_option maxHeartbeats 4000000 in
/-- The body at a point with t = 0: the running sums, at anything, are zeroed and stepped; the output buffer is not touched. -/
theorem body1_first (c : Dev nD) (E : Set ℕ) (i : grid1.Coords) (hr : condReset1 i) (ho : ¬condOut1 i)
    (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x128 .f32) (harg9 : arg9.IsWhole)
    (q kn vn : Vec F S1024x128 .bf16) (kc vc : Vec F S1x1024x128 .f32) (K : PUnit → sProp 𝕄) :
    iprop(owns (c : Thread nD τ) arg2 fullShare q ∗ owns (c : Thread nD τ) arg3 fullShare kn ∗ owns (c : Thread nD τ) arg4 fullShare vn ∗ owns (c : Thread nD τ) arg5 fullShare kc ∗ owns (c : Thread nD τ) arg6 fullShare vc
        ∗ (∃ d, owns (c : Thread nD τ) arg8 fullShare d) ∗ (∃ d, owns (c : Thread nD τ) arg9 fullShare d)
        ∗ (iprop(owns (c : Thread nD τ) arg2 fullShare q ∗ owns (c : Thread nD τ) arg3 fullShare kn ∗ owns (c : Thread nD τ) arg4 fullShare vn ∗ owns (c : Thread nD τ) arg5 fullShare kc ∗ owns (c : Thread nD τ) arg6 fullShare vc
            ∗ owns (c : Thread nD τ) arg8 fullShare (stepL i q kn kc k1_pay3) ∗ owns (c : Thread nD τ) arg9 fullShare (stepA i q kn vn kc vc k1_pay4)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, Hk⟩
  subst hf2; subst hf3; subst hf4; subst hf5; subst hf6
  sl_exec (disch := first | exact hr | exact ho)
  sl_step
  sl_unfold_run_names
  iapply Hk
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H8]
  · iexists _; isplitr
    swap; · iexact H8
    ipureintro
    rw [readAt_whole arg3.view hz2', readAt_whole arg5.view hz3, readAt_whole arg2.view hz2']
    exact read_store_load_store arg8.view hz2' _ f8 k1_pay3 (fun l => k1_pay6 i (arg3.view.read (Elt F) f3) (arg5.view.read (Elt F) f5) (arg2.view.read (Elt F) f2) l)
  · iexists _; isplitr
    swap; · iexact H9
    ipureintro
    rw [readAt_whole arg3.view hz2', readAt_whole arg5.view hz3, readAt_whole arg4.view hz2', readAt_whole arg6.view hz3, readAt_whole arg2.view hz2']
    exact read_store_load_store arg9.view hz2' _ f9 k1_pay4 (fun a => k1_pay1 a (k1_pay7 i (arg3.view.read (Elt F) f3) (arg5.view.read (Elt F) f5) (arg4.view.read (Elt F) f4) (arg6.view.read (Elt F) f6) (arg2.view.read (Elt F) f2)))

set_option maxHeartbeats 4000000 in
/-- The body at a point with 0 < t < 3: the running sums are stepped; the output buffer is not touched. -/
theorem body1_mid (c : Dev nD) (E : Set ℕ) (i : grid1.Coords) (hr : ¬condReset1 i) (ho : ¬condOut1 i)
    (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x128 .f32) (harg9 : arg9.IsWhole)
    (q kn vn : Vec F S1024x128 .bf16) (kc vc : Vec F S1x1024x128 .f32) (l : Vec F S1024x1 .f32) (a : Vec F S1024x128 .f32) (K : PUnit → sProp 𝕄) :
    iprop(owns (c : Thread nD τ) arg2 fullShare q ∗ owns (c : Thread nD τ) arg3 fullShare kn ∗ owns (c : Thread nD τ) arg4 fullShare vn ∗ owns (c : Thread nD τ) arg5 fullShare kc ∗ owns (c : Thread nD τ) arg6 fullShare vc
        ∗ owns (c : Thread nD τ) arg8 fullShare l ∗ owns (c : Thread nD τ) arg9 fullShare a
        ∗ (iprop(owns (c : Thread nD τ) arg2 fullShare q ∗ owns (c : Thread nD τ) arg3 fullShare kn ∗ owns (c : Thread nD τ) arg4 fullShare vn ∗ owns (c : Thread nD τ) arg5 fullShare kc ∗ owns (c : Thread nD τ) arg6 fullShare vc
            ∗ owns (c : Thread nD τ) arg8 fullShare (stepL i q kn kc l) ∗ owns (c : Thread nD τ) arg9 fullShare (stepA i q kn vn kc vc a)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f8, %hf8, H8⟩, ⟨%f9, %hf9, H9⟩, Hk⟩
  subst hf2; subst hf3; subst hf4; subst hf5; subst hf6; subst hf8; subst hf9
  sl_exec (disch := first | exact hr | exact ho)
  sl_step
  sl_unfold_run_names
  iapply Hk
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H8]
  · iexists _; isplitr
    swap; · iexact H8
    ipureintro
    rw [readAt_whole arg3.view hz2', readAt_whole arg5.view hz3, readAt_whole arg2.view hz2']
    rw [readAt_whole arg8.view hz2']
    exact read_store arg8.view hz2' _ f8 _
  · iexists _; isplitr
    swap; · iexact H9
    ipureintro
    rw [readAt_whole arg3.view hz2', readAt_whole arg5.view hz3, readAt_whole arg4.view hz2', readAt_whole arg6.view hz3, readAt_whole arg2.view hz2']
    rw [readAt_whole arg9.view hz2']
    exact read_store arg9.view hz2' _ f9 _

set_option maxHeartbeats 4000000 in
/-- The body at a point with t = 3: the running sums are stepped and their quotient is written into the output block, whatever it held. -/
theorem body1_last (c : Dev nD) (E : Set ℕ) (i : grid1.Coords) (hr : ¬condReset1 i) (ho : condOut1 i)
    (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x128 .f32) (harg9 : arg9.IsWhole)
    (q kn vn : Vec F S1024x128 .bf16) (kc vc : Vec F S1x1024x128 .f32) (l : Vec F S1024x1 .f32) (a : Vec F S1024x128 .f32) (K : PUnit → sProp 𝕄) :
    iprop(owns (c : Thread nD τ) arg2 fullShare q ∗ owns (c : Thread nD τ) arg3 fullShare kn ∗ owns (c : Thread nD τ) arg4 fullShare vn ∗ owns (c : Thread nD τ) arg5 fullShare kc ∗ owns (c : Thread nD τ) arg6 fullShare vc
        ∗ (∃ d, owns (c : Thread nD τ) arg7 fullShare d) ∗ owns (c : Thread nD τ) arg8 fullShare l ∗ owns (c : Thread nD τ) arg9 fullShare a
        ∗ (iprop(owns (c : Thread nD τ) arg2 fullShare q ∗ owns (c : Thread nD τ) arg3 fullShare kn ∗ owns (c : Thread nD τ) arg4 fullShare vn ∗ owns (c : Thread nD τ) arg5 fullShare kc ∗ owns (c : Thread nD τ) arg6 fullShare vc
            ∗ owns (c : Thread nD τ) arg7 fullShare (k1_pay2 (stepA i q kn vn kc vc a) (stepL i q kn kc l))
            ∗ owns (c : Thread nD τ) arg8 fullShare (stepL i q kn kc l) ∗ owns (c : Thread nD τ) arg9 fullShare (stepA i q kn vn kc vc a)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  subst hf2; subst hf3; subst hf4; subst hf5; subst hf6; subst hf8; subst hf9
  sl_exec (disch := first | exact hr | exact ho)
  sl_step
  sl_unfold_run_names
  iapply Hk
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]
  · iexists _; isplitr
    swap; · iexact H7
    ipureintro
    rw [View.readCov_unit_zero arg9.view hz2', View.readCov_unit_zero arg8.view hz2']
    rw [readAt_whole arg3.view hz2', readAt_whole arg5.view hz3, readAt_whole arg4.view hz2', readAt_whole arg6.view hz3, readAt_whole arg2.view hz2']
    rw [readAt_whole arg9.view hz2', readAt_whole arg8.view hz2']
    exact read_store arg7.view hz2' _ f7 _
  isplitl [H8]
  · iexists _; isplitr
    swap; · iexact H8
    ipureintro
    rw [readAt_whole arg3.view hz2', readAt_whole arg5.view hz3, readAt_whole arg2.view hz2']
    rw [readAt_whole arg8.view hz2']
    exact read_store arg8.view hz2' _ f8 _
  · iexists _; isplitr
    swap; · iexact H9
    ipureintro
    rw [readAt_whole arg3.view hz2', readAt_whole arg5.view hz3, readAt_whole arg4.view hz2', readAt_whole arg6.view hz3, readAt_whole arg2.view hz2']
    rw [readAt_whole arg9.view hz2']
    exact read_store arg9.view hz2' _ f9 _

end Cert.Kernel.Hand

end
-- ==== Proof.KOblig1.lean ====
import proofs.«404418_j31731218382918_3_alg».proof.Proof.Gen.Kernel.Launch
import proofs.«404418_j31731218382918_3_alg».proof.Proof.Gen.Kernel.Skeleton
import proofs.«404418_j31731218382918_3_alg».proof.Proof.Gen.Kernel.Points
import Idealize.ShloMosaic.Lib.Pipeline.Value
import Idealize.ShloMosaic.Lib.Pipeline.Frame
import proofs.«404418_j31731218382918_3_alg».proof.Proof.KData1
import proofs.«404418_j31731218382918_3_alg».proof.Proof.KBody1
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWholeBlock

/-! ## The attention region's body obligation

At every point the body, handed the invariant and the six windows' current buffers, returns the invariant at
the next position and each buffer at what the proof data says: by cases on the second coordinate t. -/

section Region1

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

theorem leaves_in1 (c : Dev nD) (t : Fin cfg1.N) :
    (dat1 V c).leavesExact 0 t = owns (c : Thread nD τ) (st1_0 t) fullShare (iblk1 V c 0 t)
    ∧ (dat1 V c).leavesExact 1 t = owns (c : Thread nD τ) (st1_1 t) fullShare (iblk1 V c 1 t)
    ∧ (dat1 V c).leavesExact 2 t = owns (c : Thread nD τ) (st1_2 t) fullShare (iblk1 V c 2 t)
    ∧ (dat1 V c).leavesExact 3 t = owns (c : Thread nD τ) (st1_3 t) fullShare (iblk1 V c 3 t)
    ∧ (dat1 V c).leavesExact 4 t = owns (c : Thread nD τ) (st1_4 t) fullShare (iblk1 V c 4 t) := by
  refine ⟨?_, ?_, ?_, ?_, ?_⟩
  · rw [← after1_0 V c t]
  · rw [← after1_1 V c t]
  · rw [← after1_2 V c t]
  · rw [← after1_3 V c t]
  · rw [← after1_4 V c t]

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  obtain ⟨hl0, hl1, hl2, hl3, hl4⟩ := leaves_in1 V c t
  rw [hl0, hl1, hl2, hl3, hl4]
  rw [show (dat1 V c).owesAt () t.succ = (dat1 V c).owesAt () t.castSucc from rfl]
  rw [show (dat1 V c).Φ t.succ = Phi1 V c (t.val + 1) t.isLt from rfl, Phi1_castSucc]
  unfold Phi1
  by_cases h0 : t.val % 4 = 0
  · -- t = 0: the running sums are zeroed and stepped
    have h3 : ¬t.val % 4 = 3 := by omega
    rw [Dat.leavesExact_idle (dat1 V c) 5 t (idle1_5 t h3) (noflush1_5 t h3)]
    iintro ⟨⟨%a, -, H8, H9, Hoth, Hg⟩, Ho, ⟨%d0, H0⟩, ⟨%d1, H1⟩, ⟨%d2, H2⟩, ⟨%d3, H3⟩, ⟨%d4, H4⟩, H5⟩
    iapply (body1_first c Set.univ (grid1.coords t) ((hcondR1 t).mpr h0) (fun h => h3 ((hcondO1 t).mp h))
      _ _ _ _ _ _ _ _ _ _ _ _ _ _ _ _ (q1 V c t) (kn1 V c t) (vn1 V c t) (kc1 V c t) (vc1 V c t) _)
    isplitl [H0]; · iexact H0
    isplitl [H1]; · iexact H1
    isplitl [H2]; · iexact H2
    isplitl [H3]; · iexact H3
    isplitl [H4]; · iexact H4
    isplitl [H8]; · iexists _; iexact H8
    isplitl [H9]; · iexists _; iexact H9
    iintro ⟨H0, H1, H2, H3, H4, H8, H9⟩
    isplitl [H8 H9 Hoth Hg]
    · iexists (acc1 V c t.val t.isLt)
      isplitr; · ipureintro; intro _; rfl
      rw [acc1_first V c t h0]
      isplitl [H8]; · iexact H8
      isplitl [H9]; · iexact H9
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun e => h0 (by rw [e])
    by_cases h3 : t.val % 4 = 3
    · -- t = 3: the running sums are stepped and their quotient written out
      rw [show (dat1 V c).leavesExact 5 t = owns (c : Thread nD τ) (st1_5 t) fullShare ((dat1 V c).after 5 t) from by
            unfold Dat.leavesExact; rw [live1_5 t h3],
        after1_5]
      iintro ⟨⟨%a, %ha, H8, H9, Hoth, Hg⟩, Ho, ⟨%d0, H0⟩, ⟨%d1, H1⟩, ⟨%d2, H2⟩, ⟨%d3, H3⟩, ⟨%d4, H4⟩, ⟨%d5, H5⟩⟩
      obtain rfl := ha hz
      iapply (body1_last c Set.univ (grid1.coords t) (fun h => h0 ((hcondR1 t).mp h)) ((hcondO1 t).mpr h3)
        _ _ _ _ _ _ _ _ _ _ _ _ _ _ _ _ (q1 V c t) (kn1 V c t) (vn1 V c t) (kc1 V c t) (vc1 V c t) _ _ _)
      isplitl [H0]; · iexact H0
      isplitl [H1]; · iexact H1
      isplitl [H2]; · iexact H2
      isplitl [H3]; · iexact H3
      isplitl [H4]; · iexact H4
      isplitl [H5]; · iexists _; iexact H5
      isplitl [H8]; · iexact H8
      isplitl [H9]; · iexact H9
      iintro ⟨H0, H1, H2, H3, H4, H5, H8, H9⟩
      rw [acc1_next V c t h0]
      isplitl [H8 H9 Hoth Hg]
      · iexists (step1 V c t (acc1 V c (t.val - 1) (Nat.lt_of_le_of_lt (Nat.sub_le _ _) t.isLt)))
        isplitr; · ipureintro; intro _; exact (acc1_next V c t h0).symm
        isplitl [H8]; · iexact H8
        isplitl [H9]; · iexact H9
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5
    · -- 0 < t < 3: the running sums are stepped
      rw [Dat.leavesExact_idle (dat1 V c) 5 t (idle1_5 t h3) (noflush1_5 t h3)]
      iintro ⟨⟨%a, %ha, H8, H9, Hoth, Hg⟩, Ho, ⟨%d0, H0⟩, ⟨%d1, H1⟩, ⟨%d2, H2⟩, ⟨%d3, H3⟩, ⟨%d4, H4⟩, H5⟩
      obtain rfl := ha hz
      iapply (body1_mid c Set.univ (grid1.coords t) (fun h => h0 ((hcondR1 t).mp h)) (fun h => h3 ((hcondO1 t).mp h))
        _ _ _ _ _ _ _ _ _ _ _ _ _ _ _ _ (q1 V c t) (kn1 V c t) (vn1 V c t) (kc1 V c t) (vc1 V c t) _ _ _)
      isplitl [H0]; · iexact H0
      isplitl [H1]; · iexact H1
      isplitl [H2]; · iexact H2
      isplitl [H3]; · iexact H3
      isplitl [H4]; · iexact H4
      isplitl [H8]; · iexact H8
      isplitl [H9]; · iexact H9
      iintro ⟨H0, H1, H2, H3, H4, H8, H9⟩
      isplitl [H8 H9 Hoth Hg]
      · iexists (step1 V c t (acc1 V c (t.val - 1) (Nat.lt_of_le_of_lt (Nat.sub_le _ _) t.isLt)))
        isplitr; · ipureintro; intro _; exact (acc1_next V c t h0).symm
        isplitl [H8]; · iexact H8
        isplitl [H9]; · iexact H9
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with — the generator register and every scoped buffer that is no staging buffer, at
    anything — is the invariant before the first point. -/
theorem hin1 (c : Dev nD) : iprop((∃ r, prngReg c r) ∗ Pipeline.scopedRest (Ix := Unit) (Name := ℕ) (U := UR sig nD τ) (Lvl := ℕ) (Val := Elt F) spec1 c) ⊢ (dat1 V c).Φ 0 := by
  rw [show (dat1 V c).Φ 0 = Phi1 V c 0 (Nat.zero_le _) from rfl, scopedRest1_eq]
  unfold Phi1 other1
  simp only [owns_whole_eq]
  iintro ⟨Hg, O1, O2, O3, O4, O5, O6, O7, O8, O9, O10, O11, O12, O13, O14, O15, O16, ⟨%f8, H8⟩, ⟨%f9, H9⟩⟩
  iexists (f8, f9)
  isplitr; · ipureintro; intro h; exact absurd rfl h
  isplitl [H8]; · iexists f8; isplitr; · ipureintro; rfl
                  iexact H8
  isplitl [H9]; · iexists f9; isplitr; · ipureintro; rfl
                  iexact H9
  isplitr [Hg]
  ·
      isplitl [O1]; · iexact O1
      isplitl [O2]; · iexact O2
      isplitl [O3]; · iexact O3
      isplitl [O4]; · iexact O4
      isplitl [O5]; · iexact O5
      isplitl [O6]; · iexact O6
      isplitl [O7]; · iexact O7
      isplitl [O8]; · iexact O8
      isplitl [O9]; · iexact O9
      isplitl [O10]; · iexact O10
      isplitl [O11]; · iexact O11
      isplitl [O12]; · iexact O12
      isplitl [O13]; · iexact O13
      isplitl [O14]; · iexact O14
      isplitl [O15]; · iexact O15
      iexact O16
  iexact Hg

/-- And the invariant, at any position, gives them back: the running sums' contents are forgotten. -/
theorem hout1 (c : Dev nD) (t : Fin (cfg1.N + 1)) : (dat1 V c).Φ t ⊢ iprop((∃ r, prngReg c r) ∗ Pipeline.scopedRest (Ix := Unit) (Name := ℕ) (U := UR sig nD τ) (Lvl := ℕ) (Val := Elt F) spec1 c) := by
  rw [show (dat1 V c).Φ t = Phi1 V c t.val (Nat.le_of_lt_succ t.isLt) from rfl, scopedRest1_eq]
  unfold Phi1 other1
  simp only [owns_whole_eq]
  iintro ⟨%a, -, ⟨%f8, -, H8⟩, ⟨%f9, -, H9⟩, ⟨O1, O2, O3, O4, O5, O6, O7, O8, O9, O10, O11, O12, O13, O14, O15, O16⟩, Hg⟩
  isplitl [Hg]; · iexact Hg
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [O10]; · iexact O10
  isplitl [O11]; · iexact O11
  isplitl [O12]; · iexact O12
  isplitl [O13]; · iexact O13
  isplitl [O14]; · iexact O14
  isplitl [O15]; · iexact O15
  isplitl [O16]; · iexact O16
  isplitl [H8]; · iexists f8; iexact H8
  iexists f9; iexact H9

end Region1

end Cert.Kernel.Hand

end
-- ==== Proof.KRun.lean ====
import proofs.«404418_j31731218382918_3_alg».proof.Proof.Gen.Kernel.Launch
import proofs.«404418_j31731218382918_3_alg».proof.Proof.Gen.Kernel.Skeleton
import proofs.«404418_j31731218382918_3_alg».proof.Proof.Gen.Kernel.Points
import Idealize.ShloMosaic.Lib.Pipeline.Value
import Idealize.ShloMosaic.Lib.Pipeline.Frame
import Idealize.ShloMosaic.Lib.Pipeline.FrameSuffix
import Idealize.ShloMosaic.Lib.Pipeline.Regions
import Idealize.ShloMosaic.Lib.Pipeline.RegionsLoop
import proofs.«404418_j31731218382918_3_alg».proof.Proof.Gen.Kernel.Regions
import proofs.«404418_j31731218382918_3_alg».proof.Proof.KOblig0
import proofs.«404418_j31731218382918_3_alg».proof.Proof.KOblig1
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! ## The run of the whole program

@main is one host operation (the input rounded to the projection's operand type), the projection region, the
attention region. Between them core `c` holds every unscoped buffer at: the launch contents (`W0`); those after the
host operation (`W1`); those with the projection's three outputs written (`W2`); those with the attention's output
written (`W3`). Every weakly fair execution terminates with every unscoped buffer at `W3`. -/

section Run

variable (m : (ℓ : Loc nD τ sig) → Buf (Elt F) ℓ) (ρ : Dev nD → PrngReg)

/-- Core `c`'s buffers at launch, and after the host operation (the projection region's entry). -/
abbrev W0 : Dev nD → Valuation τ sig (Elt F) := fun c b => (s₀ m ρ).mem ((c : Dev nD), b)
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b

/-- At the projection region's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- At the attention region's exit: its arrays at what the pipeline leaves, every other buffer as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-- The host operation writes `main_v0` only. -/
theorem W1_of (c : Dev nD) (b : Ref sig .tc) (h : b ≠ main_v0) : W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact StableHlo.devRef_ne_of_ne h))

/-! ### The proof data family and what rides beside the buffers -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U2 m ρ) c
abbrev 𝒱₀ : Variants := Variants.none
/-- No core owes another anything: no level is assigned. -/
abbrev Lv : GSem nD τ sig → Finset Unit := fun _ => ∅
abbrev lv : GSem nD τ sig → Unit → ℕ := fun _ _ => 0
/-- Beside the buffers through every segment: the generator register at some state, and the core owing nothing. -/
abbrev R (c : Dev nD) : sProp 𝕄 := iprop((∃ r, prngReg c r) ∗ ∃ W, owes (c : Thread nD τ) (0 : CellTallies nD τ sig Unit) W)
/-- The host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ### The regions as segments -/

set_option backward.isDefEq.respectTransparency.types false in
/-- The projection region: entered from every unscoped buffer at `W1`, left at `W2`. -/
def reg0 : Pipeline.RegionSeg (pcfgs (F := F)) adm (pdats m ρ) () defs₀ 𝒱₀ Lv lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Lv lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (U1 m ρ) c).Φ 0 from rfl]
    iintro ⟨Hp, -, Hr⟩
    iapply (hin0 (U1 m ρ) c)
    isplitl [Hp]; · iexact Hp
    iexact Hr
  hout c := by
    rw [Pipeline.ownSems0_none, show (pdats m ρ 0 c).Φ (Fin.last _) = (dat0 (U1 m ρ) c).Φ (Fin.last cfg0.N) from rfl]
    have hh := hout0 (U1 m ρ) c (Fin.last cfg0.N)
    iintro H
    ihave H' := hh $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W2`, left at `W3`. -/
def reg1 : Pipeline.RegionSeg (pcfgs (F := F)) adm (pdats m ρ) () defs₀ 𝒱₀ Lv lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ Lv lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (U2 m ρ) c).Φ 0 from rfl]
    iintro ⟨Hp, -, Hr⟩
    iapply (hin1 (U2 m ρ) c)
    isplitl [Hp]; · iexact Hp
    iexact Hr
  hout c := by
    rw [Pipeline.ownSems0_none, show (pdats m ρ 1 c).Φ (Fin.last _) = (dat1 (U2 m ρ) c).Φ (Fin.last cfg1.N) from rfl]
    have hh := hout1 (U2 m ρ) c (Fin.last cfg1.N)
    iintro H
    ihave H' := hh $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ### @main as segments, and the launch -/

abbrev segs : List (Pipeline.Seg (pcfgs (F := F)) adm (pdats m ρ) () defs₀ 𝒱₀ Lv lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: every weakly fair execution of @main terminates, nothing faulting, with every unscoped buffer of every
    core at `W3`: the launch contents, the host operation's result, and the two regions' outputs as their pipelines
    leave them. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ Lv lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach Lv lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ### What the last contents are at the arguments: as launched -/

theorem W3_main_arg0 (c : Dev nD) : W3 m ρ c (Proc.devRef .tc main_arg0) = m ((c : Thread nD τ).loc main_arg0) :=
  (W3_of_ne m ρ c main_arg0 (by decide)).trans ((W2_of_ne m ρ c main_arg0 (by decide)).trans ((W1_of m ρ c main_arg0 (by decide)).trans rfl))
theorem W3_main_arg1 (c : Dev nD) : W3 m ρ c (Proc.devRef .tc main_arg1) = m ((c : Thread nD τ).loc main_arg1) :=
  (W3_of_ne m ρ c main_arg1 (by decide)).trans ((W2_arr m ρ c 1).trans (((dat0 (U1 m ρ) c).arrAt_in 1 rfl _).trans
    ((A_eq0 (U1 m ρ) c 1).trans ((W1_of m ρ c main_arg1 (by decide)).trans rfl))))
theorem W3_main_arg2 (c : Dev nD) : W3 m ρ c (Proc.devRef .tc main_arg2) = m ((c : Thread nD τ).loc main_arg2) :=
  (W3_of_ne m ρ c main_arg2 (by decide)).trans ((W2_arr m ρ c 2).trans (((dat0 (U1 m ρ) c).arrAt_in 2 rfl _).trans
    ((A_eq0 (U1 m ρ) c 2).trans ((W1_of m ρ c main_arg2 (by decide)).trans rfl))))
theorem W3_main_arg3 (c : Dev nD) : W3 m ρ c (Proc.devRef .tc main_arg3) = m ((c : Thread nD τ).loc main_arg3) :=
  (W3_of_ne m ρ c main_arg3 (by decide)).trans ((W2_arr m ρ c 3).trans (((dat0 (U1 m ρ) c).arrAt_in 3 rfl _).trans
    ((A_eq0 (U1 m ρ) c 3).trans ((W1_of m ρ c main_arg3 (by decide)).trans rfl))))
theorem W3_main_arg4 (c : Dev nD) : W3 m ρ c (Proc.devRef .tc main_arg4) = m ((c : Thread nD τ).loc main_arg4) :=
  (W3_arr m ρ c 3).trans (((dat1 (U2 m ρ) c).arrAt_in 3 rfl _).trans ((A_eq1 (U2 m ρ) c 3).trans
    ((W2_of_ne m ρ c main_arg4 (by decide)).trans ((W1_of m ρ c main_arg4 (by decide)).trans rfl))))
theorem W3_main_arg5 (c : Dev nD) : W3 m ρ c (Proc.devRef .tc main_arg5) = m ((c : Thread nD τ).loc main_arg5) :=
  (W3_arr m ρ c 4).trans (((dat1 (U2 m ρ) c).arrAt_in 4 rfl _).trans ((A_eq1 (U2 m ρ) c 4).trans
    ((W2_of_ne m ρ c main_arg5 (by decide)).trans ((W1_of m ρ c main_arg5 (by decide)).trans rfl))))

/-- THE FRAME: every weakly fair execution terminates, nothing faulting, with the six argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)) :=
  (θ_run defs _ _).mono (fun r h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c)⟩) (run_all m ρ)

end Run

end Cert.Kernel.Hand

end
-- ==== Proof.KiBody0.lean ====
import proofs.«404418_j31731218382918_3_alg».proof.Proof.Gen.KernelIdeal.Launch
import proofs.«404418_j31731218382918_3_alg».proof.Proof.Gen.KernelIdeal.Skeleton
import proofs.«404418_j31731218382918_3_alg».proof.Proof.Gen.KernelIdeal.Points
import Idealize.ShloMosaic.Lib.Pipeline.Value
import proofs.«404418_j31731218382918_3_alg».proof.Proof.LibWholeBlock
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWholeBlock

/-! ## The projection kernel's body, point by point

At a grid point (n, k) the body multiplies columns k·1024 … k·1024+1023 of the resident input by the point's
block of each of the three weights and adds the product to that weight's accumulator; at k = 0 the accumulators
are zeroed first, at k = 3 they are rounded into the three output blocks. -/

/-- The first branch's condition (the accumulators are zeroed): the second coordinate is 0. -/
abbrev condReset0 (i : grid0.Coords) : Prop := (Scalar.cmpi .ne (Scalar.extui (Scalar.cmpi .eq (BitVec.ofNat 32 (i 1).val) 0#32)) 0#32) = 1#1
/-- The second branch's condition (the outputs are written): the second coordinate is 3. -/
abbrev condOut0 (i : grid0.Coords) : Prop := k0_cond2 i = 1#1

/-- The input's columns the point reads, as a rectangle of the resident block. -/
abbrev rX (i : grid0.Coords) : Rect S1024x4096 := Rect.unit (s := S1024x4096) (k0_off1 i) S1024x1024.size (k0_off1_inb i)

theorem hz2 : (![0, 0] : Fin 2 → Nat) = fun _ => 0 := by funext a; fin_cases a <;> rfl

/-- The input's columns the point at `i` multiplies. -/
def xcols (i : grid0.Coords) (x : Vec F S1024x4096 .bf16) : Vec F S1024x1024 .bf16 := View.ld x (rX i)

/-- One step of each accumulator: the accumulator `a` plus the product of the point's input columns and weight block `w`. -/
def stepQ (i : grid0.Coords) (x : Vec F S1024x4096 .bf16) (w a : Vec F S1024x512 .f32) : Vec F S1024x512 .f32 := k0_pay9 (xcols i x) w a
def stepK (i : grid0.Coords) (x : Vec F S1024x4096 .bf16) (w a : Vec F S1024x512 .f32) : Vec F S1024x512 .f32 := k0_pay10 (xcols i x) w a
def stepV (i : grid0.Coords) (x : Vec F S1024x4096 .bf16) (w a : Vec F S1024x512 .f32) : Vec F S1024x512 .f32 := k0_pay1 (k0_pay11 (xcols i x) w a)

set_option maxHeartbeats 4000000 in
/-- The body at a point with k = 0: the accumulators, at anything, are zeroed and stepped; the output buffers are not touched. -/
theorem body0_first (c : Dev nD) (E : Set ℕ) (i : grid0.Coords) (hr : condReset0 i) (ho : ¬condOut0 i)
    (arg2 : Memref sig .tc .vmem S1024x4096 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole)
    (x : Vec F S1024x4096 .bf16) (w1 w2 w3 : Vec F S1024x512 .f32) (K : PUnit → sProp 𝕄) :
    iprop(owns (c : Thread nD τ) arg2 fullShare x ∗ owns (c : Thread nD τ) arg3 fullShare w1 ∗ owns (c : Thread nD τ) arg4 fullShare w2 ∗ owns (c : Thread nD τ) arg5 fullShare w3
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x ∗ owns (c : Thread nD τ) arg3 fullShare w1 ∗ owns (c : Thread nD τ) arg4 fullShare w2 ∗ owns (c : Thread nD τ) arg5 fullShare w3
            ∗ owns (c : Thread nD τ) arg9 fullShare (stepQ i x w1 k0_pay5) ∗ owns (c : Thread nD τ) arg10 fullShare (stepK i x w2 k0_pay6) ∗ owns (c : Thread nD τ) arg11 fullShare (stepV i x w3 k0_pay7)) -∗ K ⟨⟩))
      ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11) K := by
  simp only [cc0__qkv_kernel_eq_skeleton]; unfold cc0__qkv_kernel_skel
  unfold owns
  iintro ⟨⟨%f2, %hf2, H2⟩, ⟨%f3, %hf3, H3⟩, ⟨%f4, %hf4, H4⟩, ⟨%f5, %hf5, H5⟩, ⟨%d9, %f9, -, H9⟩, ⟨%d10, %f10, -, H10⟩, ⟨%d11, %f11, -, H11⟩, Hk⟩
  subst hf2; subst hf3; subst hf4; subst hf5
  sl_exec (disch := first | exact hr | exact ho)
  sl_step
  sl_unfold_run_names
  iapply Hk
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H9]
  · iexists _; isplitr
    swap; · iexact H9
    ipureintro
    rw [readAt_whole _ hz2]
    exact read_store_load_store arg9.view hz2 _ f9 k0_pay5 (fun a => k0_pay9 (xcols i (arg2.view.read (Elt F) f2)) (arg3.view.read (Elt F) f3) a)
  isplitl [H10]
  · iexists _; isplitr
    swap; · iexact H10
    ipureintro
    rw [readAt_whole _ hz2]
    exact read_store_load_store arg10.view hz2 _ f10 k0_pay6 (fun a => k0_pay10 (xcols i (arg2.view.read (Elt F) f2)) (arg4.view.read (Elt F) f4) a)
  · iexists _; isplitr
    swap; · iexact H11
    ipureintro
    rw [readAt_whole _ hz2]
    exact read_store_load_store arg11.view hz2 _ f11 k0_pay7 (fun a => k0_pay1 (k0_pay11 (xcols i (arg2.view.read (Elt F) f2)) (arg5.view.read (Elt F) f5) a))

set_option maxHeartbeats 4000000 in
/-- The body at a point with 0 < k < 3: the accumulators are stepped; the output buffers are not touched. -/
theorem body0_mid (c : Dev nD) (E : Set ℕ) (i : grid0.Coords) (hr : ¬condReset0 i) (ho : ¬condOut0 i)
    (arg2 : Memref sig .tc .vmem S1024x4096 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole)
    (x : Vec F S1024x4096 .bf16) (w1 w2 w3 a9 a10 a11 : Vec F S1024x512 .f32) (K : PUnit → sProp 𝕄) :
    iprop(owns (c : Thread nD τ) arg2 fullShare x ∗ owns (c : Thread nD τ) arg3 fullShare w1 ∗ owns (c : Thread nD τ) arg4 fullShare w2 ∗ owns (c : Thread nD τ) arg5 fullShare w3
        ∗ owns (c : Thread nD τ) arg9 fullShare a9 ∗ owns (c : Thread nD τ) arg10 fullShare a10 ∗ owns (c : Thread nD τ) arg11 fullShare a11
        ∗ (iprop(owns (c : Thread nD τ) arg2 fullShare x ∗ owns (c : Thread nD τ) arg3 fullShare w1 ∗ owns (c : Thread nD τ) arg4 fullShare w2 ∗ owns (c : Thread nD τ) arg5 fullShare w3
            ∗ owns (c : Thread nD τ) arg9 fullShare (stepQ i x w1 a9) ∗ owns (c : Thread nD τ) arg10 fullShare (stepK i x w2 a10) ∗ owns (c : Thread nD τ) arg11 fullShare (stepV i x w3 a11)) -∗ K ⟨⟩))
      ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11) K := by
  simp only [cc0__qkv_kernel_eq_skeleton]; unfold cc0__qkv_kernel_skel
  unfold owns
  iintro ⟨⟨%f2, %hf2, H2⟩, ⟨%f3, %hf3, H3⟩, ⟨%f4, %hf4, H4⟩, ⟨%f5, %hf5, H5⟩, ⟨%f9, %hf9, H9⟩, ⟨%f10, %hf10, H10⟩, ⟨%f11, %hf11, H11⟩, Hk⟩
  subst hf2; subst hf3; subst hf4; subst hf5; subst hf9; subst hf10; subst hf11
  sl_exec (disch := first | exact hr | exact ho)
  sl_step
  sl_unfold_run_names
  iapply Hk
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H9]
  · iexists _; isplitr
    swap; · iexact H9
    ipureintro
    rw [readAt_whole _ hz2, readAt_whole _ hz2]
    exact read_store arg9.view hz2 _ f9 _
  isplitl [H10]
  · iexists _; isplitr
    swap; · iexact H10
    ipureintro
    rw [readAt_whole _ hz2, readAt_whole _ hz2]
    exact read_store arg10.view hz2 _ f10 _
  · iexists _; isplitr
    swap; · iexact H11
    ipureintro
    rw [readAt_whole _ hz2, readAt_whole _ hz2]
    exact read_store arg11.view hz2 _ f11 _

set_option maxHeartbeats 4000000 in
/-- The body at a point with k = 3: the accumulators are stepped and rounded into the three output blocks, whatever those held. -/
theorem body0_last (c : Dev nD) (E : Set ℕ) (i : grid0.Coords) (hr : ¬condReset0 i) (ho : condOut0 i)
    (arg2 : Memref sig .tc .vmem S1024x4096 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole)
    (x : Vec F S1024x4096 .bf16) (w1 w2 w3 a9 a10 a11 : Vec F S1024x512 .f32) (K : PUnit → sProp 𝕄) :
    iprop(owns (c : Thread nD τ) arg2 fullShare x ∗ owns (c : Thread nD τ) arg3 fullShare w1 ∗ owns (c : Thread nD τ) arg4 fullShare w2 ∗ owns (c : Thread nD τ) arg5 fullShare w3
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare a9 ∗ owns (c : Thread nD τ) arg10 fullShare a10 ∗ owns (c : Thread nD τ) arg11 fullShare a11
        ∗ (iprop(owns (c : Thread nD τ) arg2 fullShare x ∗ owns (c : Thread nD τ) arg3 fullShare w1 ∗ owns (c : Thread nD τ) arg4 fullShare w2 ∗ owns (c : Thread nD τ) arg5 fullShare w3
            ∗ owns (c : Thread nD τ) arg6 fullShare (k0_pay2 (stepQ i x w1 a9)) ∗ owns (c : Thread nD τ) arg7 fullShare (k0_pay3 (stepK i x w2 a10)) ∗ owns (c : Thread nD τ) arg8 fullShare (k0_pay4 (stepV i x w3 a11))
            ∗ owns (c : Thread nD τ) arg9 fullShare (stepQ i x w1 a9) ∗ owns (c : Thread nD τ) arg10 fullShare (stepK i x w2 a10) ∗ owns (c : Thread nD τ) arg11 fullShare (stepV i x w3 a11)) -∗ K ⟨⟩))
      ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11) K := by
  simp only [cc0__qkv_kernel_eq_skeleton]; unfold cc0__qkv_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, ⟨%f11, %hf11, H11⟩, Hk⟩
  subst hf2; subst hf3; subst hf4; subst hf5; subst hf9; subst hf10; subst hf11
  sl_exec (disch := first | exact hr | exact ho)
  sl_step
  sl_unfold_run_names
  iapply Hk
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]
  · iexists _; isplitr
    swap; · iexact H6
    ipureintro
    rw [View.readCov_unit_zero _ hz2, readAt_whole _ hz2, readAt_whole _ hz2]
    exact read_store arg6.view hz2 _ f6 _
  isplitl [H7]
  · iexists _; isplitr
    swap; · iexact H7
    ipureintro
    rw [View.readCov_unit_zero _ hz2, readAt_whole _ hz2, readAt_whole _ hz2]
    exact read_store arg7.view hz2 _ f7 _
  isplitl [H8]
  · iexists _; isplitr
    swap; · iexact H8
    ipureintro
    rw [View.readCov_unit_zero _ hz2, readAt_whole _ hz2, readAt_whole _ hz2]
    exact read_store arg8.view hz2 _ f8 _
  isplitl [H9]
  · iexists _; isplitr
    swap; · iexact H9
    ipureintro
    rw [readAt_whole _ hz2, readAt_whole _ hz2]
    exact read_store arg9.view hz2 _ f9 _
  isplitl [H10]
  · iexists _; isplitr
    swap; · iexact H10
    ipureintro
    rw [readAt_whole _ hz2, readAt_whole _ hz2]
    exact read_store arg10.view hz2 _ f10 _
  · iexists _; isplitr
    swap; · iexact H11
    ipureintro
    rw [readAt_whole _ hz2, readAt_whole _ hz2]
    exact read_store arg11.view hz2 _ f11 _

end Cert.KernelIdeal.Hand

end
-- ==== Proof.KiData0.lean ====
import proofs.«404418_j31731218382918_3_alg».proof.Proof.Gen.KernelIdeal.Launch
import proofs.«404418_j31731218382918_3_alg».proof.Proof.Gen.KernelIdeal.Skeleton
import proofs.«404418_j31731218382918_3_alg».proof.Proof.Gen.KernelIdeal.Points
import Idealize.ShloMosaic.Lib.Pipeline.Value
import Idealize.ShloMosaic.Lib.Pipeline.Frame
import proofs.«404418_j31731218382918_3_alg».proof.Proof.KiBody0
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWholeBlock

/-! ## The projection region's proof data

The three accumulators are carried from point to point of a column block n: after point (n, k) they hold the
sum over the input-column blocks 0 … k of the products with the weights' blocks; the output blocks are their
roundings after k = 3. -/

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The resident input and the three weights' blocks at a point, at their literal types. -/
abbrev xb0 (c : Dev nD) (t : Fin cfg0.N) : Vec F S1024x4096 .bf16 := iblk0 V c 0 t
abbrev wq0 (c : Dev nD) (t : Fin cfg0.N) : Vec F S1024x512 .f32 := iblk0 V c 1 t
abbrev wk0 (c : Dev nD) (t : Fin cfg0.N) : Vec F S1024x512 .f32 := iblk0 V c 2 t
abbrev wv0 (c : Dev nD) (t : Fin cfg0.N) : Vec F S1024x512 .f32 := iblk0 V c 3 t

/-- The three accumulators' contents. -/
abbrev Acc3 (F : FTy → Type) [FloatOps F] : Type := Vec F S1024x512 .f32 × Vec F S1024x512 .f32 × Vec F S1024x512 .f32

/-- The zeroed accumulators, and one point's step of all three. -/
def zero3 : Acc3 F := (k0_pay5, k0_pay6, k0_pay7)
def step0 (c : Dev nD) (t : Fin cfg0.N) (a : Acc3 F) : Acc3 F :=
  (stepQ (grid0.coords t) (xb0 V c t) (wq0 V c t) a.1, stepK (grid0.coords t) (xb0 V c t) (wk0 V c t) a.2.1,
    stepV (grid0.coords t) (xb0 V c t) (wv0 V c t) a.2.2)

/-- THE ACCUMULATION: what the three scratch buffers hold after the body at position `n` — the step of the zeroed
    accumulators at a point with k = 0, else the step of what the point before left. -/
def acc0 (c : Dev nD) : (n : ℕ) → n < cfg0.N → Acc3 F
  | 0, hn => step0 V c ⟨0, hn⟩ zero3
  | n + 1, hn => step0 V c ⟨n + 1, hn⟩ (if (n + 1) % 4 = 0 then zero3 else acc0 c n (Nat.lt_of_succ_lt hn))

theorem acc0_first (c : Dev nD) (t : Fin cfg0.N) (h : t.val % 4 = 0) : acc0 V c t.val t.isLt = step0 V c t zero3 := by
  obtain ⟨n, hn⟩ := t
  cases n with
  | zero => rfl
  | succ n => exact congrArg (step0 V c ⟨n + 1, hn⟩) (if_pos h)

theorem acc0_next (c : Dev nD) (t : Fin cfg0.N) (h : ¬t.val % 4 = 0) :
    acc0 V c t.val t.isLt = step0 V c t (acc0 V c (t.val - 1) (Nat.lt_of_le_of_lt (Nat.sub_le _ _) t.isLt)) := by
  obtain ⟨n, hn⟩ := t
  cases n with
  | zero => exact absurd (Nat.zero_mod _) h
  | succ n => exact congrArg (step0 V c ⟨n + 1, hn⟩) (if_neg h)

/-- The scoped buffers the projection kernel never touches (the attention region's), each at some contents. -/
def other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The region's invariant before position `n`: the three accumulators at SOME contents — after the first point,
    those the point before left —, the untouched scoped buffers, the generator register at some state. -/
def Phi0 (c : Dev nD) (n : ℕ) (hn : n ≤ cfg0.N) : sProp 𝕄 :=
  iprop(∃ a : Acc3 F, ⌜∀ h : n ≠ 0, a = acc0 V c (n - 1) (by omega)⌝
    ∗ owns (c : Thread nD τ) (Memref.whole cc0_scratch0) fullShare a.1
    ∗ owns (c : Thread nD τ) (Memref.whole cc0_scratch1) fullShare a.2.1
    ∗ owns (c : Thread nD τ) (Memref.whole cc0_scratch2) fullShare a.2.2
    ∗ other0 c ∗ (∃ r, prngReg c r))

/-- The proof data of the projection pipeline on core `c`: the arrays as the region finds them; after the body each
    input's buffer at its block, each output's at the rounding of its accumulator; the invariant `Phi0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay2 (acc0 V c t.val t.isLt).1
    | ⟨5, _⟩ => k0_pay3 (acc0 V c t.val t.isLt).2.1
    | ⟨6, _⟩ => k0_pay4 (acc0 V c t.val t.isLt).2.2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay2 (acc0 V c t.val t.isLt).1 := by dsimp only [dat0]
theorem after0_5 (c : Dev nD) (t : Fin cfg0.N) : (dat0 V c).after 5 t = k0_pay3 (acc0 V c t.val t.isLt).2.1 := by dsimp only [dat0]
theorem after0_6 (c : Dev nD) (t : Fin cfg0.N) : (dat0 V c).after 6 t = k0_pay4 (acc0 V c t.val t.isLt).2.2 := by dsimp only [dat0]

/-- Each input's current staging buffer holds its block at every point, fetched there or not: the body leaves it in place. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ### The branch conditions and the output windows' idle points, decided over the grid -/

theorem hcondR0 : ∀ t : Fin cfg0.N, condReset0 (grid0.coords t) ↔ t.val % 4 = 0 :=
  (by decide +kernel : ∀ t : Fin grid0.N, condReset0 (grid0.coords t) ↔ t.val % 4 = 0)
theorem hcondO0 : ∀ t : Fin cfg0.N, condOut0 (grid0.coords t) ↔ t.val % 4 = 3 :=
  (by decide +kernel : ∀ t : Fin grid0.N, condOut0 (grid0.coords t) ↔ t.val % 4 = 3)
theorem idle0_4 : ∀ t : Fin cfg0.N, ¬t.val % 4 = 3 → cfg0.idle 4 (grid0.coords t) = true :=
  (by decide +kernel : ∀ t : Fin grid0.N, ¬t.val % 4 = 3 → cfg0.idle 4 (grid0.coords t) = true)
theorem live0_4 : ∀ t : Fin cfg0.N, t.val % 4 = 3 → cfg0.idle 4 (grid0.coords t) = false :=
  (by decide +kernel : ∀ t : Fin grid0.N, t.val % 4 = 3 → cfg0.idle 4 (grid0.coords t) = false)
theorem noflush0_4 (t : Fin cfg0.N) (h : ¬t.val % 4 = 3) : (cfg0.win 4).flush t = false := by
  cases hf : (cfg0.win 4).flush t
  · rfl
  · exact absurd ((flush0_4 t).mp hf) h
theorem idle0_5 : ∀ t : Fin cfg0.N, ¬t.val % 4 = 3 → cfg0.idle 5 (grid0.coords t) = true :=
  (by decide +kernel : ∀ t : Fin grid0.N, ¬t.val % 4 = 3 → cfg0.idle 5 (grid0.coords t) = true)
theorem live0_5 : ∀ t : Fin cfg0.N, t.val % 4 = 3 → cfg0.idle 5 (grid0.coords t) = false :=
  (by decide +kernel : ∀ t : Fin grid0.N, t.val % 4 = 3 → cfg0.idle 5 (grid0.coords t) = false)
theorem noflush0_5 (t : Fin cfg0.N) (h : ¬t.val % 4 = 3) : (cfg0.win 5).flush t = false := by
  cases hf : (cfg0.win 5).flush t
  · rfl
  · exact absurd ((flush0_5 t).mp hf) h
theorem idle0_6 : ∀ t : Fin cfg0.N, ¬t.val % 4 = 3 → cfg0.idle 6 (grid0.coords t) = true :=
  (by decide +kernel : ∀ t : Fin grid0.N, ¬t.val % 4 = 3 → cfg0.idle 6 (grid0.coords t) = true)
theorem live0_6 : ∀ t : Fin cfg0.N, t.val % 4 = 3 → cfg0.idle 6 (grid0.coords t) = false :=
  (by decide +kernel : ∀ t : Fin grid0.N, t.val % 4 = 3 → cfg0.idle 6 (grid0.coords t) = false)
theorem noflush0_6 (t : Fin cfg0.N) (h : ¬t.val % 4 = 3) : (cfg0.win 6).flush t = false := by
  cases hf : (cfg0.win 6).flush t
  · rfl
  · exact absurd ((flush0_6 t).mp hf) h

end Region0

end Cert.KernelIdeal.Hand

end
-- ==== Proof.KiOblig0.lean ====
import proofs.«404418_j31731218382918_3_alg».proof.Proof.Gen.KernelIdeal.Launch
import proofs.«404418_j31731218382918_3_alg».proof.Proof.Gen.KernelIdeal.Skeleton
import proofs.«404418_j31731218382918_3_alg».proof.Proof.Gen.KernelIdeal.Points
import Idealize.ShloMosaic.Lib.Pipeline.Value
import Idealize.ShloMosaic.Lib.Pipeline.Frame
import proofs.«404418_j31731218382918_3_alg».proof.Proof.KiData0
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWholeBlock

/-! ## The projection region's body obligation

At every point the body, handed the invariant and the seven windows' current buffers, returns the invariant at
the next position and each buffer at what the proof data says: by cases on the second coordinate k. -/

section Region0

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

theorem leaves_in0 (c : Dev nD) (t : Fin cfg0.N) :
    (dat0 V c).leavesExact 0 t = owns (c : Thread nD τ) (st0_0 t) fullShare (iblk0 V c 0 t)
    ∧ (dat0 V c).leavesExact 1 t = owns (c : Thread nD τ) (st0_1 t) fullShare (iblk0 V c 1 t)
    ∧ (dat0 V c).leavesExact 2 t = owns (c : Thread nD τ) (st0_2 t) fullShare (iblk0 V c 2 t)
    ∧ (dat0 V c).leavesExact 3 t = owns (c : Thread nD τ) (st0_3 t) fullShare (iblk0 V c 3 t) := by
  refine ⟨?_, ?_, ?_, ?_⟩
  · rw [← after0_0 V c t]
  · rw [← after0_1 V c t]
  · rw [← after0_2 V c t]
  · rw [← after0_3 V c t]

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  obtain ⟨hl0, hl1, hl2, hl3⟩ := leaves_in0 V c t
  rw [hl0, hl1, hl2, hl3]
  rw [show (dat0 V c).owesAt () t.succ = (dat0 V c).owesAt () t.castSucc from rfl]
  rw [show (dat0 V c).Φ t.succ = Phi0 V c (t.val + 1) t.isLt from rfl, Phi0_castSucc]
  unfold Phi0
  by_cases h0 : t.val % 4 = 0
  · -- k = 0: the accumulators are zeroed and stepped
    have h3 : ¬t.val % 4 = 3 := by omega
    rw [Dat.leavesExact_idle (dat0 V c) 4 t (idle0_4 t h3) (noflush0_4 t h3),
      Dat.leavesExact_idle (dat0 V c) 5 t (idle0_5 t h3) (noflush0_5 t h3),
      Dat.leavesExact_idle (dat0 V c) 6 t (idle0_6 t h3) (noflush0_6 t h3)]
    iintro ⟨⟨%a, -, H9, H10, H11, Hoth, Hg⟩, Ho, ⟨%d0, H0⟩, ⟨%d1, H1⟩, ⟨%d2, H2⟩, ⟨%d3, H3⟩, H4, H5, H6⟩
    iapply (body0_first c Set.univ (grid0.coords t) ((hcondR0 t).mpr h0) (fun h => h3 ((hcondO0 t).mp h))
      _ _ _ _ _ _ _ _ _ _ _ _ _ _ _ _ _ _ _ _ (xb0 V c t) (wq0 V c t) (wk0 V c t) (wv0 V c t) _)
    isplitl [H0]; · iexact H0
    isplitl [H1]; · iexact H1
    isplitl [H2]; · iexact H2
    isplitl [H3]; · iexact H3
    isplitl [H9]; · iexists _; iexact H9
    isplitl [H10]; · iexists _; iexact H10
    isplitl [H11]; · iexists _; iexact H11
    iintro ⟨H0, H1, H2, H3, H9, H10, H11⟩
    isplitl [H9 H10 H11 Hoth Hg]
    · iexists (acc0 V c t.val t.isLt)
      isplitr; · ipureintro; intro _; rfl
      rw [acc0_first V c t h0]
      isplitl [H9]; · iexact H9
      isplitl [H10]; · iexact H10
      isplitl [H11]; · iexact H11
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hz : t.val ≠ 0 := fun e => h0 (by rw [e])
    by_cases h3 : t.val % 4 = 3
    · -- k = 3: the accumulators are stepped and written out
      rw [show (dat0 V c).leavesExact 4 t = owns (c : Thread nD τ) (st0_4 t) fullShare ((dat0 V c).after 4 t) from by
            unfold Dat.leavesExact; rw [live0_4 t h3],
        show (dat0 V c).leavesExact 5 t = owns (c : Thread nD τ) (st0_5 t) fullShare ((dat0 V c).after 5 t) from by
            unfold Dat.leavesExact; rw [live0_5 t h3],
        show (dat0 V c).leavesExact 6 t = owns (c : Thread nD τ) (st0_6 t) fullShare ((dat0 V c).after 6 t) from by
            unfold Dat.leavesExact; rw [live0_6 t h3],
        after0_4, after0_5, after0_6]
      iintro ⟨⟨%a, %ha, H9, H10, H11, Hoth, Hg⟩, Ho, ⟨%d0, H0⟩, ⟨%d1, H1⟩, ⟨%d2, H2⟩, ⟨%d3, H3⟩, ⟨%d4, H4⟩, ⟨%d5, H5⟩, ⟨%d6, H6⟩⟩
      obtain rfl := ha hz
      iapply (body0_last c Set.univ (grid0.coords t) (fun h => h0 ((hcondR0 t).mp h)) ((hcondO0 t).mpr h3)
        _ _ _ _ _ _ _ _ _ _ _ _ _ _ _ _ _ _ _ _ (xb0 V c t) (wq0 V c t) (wk0 V c t) (wv0 V c t) _ _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H9]; · iexact H9
      isplitl [H10]; · iexact H10
      isplitl [H11]; · iexact H11
      iintro ⟨H0, H1, H2, H3, H4, H5, H6, H9, H10, H11⟩
      rw [acc0_next V c t h0]
      isplitl [H9 H10 H11 Hoth Hg]
      · iexists (step0 V c t (acc0 V c (t.val - 1) (Nat.lt_of_le_of_lt (Nat.sub_le _ _) t.isLt)))
        isplitr; · ipureintro; intro _; exact (acc0_next V c t h0).symm
        isplitl [H9]; · iexact H9
        isplitl [H10]; · iexact H10
        isplitl [H11]; · iexact H11
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- 0 < k < 3: the accumulators are stepped
      rw [Dat.leavesExact_idle (dat0 V c) 4 t (idle0_4 t h3) (noflush0_4 t h3),
        Dat.leavesExact_idle (dat0 V c) 5 t (idle0_5 t h3) (noflush0_5 t h3),
        Dat.leavesExact_idle (dat0 V c) 6 t (idle0_6 t h3) (noflush0_6 t h3)]
      iintro ⟨⟨%a, %ha, H9, H10, H11, Hoth, Hg⟩, Ho, ⟨%d0, H0⟩, ⟨%d1, H1⟩, ⟨%d2, H2⟩, ⟨%d3, H3⟩, H4, H5, H6⟩
      obtain rfl := ha hz
      iapply (body0_mid c Set.univ (grid0.coords t) (fun h => h0 ((hcondR0 t).mp h)) (fun h => h3 ((hcondO0 t).mp h))
        _ _ _ _ _ _ _ _ _ _ _ _ _ _ _ _ _ _ _ _ (xb0 V c t) (wq0 V c t) (wk0 V c t) (wv0 V c t) _ _ _ _)
      isplitl [H0]; · iexact H0
      isplitl [H1]; · iexact H1
      isplitl [H2]; · iexact H2
      isplitl [H3]; · iexact H3
      isplitl [H9]; · iexact H9
      isplitl [H10]; · iexact H10
      isplitl [H11]; · iexact H11
      iintro ⟨H0, H1, H2, H3, H9, H10, H11⟩
      isplitl [H9 H10 H11 Hoth Hg]
      · iexists (step0 V c t (acc0 V c (t.val - 1) (Nat.lt_of_le_of_lt (Nat.sub_le _ _) t.isLt)))
        isplitr; · ipureintro; intro _; exact (acc0_next V c t h0).symm
        isplitl [H9]; · iexact H9
        isplitl [H10]; · iexact H10
        isplitl [H11]; · iexact H11
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with — the generator register and every scoped buffer that is no staging buffer, at
    anything — is the invariant before the first point. -/
theorem hin0 (c : Dev nD) : iprop((∃ r, prngReg c r) ∗ Pipeline.scopedRest (Ix := Unit) (Name := ℕ) (U := UR sig nD τ) (Lvl := ℕ) (Val := Elt F) spec0 c) ⊢ (dat0 V c).Φ 0 := by
  rw [show (dat0 V c).Φ 0 = Phi0 V c 0 (Nat.zero_le _) from rfl, scopedRest0_eq]
  unfold Phi0 other0
  simp only [owns_whole_eq]
  iintro ⟨Hg, ⟨%f9, H9⟩, ⟨%f10, H10⟩, ⟨%f11, H11⟩, Hoth⟩
  iexists (f9, f10, f11)
  isplitr; · ipureintro; intro h; exact absurd rfl h
  isplitl [H9]; · iexists f9; isplitr; · ipureintro; rfl
                  iexact H9
  isplitl [H10]; · iexists f10; isplitr; · ipureintro; rfl
                   iexact H10
  isplitl [H11]; · iexists f11; isplitr; · ipureintro; rfl
                   iexact H11
  isplitl [Hoth]; · iexact Hoth
  iexact Hg

/-- And the invariant, at any position, gives them back: the accumulators' contents are forgotten. -/
theorem hout0 (c : Dev nD) (t : Fin (cfg0.N + 1)) : (dat0 V c).Φ t ⊢ iprop((∃ r, prngReg c r) ∗ Pipeline.scopedRest (Ix := Unit) (Name := ℕ) (U := UR sig nD τ) (Lvl := ℕ) (Val := Elt F) spec0 c) := by
  rw [show (dat0 V c).Φ t = Phi0 V c t.val (Nat.le_of_lt_succ t.isLt) from rfl, scopedRest0_eq]
  unfold Phi0 other0
  simp only [owns_whole_eq]
  iintro ⟨%a, -, ⟨%f9, -, H9⟩, ⟨%f10, -, H10⟩, ⟨%f11, -, H11⟩, Hoth, Hg⟩
  isplitl [Hg]; · iexact Hg
  isplitl [H9]; · iexists f9; iexact H9
  isplitl [H10]; · iexists f10; iexact H10
  isplitl [H11]; · iexists f11; iexact H11
  iexact Hoth

end Region0

end Cert.KernelIdeal.Hand

end
-- ==== Proof.KiDefs1.lean ====
import proofs.«404418_j31731218382918_3_alg».proof.Proof.Gen.KernelIdeal.Launch
import proofs.«404418_j31731218382918_3_alg».proof.Proof.Gen.KernelIdeal.Skeleton
import proofs.«404418_j31731218382918_3_alg».proof.Proof.Gen.KernelIdeal.Points
import Idealize.ShloMosaic.Lib.Pipeline.Value
import proofs.«404418_j31731218382918_3_alg».proof.Proof.LibWholeBlock
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWholeBlock

/-! ## The attention kernel's body, point by point

At a grid point (h, t) the body takes head h's queries, the t-th tile of 1024 cache rows of that head — the
new keys and values in its place at t = 2 —, forms the 1024 × 1024 exponentials of the scores, adds their row
sums to the running denominator and their product with the values to the running numerator; at t = 0 both
are zeroed first, at t = 3 the quotient is written into the output block. -/

/-- The first branch's condition (the running sums are zeroed): the second coordinate is 0. -/
abbrev condReset1 (i : grid1.Coords) : Prop := (Scalar.cmpi .ne (Scalar.extui (Scalar.cmpi .eq (BitVec.ofNat 32 (i 1).val) 0#32)) 0#32) = 1#1
/-- The second branch's condition (the output is written): the second coordinate is 3. -/
abbrev condOut1 (i : grid1.Coords) : Prop := k1_cond2 i = 1#1

theorem hz2' : (![0, 0] : Fin 2 → Nat) = fun _ => 0 := by funext a; fin_cases a <;> rfl
theorem hz3 : (![0, 0, 0] : Fin 3 → Nat) = fun _ => 0 := by funext a; fin_cases a <;> rfl

/-- One step of the running denominator `l` and of the running numerator `a`, from the queries `q`, the new keys
    and values `kn`, `vn`, and the cache tiles `kc`, `vc`. -/
def stepL (i : grid1.Coords) (q kn : Vec F S1024x128 .bf16) (kc : Vec F S1x1024x128 .f32) (l : Vec F S1024x1 .f32) : Vec F S1024x1 .f32 := k1_pay6 i kn kc q l
def stepA (i : grid1.Coords) (q kn vn : Vec F S1024x128 .bf16) (kc vc : Vec F S1x1024x128 .f32) (a : Vec F S1024x128 .f32) : Vec F S1024x128 .f32 := k1_pay1 a (k1_pay7 i kn kc vn vc q)

end Cert.KernelIdeal.Hand

end
-- ==== Proof.KiData1.lean ====
import proofs.«404418_j31731218382918_3_alg».proof.Proof.Gen.KernelIdeal.Launch
import proofs.«404418_j31731218382918_3_alg».proof.Proof.Gen.KernelIdeal.Skeleton
import proofs.«404418_j31731218382918_3_alg».proof.Proof.Gen.KernelIdeal.Points
import Idealize.ShloMosaic.Lib.Pipeline.Value
import Idealize.ShloMosaic.Lib.Pipeline.Frame
import proofs.«404418_j31731218382918_3_alg».proof.Proof.KiDefs1
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWholeBlock

/-! ## The attention region's proof data

The running denominator and numerator of a head are carried over its four cache tiles: after point (h, t) they
hold the sums over tiles 0 … t; the output block of head h is their quotient after t = 3. -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The head's queries, new keys and values, and the point's cache tiles, at their literal types. -/
abbrev q1 (c : Dev nD) (t : Fin cfg1.N) : Vec F S1024x128 .bf16 := iblk1 V c 0 t
abbrev kn1 (c : Dev nD) (t : Fin cfg1.N) : Vec F S1024x128 .bf16 := iblk1 V c 1 t
abbrev vn1 (c : Dev nD) (t : Fin cfg1.N) : Vec F S1024x128 .bf16 := iblk1 V c 2 t
abbrev kc1 (c : Dev nD) (t : Fin cfg1.N) : Vec F S1x1024x128 .f32 := iblk1 V c 3 t
abbrev vc1 (c : Dev nD) (t : Fin cfg1.N) : Vec F S1x1024x128 .f32 := iblk1 V c 4 t

/-- The running denominator and numerator. -/
abbrev Acc2 (F : FTy → Type) [FloatOps F] : Type := Vec F S1024x1 .f32 × Vec F S1024x128 .f32

/-- The zeroed running sums, and one point's step of both. -/
def zero2 : Acc2 F := (k1_pay3, k1_pay4)
def step1 (c : Dev nD) (t : Fin cfg1.N) (a : Acc2 F) : Acc2 F :=
  (stepL (grid1.coords t) (q1 V c t) (kn1 V c t) (kc1 V c t) a.1,
    stepA (grid1.coords t) (q1 V c t) (kn1 V c t) (vn1 V c t) (kc1 V c t) (vc1 V c t) a.2)

/-- THE ACCUMULATION: what the two scratch buffers hold after the body at position `n` — the step of the zeroed sums
    at a point with t = 0, else the step of what the point before left. -/
def acc1 (c : Dev nD) : (n : ℕ) → n < cfg1.N → Acc2 F
  | 0, hn => step1 V c ⟨0, hn⟩ zero2
  | n + 1, hn => step1 V c ⟨n + 1, hn⟩ (if (n + 1) % 4 = 0 then zero2 else acc1 c n (Nat.lt_of_succ_lt hn))

theorem acc1_first (c : Dev nD) (t : Fin cfg1.N) (h : t.val % 4 = 0) : acc1 V c t.val t.isLt = step1 V c t zero2 := by
  obtain ⟨n, hn⟩ := t
  cases n with
  | zero => rfl
  | succ n => exact congrArg (step1 V c ⟨n + 1, hn⟩) (if_pos h)

theorem acc1_next (c : Dev nD) (t : Fin cfg1.N) (h : ¬t.val % 4 = 0) :
    acc1 V c t.val t.isLt = step1 V c t (acc1 V c (t.val - 1) (Nat.lt_of_le_of_lt (Nat.sub_le _ _) t.isLt)) := by
  obtain ⟨n, hn⟩ := t
  cases n with
  | zero => exact absurd (Nat.zero_mod _) h
  | succ n => exact congrArg (step1 V c ⟨n + 1, hn⟩) (if_neg h)

/-- The scoped buffers the attention kernel never touches (the projection region's), each at some contents. -/
def other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

/-- The region's invariant before position `n`: the two running sums at SOME contents — after the first point, those
    the point before left —, the untouched scoped buffers, the generator register at some state. -/
def Phi1 (c : Dev nD) (n : ℕ) (hn : n ≤ cfg1.N) : sProp 𝕄 :=
  iprop(∃ a : Acc2 F, ⌜∀ h : n ≠ 0, a = acc1 V c (n - 1) (by omega)⌝
    ∗ owns (c : Thread nD τ) (Memref.whole cc1_scratch0) fullShare a.1
    ∗ owns (c : Thread nD τ) (Memref.whole cc1_scratch1) fullShare a.2
    ∗ other1 c ∗ (∃ r, prngReg c r))

/-- The proof data of the attention pipeline on core `c`: the arrays as the region finds them; after the body each
    input's buffer at its block, the output's at the quotient of the running sums; the invariant `Phi1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay2 (acc1 V c t.val t.isLt).2 (acc1 V c t.val t.isLt).1
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k1_pay2 (acc1 V c t.val t.isLt).2 (acc1 V c t.val t.isLt).1 := by dsimp only [dat1]

/-- Each input's current staging buffer holds its block at every point, fetched there or not: the body leaves it in
    place (a cache tile is not fetched at t = 2, where the index map repeats tile 1's block: it is still there). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ### The branch conditions and the output window's idle points, decided over the grid -/

theorem hcondR1 : ∀ t : Fin cfg1.N, condReset1 (grid1.coords t) ↔ t.val % 4 = 0 :=
  (by decide +kernel : ∀ t : Fin grid1.N, condReset1 (grid1.coords t) ↔ t.val % 4 = 0)
theorem hcondO1 : ∀ t : Fin cfg1.N, condOut1 (grid1.coords t) ↔ t.val % 4 = 3 :=
  (by decide +kernel : ∀ t : Fin grid1.N, condOut1 (grid1.coords t) ↔ t.val % 4 = 3)
theorem idle1_5 : ∀ t : Fin cfg1.N, ¬t.val % 4 = 3 → cfg1.idle 5 (grid1.coords t) = true :=
  (by decide +kernel : ∀ t : Fin grid1.N, ¬t.val % 4 = 3 → cfg1.idle 5 (grid1.coords t) = true)
theorem live1_5 : ∀ t : Fin cfg1.N, t.val % 4 = 3 → cfg1.idle 5 (grid1.coords t) = false :=
  (by decide +kernel : ∀ t : Fin grid1.N, t.val % 4 = 3 → cfg1.idle 5 (grid1.coords t) = false)
theorem noflush1_5 (t : Fin cfg1.N) (h : ¬t.val % 4 = 3) : (cfg1.win 5).flush t = false := by
  cases hf : (cfg1.win 5).flush t
  · rfl
  · exact absurd ((flush1_5 t).mp hf) h

end Region1

end Cert.KernelIdeal.Hand

end
-- ==== Proof.KiBody1.lean ====
import proofs.«404418_j31731218382918_3_alg».proof.Proof.Gen.KernelIdeal.Launch
import proofs.«404418_j31731218382918_3_alg».proof.Proof.Gen.KernelIdeal.Skeleton
import proofs.«404418_j31731218382918_3_alg».proof.Proof.Gen.KernelIdeal.Points
import Idealize.ShloMosaic.Lib.Pipeline.Value
import proofs.«404418_j31731218382918_3_alg».proof.Proof.LibWholeBlock
import proofs.«404418_j31731218382918_3_alg».proof.Proof.KiDefs1
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWholeBlock

/-! ## The attention kernel's body at the three kinds of point -/

set_option maxHeartbeats 4000000 in
/-- The body at a point with t = 0: the running sums, at anything, are zeroed and stepped; the output buffer is not touched. -/
theorem body1_first (c : Dev nD) (E : Set ℕ) (i : grid1.Coords) (hr : condReset1 i) (ho : ¬condOut1 i)
    (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x128 .f32) (harg9 : arg9.IsWhole)
    (q kn vn : Vec F S1024x128 .bf16) (kc vc : Vec F S1x1024x128 .f32) (K : PUnit → sProp 𝕄) :
    iprop(owns (c : Thread nD τ) arg2 fullShare q ∗ owns (c : Thread nD τ) arg3 fullShare kn ∗ owns (c : Thread nD τ) arg4 fullShare vn ∗ owns (c : Thread nD τ) arg5 fullShare kc ∗ owns (c : Thread nD τ) arg6 fullShare vc
        ∗ (∃ d, owns (c : Thread nD τ) arg8 fullShare d) ∗ (∃ d, owns (c : Thread nD τ) arg9 fullShare d)
        ∗ (iprop(owns (c : Thread nD τ) arg2 fullShare q ∗ owns (c : Thread nD τ) arg3 fullShare kn ∗ owns (c : Thread nD τ) arg4 fullShare vn ∗ owns (c : Thread nD τ) arg5 fullShare kc ∗ owns (c : Thread nD τ) arg6 fullShare vc
            ∗ owns (c : Thread nD τ) arg8 fullShare (stepL i q kn kc k1_pay3) ∗ owns (c : Thread nD τ) arg9 fullShare (stepA i q kn vn kc vc k1_pay4)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, Hk⟩
  subst hf2; subst hf3; subst hf4; subst hf5; subst hf6
  sl_exec (disch := first | exact hr | exact ho)
  sl_step
  sl_unfold_run_names
  iapply Hk
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H8]
  · iexists _; isplitr
    swap; · iexact H8
    ipureintro
    rw [readAt_whole arg3.view hz2', readAt_whole arg5.view hz3, readAt_whole arg2.view hz2']
    exact read_store_load_store arg8.view hz2' _ f8 k1_pay3 (fun l => k1_pay6 i (arg3.view.read (Elt F) f3) (arg5.view.read (Elt F) f5) (arg2.view.read (Elt F) f2) l)
  · iexists _; isplitr
    swap; · iexact H9
    ipureintro
    rw [readAt_whole arg3.view hz2', readAt_whole arg5.view hz3, readAt_whole arg4.view hz2', readAt_whole arg6.view hz3, readAt_whole arg2.view hz2']
    exact read_store_load_store arg9.view hz2' _ f9 k1_pay4 (fun a => k1_pay1 a (k1_pay7 i (arg3.view.read (Elt F) f3) (arg5.view.read (Elt F) f5) (arg4.view.read (Elt F) f4) (arg6.view.read (Elt F) f6) (arg2.view.read (Elt F) f2)))

set_option maxHeartbeats 4000000 in
/-- The body at a point with 0 < t < 3: the running sums are stepped; the output buffer is not touched. -/
theorem body1_mid (c : Dev nD) (E : Set ℕ) (i : grid1.Coords) (hr : ¬condReset1 i) (ho : ¬condOut1 i)
    (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x128 .f32) (harg9 : arg9.IsWhole)
    (q kn vn : Vec F S1024x128 .bf16) (kc vc : Vec F S1x1024x128 .f32) (l : Vec F S1024x1 .f32) (a : Vec F S1024x128 .f32) (K : PUnit → sProp 𝕄) :
    iprop(owns (c : Thread nD τ) arg2 fullShare q ∗ owns (c : Thread nD τ) arg3 fullShare kn ∗ owns (c : Thread nD τ) arg4 fullShare vn ∗ owns (c : Thread nD τ) arg5 fullShare kc ∗ owns (c : Thread nD τ) arg6 fullShare vc
        ∗ owns (c : Thread nD τ) arg8 fullShare l ∗ owns (c : Thread nD τ) arg9 fullShare a
        ∗ (iprop(owns (c : Thread nD τ) arg2 fullShare q ∗ owns (c : Thread nD τ) arg3 fullShare kn ∗ owns (c : Thread nD τ) arg4 fullShare vn ∗ owns (c : Thread nD τ) arg5 fullShare kc ∗ owns (c : Thread nD τ) arg6 fullShare vc
            ∗ owns (c : Thread nD τ) arg8 fullShare (stepL i q kn kc l) ∗ owns (c : Thread nD τ) arg9 fullShare (stepA i q kn vn kc vc a)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f8, %hf8, H8⟩, ⟨%f9, %hf9, H9⟩, Hk⟩
  subst hf2; subst hf3; subst hf4; subst hf5; subst hf6; subst hf8; subst hf9
  sl_exec (disch := first | exact hr | exact ho)
  sl_step
  sl_unfold_run_names
  iapply Hk
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H8]
  · iexists _; isplitr
    swap; · iexact H8
    ipureintro
    rw [readAt_whole arg3.view hz2', readAt_whole arg5.view hz3, readAt_whole arg2.view hz2']
    rw [readAt_whole arg8.view hz2']
    exact read_store arg8.view hz2' _ f8 _
  · iexists _; isplitr
    swap; · iexact H9
    ipureintro
    rw [readAt_whole arg3.view hz2', readAt_whole arg5.view hz3, readAt_whole arg4.view hz2', readAt_whole arg6.view hz3, readAt_whole arg2.view hz2']
    rw [readAt_whole arg9.view hz2']
    exact read_store arg9.view hz2' _ f9 _

set_option maxHeartbeats 4000000 in
/-- The body at a point with t = 3: the running sums are stepped and their quotient is written into the output block, whatever it held. -/
theorem body1_last (c : Dev nD) (E : Set ℕ) (i : grid1.Coords) (hr : ¬condReset1 i) (ho : condOut1 i)
    (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x128 .f32) (harg9 : arg9.IsWhole)
    (q kn vn : Vec F S1024x128 .bf16) (kc vc : Vec F S1x1024x128 .f32) (l : Vec F S1024x1 .f32) (a : Vec F S1024x128 .f32) (K : PUnit → sProp 𝕄) :
    iprop(owns (c : Thread nD τ) arg2 fullShare q ∗ owns (c : Thread nD τ) arg3 fullShare kn ∗ owns (c : Thread nD τ) arg4 fullShare vn ∗ owns (c : Thread nD τ) arg5 fullShare kc ∗ owns (c : Thread nD τ) arg6 fullShare vc
        ∗ (∃ d, owns (c : Thread nD τ) arg7 fullShare d) ∗ owns (c : Thread nD τ) arg8 fullShare l ∗ owns (c : Thread nD τ) arg9 fullShare a
        ∗ (iprop(owns (c : Thread nD τ) arg2 fullShare q ∗ owns (c : Thread nD τ) arg3 fullShare kn ∗ owns (c : Thread nD τ) arg4 fullShare vn ∗ owns (c : Thread nD τ) arg5 fullShare kc ∗ owns (c : Thread nD τ) arg6 fullShare vc
            ∗ owns (c : Thread nD τ) arg7 fullShare (k1_pay2 (stepA i q kn vn kc vc a) (stepL i q kn kc l))
            ∗ owns (c : Thread nD τ) arg8 fullShare (stepL i q kn kc l) ∗ owns (c : Thread nD τ) arg9 fullShare (stepA i q kn vn kc vc a)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  subst hf2; subst hf3; subst hf4; subst hf5; subst hf6; subst hf8; subst hf9
  sl_exec (disch := first | exact hr | exact ho)
  sl_step
  sl_unfold_run_names
  iapply Hk
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]
  · iexists _; isplitr
    swap; · iexact H7
    ipureintro
    rw [View.readCov_unit_zero arg9.view hz2', View.readCov_unit_zero arg8.view hz2']
    rw [readAt_whole arg3.view hz2', readAt_whole arg5.view hz3, readAt_whole arg4.view hz2', readAt_whole arg6.view hz3, readAt_whole arg2.view hz2']
    rw [readAt_whole arg9.view hz2', readAt_whole arg8.view hz2']
    exact read_store arg7.view hz2' _ f7 _
  isplitl [H8]
  · iexists _; isplitr
    swap; · iexact H8
    ipureintro
    rw [readAt_whole arg3.view hz2', readAt_whole arg5.view hz3, readAt_whole arg2.view hz2']
    rw [readAt_whole arg8.view hz2']
    exact read_store arg8.view hz2' _ f8 _
  · iexists _; isplitr
    swap; · iexact H9
    ipureintro
    rw [readAt_whole arg3.view hz2', readAt_whole arg5.view hz3, readAt_whole arg4.view hz2', readAt_whole arg6.view hz3, readAt_whole arg2.view hz2']
    rw [readAt_whole arg9.view hz2']
    exact read_store arg9.view hz2' _ f9 _

end Cert.KernelIdeal.Hand

end
-- ==== Proof.KiOblig1.lean ====
import proofs.«404418_j31731218382918_3_alg».proof.Proof.Gen.KernelIdeal.Launch
import proofs.«404418_j31731218382918_3_alg».proof.Proof.Gen.KernelIdeal.Skeleton
import proofs.«404418_j31731218382918_3_alg».proof.Proof.Gen.KernelIdeal.Points
import Idealize.ShloMosaic.Lib.Pipeline.Value
import Idealize.ShloMosaic.Lib.Pipeline.Frame
import proofs.«404418_j31731218382918_3_alg».proof.Proof.KiData1
import proofs.«404418_j31731218382918_3_alg».proof.Proof.KiBody1
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWholeBlock

/-! ## The attention region's body obligation

At every point the body, handed the invariant and the six windows' current buffers, returns the invariant at
the next position and each buffer at what the proof data says: by cases on the second coordinate t. -/

section Region1

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

theorem leaves_in1 (c : Dev nD) (t : Fin cfg1.N) :
    (dat1 V c).leavesExact 0 t = owns (c : Thread nD τ) (st1_0 t) fullShare (iblk1 V c 0 t)
    ∧ (dat1 V c).leavesExact 1 t = owns (c : Thread nD τ) (st1_1 t) fullShare (iblk1 V c 1 t)
    ∧ (dat1 V c).leavesExact 2 t = owns (c : Thread nD τ) (st1_2 t) fullShare (iblk1 V c 2 t)
    ∧ (dat1 V c).leavesExact 3 t = owns (c : Thread nD τ) (st1_3 t) fullShare (iblk1 V c 3 t)
    ∧ (dat1 V c).leavesExact 4 t = owns (c : Thread nD τ) (st1_4 t) fullShare (iblk1 V c 4 t) := by
  refine ⟨?_, ?_, ?_, ?_, ?_⟩
  · rw [← after1_0 V c t]
  · rw [← after1_1 V c t]
  · rw [← after1_2 V c t]
  · rw [← after1_3 V c t]
  · rw [← after1_4 V c t]

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  obtain ⟨hl0, hl1, hl2, hl3, hl4⟩ := leaves_in1 V c t
  rw [hl0, hl1, hl2, hl3, hl4]
  rw [show (dat1 V c).owesAt () t.succ = (dat1 V c).owesAt () t.castSucc from rfl]
  rw [show (dat1 V c).Φ t.succ = Phi1 V c (t.val + 1) t.isLt from rfl, Phi1_castSucc]
  unfold Phi1
  by_cases h0 : t.val % 4 = 0
  · -- t = 0: the running sums are zeroed and stepped
    have h3 : ¬t.val % 4 = 3 := by omega
    rw [Dat.leavesExact_idle (dat1 V c) 5 t (idle1_5 t h3) (noflush1_5 t h3)]
    iintro ⟨⟨%a, -, H8, H9, Hoth, Hg⟩, Ho, ⟨%d0, H0⟩, ⟨%d1, H1⟩, ⟨%d2, H2⟩, ⟨%d3, H3⟩, ⟨%d4, H4⟩, H5⟩
    iapply (body1_first c Set.univ (grid1.coords t) ((hcondR1 t).mpr h0) (fun h => h3 ((hcondO1 t).mp h))
      _ _ _ _ _ _ _ _ _ _ _ _ _ _ _ _ (q1 V c t) (kn1 V c t) (vn1 V c t) (kc1 V c t) (vc1 V c t) _)
    isplitl [H0]; · iexact H0
    isplitl [H1]; · iexact H1
    isplitl [H2]; · iexact H2
    isplitl [H3]; · iexact H3
    isplitl [H4]; · iexact H4
    isplitl [H8]; · iexists _; iexact H8
    isplitl [H9]; · iexists _; iexact H9
    iintro ⟨H0, H1, H2, H3, H4, H8, H9⟩
    isplitl [H8 H9 Hoth Hg]
    · iexists (acc1 V c t.val t.isLt)
      isplitr; · ipureintro; intro _; rfl
      rw [acc1_first V c t h0]
      isplitl [H8]; · iexact H8
      isplitl [H9]; · iexact H9
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun e => h0 (by rw [e])
    by_cases h3 : t.val % 4 = 3
    · -- t = 3: the running sums are stepped and their quotient written out
      rw [show (dat1 V c).leavesExact 5 t = owns (c : Thread nD τ) (st1_5 t) fullShare ((dat1 V c).after 5 t) from by
            unfold Dat.leavesExact; rw [live1_5 t h3],
        after1_5]
      iintro ⟨⟨%a, %ha, H8, H9, Hoth, Hg⟩, Ho, ⟨%d0, H0⟩, ⟨%d1, H1⟩, ⟨%d2, H2⟩, ⟨%d3, H3⟩, ⟨%d4, H4⟩, ⟨%d5, H5⟩⟩
      obtain rfl := ha hz
      iapply (body1_last c Set.univ (grid1.coords t) (fun h => h0 ((hcondR1 t).mp h)) ((hcondO1 t).mpr h3)
        _ _ _ _ _ _ _ _ _ _ _ _ _ _ _ _ (q1 V c t) (kn1 V c t) (vn1 V c t) (kc1 V c t) (vc1 V c t) _ _ _)
      isplitl [H0]; · iexact H0
      isplitl [H1]; · iexact H1
      isplitl [H2]; · iexact H2
      isplitl [H3]; · iexact H3
      isplitl [H4]; · iexact H4
      isplitl [H5]; · iexists _; iexact H5
      isplitl [H8]; · iexact H8
      isplitl [H9]; · iexact H9
      iintro ⟨H0, H1, H2, H3, H4, H5, H8, H9⟩
      rw [acc1_next V c t h0]
      isplitl [H8 H9 Hoth Hg]
      · iexists (step1 V c t (acc1 V c (t.val - 1) (Nat.lt_of_le_of_lt (Nat.sub_le _ _) t.isLt)))
        isplitr; · ipureintro; intro _; exact (acc1_next V c t h0).symm
        isplitl [H8]; · iexact H8
        isplitl [H9]; · iexact H9
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5
    · -- 0 < t < 3: the running sums are stepped
      rw [Dat.leavesExact_idle (dat1 V c) 5 t (idle1_5 t h3) (noflush1_5 t h3)]
      iintro ⟨⟨%a, %ha, H8, H9, Hoth, Hg⟩, Ho, ⟨%d0, H0⟩, ⟨%d1, H1⟩, ⟨%d2, H2⟩, ⟨%d3, H3⟩, ⟨%d4, H4⟩, H5⟩
      obtain rfl := ha hz
      iapply (body1_mid c Set.univ (grid1.coords t) (fun h => h0 ((hcondR1 t).mp h)) (fun h => h3 ((hcondO1 t).mp h))
        _ _ _ _ _ _ _ _ _ _ _ _ _ _ _ _ (q1 V c t) (kn1 V c t) (vn1 V c t) (kc1 V c t) (vc1 V c t) _ _ _)
      isplitl [H0]; · iexact H0
      isplitl [H1]; · iexact H1
      isplitl [H2]; · iexact H2
      isplitl [H3]; · iexact H3
      isplitl [H4]; · iexact H4
      isplitl [H8]; · iexact H8
      isplitl [H9]; · iexact H9
      iintro ⟨H0, H1, H2, H3, H4, H8, H9⟩
      isplitl [H8 H9 Hoth Hg]
      · iexists (step1 V c t (acc1 V c (t.val - 1) (Nat.lt_of_le_of_lt (Nat.sub_le _ _) t.isLt)))
        isplitr; · ipureintro; intro _; exact (acc1_next V c t h0).symm
        isplitl [H8]; · iexact H8
        isplitl [H9]; · iexact H9
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with — the generator register and every scoped buffer that is no staging buffer, at
    anything — is the invariant before the first point. -/
theorem hin1 (c : Dev nD) : iprop((∃ r, prngReg c r) ∗ Pipeline.scopedRest (Ix := Unit) (Name := ℕ) (U := UR sig nD τ) (Lvl := ℕ) (Val := Elt F) spec1 c) ⊢ (dat1 V c).Φ 0 := by
  rw [show (dat1 V c).Φ 0 = Phi1 V c 0 (Nat.zero_le _) from rfl, scopedRest1_eq]
  unfold Phi1 other1
  simp only [owns_whole_eq]
  iintro ⟨Hg, O1, O2, O3, O4, O5, O6, O7, O8, O9, O10, O11, O12, O13, O14, O15, O16, ⟨%f8, H8⟩, ⟨%f9, H9⟩⟩
  iexists (f8, f9)
  isplitr; · ipureintro; intro h; exact absurd rfl h
  isplitl [H8]; · iexists f8; isplitr; · ipureintro; rfl
                  iexact H8
  isplitl [H9]; · iexists f9; isplitr; · ipureintro; rfl
                  iexact H9
  isplitr [Hg]
  ·
      isplitl [O1]; · iexact O1
      isplitl [O2]; · iexact O2
      isplitl [O3]; · iexact O3
      isplitl [O4]; · iexact O4
      isplitl [O5]; · iexact O5
      isplitl [O6]; · iexact O6
      isplitl [O7]; · iexact O7
      isplitl [O8]; · iexact O8
      isplitl [O9]; · iexact O9
      isplitl [O10]; · iexact O10
      isplitl [O11]; · iexact O11
      isplitl [O12]; · iexact O12
      isplitl [O13]; · iexact O13
      isplitl [O14]; · iexact O14
      isplitl [O15]; · iexact O15
      iexact O16
  iexact Hg

/-- And the invariant, at any position, gives them back: the running sums' contents are forgotten. -/
theorem hout1 (c : Dev nD) (t : Fin (cfg1.N + 1)) : (dat1 V c).Φ t ⊢ iprop((∃ r, prngReg c r) ∗ Pipeline.scopedRest (Ix := Unit) (Name := ℕ) (U := UR sig nD τ) (Lvl := ℕ) (Val := Elt F) spec1 c) := by
  rw [show (dat1 V c).Φ t = Phi1 V c t.val (Nat.le_of_lt_succ t.isLt) from rfl, scopedRest1_eq]
  unfold Phi1 other1
  simp only [owns_whole_eq]
  iintro ⟨%a, -, ⟨%f8, -, H8⟩, ⟨%f9, -, H9⟩, ⟨O1, O2, O3, O4, O5, O6, O7, O8, O9, O10, O11, O12, O13, O14, O15, O16⟩, Hg⟩
  isplitl [Hg]; · iexact Hg
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [O10]; · iexact O10
  isplitl [O11]; · iexact O11
  isplitl [O12]; · iexact O12
  isplitl [O13]; · iexact O13
  isplitl [O14]; · iexact O14
  isplitl [O15]; · iexact O15
  isplitl [O16]; · iexact O16
  isplitl [H8]; · iexists f8; iexact H8
  iexists f9; iexact H9

end Region1

end Cert.KernelIdeal.Hand

end
-- ==== Proof.KiRun.lean ====
import proofs.«404418_j31731218382918_3_alg».proof.Proof.Gen.KernelIdeal.Launch
import proofs.«404418_j31731218382918_3_alg».proof.Proof.Gen.KernelIdeal.Skeleton
import proofs.«404418_j31731218382918_3_alg».proof.Proof.Gen.KernelIdeal.Points
import Idealize.ShloMosaic.Lib.Pipeline.Value
import Idealize.ShloMosaic.Lib.Pipeline.Frame
import Idealize.ShloMosaic.Lib.Pipeline.FrameSuffix
import Idealize.ShloMosaic.Lib.Pipeline.Regions
import Idealize.ShloMosaic.Lib.Pipeline.RegionsLoop
import proofs.«404418_j31731218382918_3_alg».proof.Proof.Gen.KernelIdeal.Regions
import proofs.«404418_j31731218382918_3_alg».proof.Proof.KiOblig0
import proofs.«404418_j31731218382918_3_alg».proof.Proof.KiOblig1
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! ## The run of the whole program

@main is one host operation (the input rounded to the projection's operand type), the projection region, the
attention region. Between them core `c` holds every unscoped buffer at: the launch contents (`W0`); those after the
host operation (`W1`); those with the projection's three outputs written (`W2`); those with the attention's output
written (`W3`). Every weakly fair execution terminates with every unscoped buffer at `W3`. -/

section Run

variable (m : (ℓ : Loc nD τ sig) → Buf (Elt F) ℓ) (ρ : Dev nD → PrngReg)

/-- Core `c`'s buffers at launch, and after the host operation (the projection region's entry). -/
abbrev W0 : Dev nD → Valuation τ sig (Elt F) := fun c b => (s₀ m ρ).mem ((c : Dev nD), b)
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b

/-- At the projection region's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- At the attention region's exit: its arrays at what the pipeline leaves, every other buffer as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-- The host operation writes `main_v0` only. -/
theorem W1_of (c : Dev nD) (b : Ref sig .tc) (h : b ≠ main_v0) : W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact StableHlo.devRef_ne_of_ne h))

/-! ### The proof data family and what rides beside the buffers -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U2 m ρ) c
abbrev 𝒱₀ : Variants := Variants.none
/-- No core owes another anything: no level is assigned. -/
abbrev Lv : GSem nD τ sig → Finset Unit := fun _ => ∅
abbrev lv : GSem nD τ sig → Unit → ℕ := fun _ _ => 0
/-- Beside the buffers through every segment: the generator register at some state, and the core owing nothing. -/
abbrev R (c : Dev nD) : sProp 𝕄 := iprop((∃ r, prngReg c r) ∗ ∃ W, owes (c : Thread nD τ) (0 : CellTallies nD τ sig Unit) W)
/-- The host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ### The regions as segments -/

set_option backward.isDefEq.respectTransparency.types false in
/-- The projection region: entered from every unscoped buffer at `W1`, left at `W2`. -/
def reg0 : Pipeline.RegionSeg (pcfgs (F := F)) adm (pdats m ρ) () defs₀ 𝒱₀ Lv lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Lv lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (U1 m ρ) c).Φ 0 from rfl]
    iintro ⟨Hp, -, Hr⟩
    iapply (hin0 (U1 m ρ) c)
    isplitl [Hp]; · iexact Hp
    iexact Hr
  hout c := by
    rw [Pipeline.ownSems0_none, show (pdats m ρ 0 c).Φ (Fin.last _) = (dat0 (U1 m ρ) c).Φ (Fin.last cfg0.N) from rfl]
    have hh := hout0 (U1 m ρ) c (Fin.last cfg0.N)
    iintro H
    ihave H' := hh $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W2`, left at `W3`. -/
def reg1 : Pipeline.RegionSeg (pcfgs (F := F)) adm (pdats m ρ) () defs₀ 𝒱₀ Lv lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ Lv lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (U2 m ρ) c).Φ 0 from rfl]
    iintro ⟨Hp, -, Hr⟩
    iapply (hin1 (U2 m ρ) c)
    isplitl [Hp]; · iexact Hp
    iexact Hr
  hout c := by
    rw [Pipeline.ownSems0_none, show (pdats m ρ 1 c).Φ (Fin.last _) = (dat1 (U2 m ρ) c).Φ (Fin.last cfg1.N) from rfl]
    have hh := hout1 (U2 m ρ) c (Fin.last cfg1.N)
    iintro H
    ihave H' := hh $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ### @main as segments, and the launch -/

abbrev segs : List (Pipeline.Seg (pcfgs (F := F)) adm (pdats m ρ) () defs₀ 𝒱₀ Lv lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: every weakly fair execution of @main terminates, nothing faulting, with every unscoped buffer of every
    core at `W3`: the launch contents, the host operation's result, and the two regions' outputs as their pipelines
    leave them. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ Lv lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach Lv lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ### What the last contents are at the arguments: as launched -/

theorem W3_main_arg0 (c : Dev nD) : W3 m ρ c (Proc.devRef .tc main_arg0) = m ((c : Thread nD τ).loc main_arg0) :=
  (W3_of_ne m ρ c main_arg0 (by decide)).trans ((W2_of_ne m ρ c main_arg0 (by decide)).trans ((W1_of m ρ c main_arg0 (by decide)).trans rfl))
theorem W3_main_arg1 (c : Dev nD) : W3 m ρ c (Proc.devRef .tc main_arg1) = m ((c : Thread nD τ).loc main_arg1) :=
  (W3_of_ne m ρ c main_arg1 (by decide)).trans ((W2_arr m ρ c 1).trans (((dat0 (U1 m ρ) c).arrAt_in 1 rfl _).trans
    ((A_eq0 (U1 m ρ) c 1).trans ((W1_of m ρ c main_arg1 (by decide)).trans rfl))))
theorem W3_main_arg2 (c : Dev nD) : W3 m ρ c (Proc.devRef .tc main_arg2) = m ((c : Thread nD τ).loc main_arg2) :=
  (W3_of_ne m ρ c main_arg2 (by decide)).trans ((W2_arr m ρ c 2).trans (((dat0 (U1 m ρ) c).arrAt_in 2 rfl _).trans
    ((A_eq0 (U1 m ρ) c 2).trans ((W1_of m ρ c main_arg2 (by decide)).trans rfl))))
theorem W3_main_arg3 (c : Dev nD) : W3 m ρ c (Proc.devRef .tc main_arg3) = m ((c : Thread nD τ).loc main_arg3) :=
  (W3_of_ne m ρ c main_arg3 (by decide)).trans ((W2_arr m ρ c 3).trans (((dat0 (U1 m ρ) c).arrAt_in 3 rfl _).trans
    ((A_eq0 (U1 m ρ) c 3).trans ((W1_of m ρ c main_arg3 (by decide)).trans rfl))))
theorem W3_main_arg4 (c : Dev nD) : W3 m ρ c (Proc.devRef .tc main_arg4) = m ((c : Thread nD τ).loc main_arg4) :=
  (W3_arr m ρ c 3).trans (((dat1 (U2 m ρ) c).arrAt_in 3 rfl _).trans ((A_eq1 (U2 m ρ) c 3).trans
    ((W2_of_ne m ρ c main_arg4 (by decide)).trans ((W1_of m ρ c main_arg4 (by decide)).trans rfl))))
theorem W3_main_arg5 (c : Dev nD) : W3 m ρ c (Proc.devRef .tc main_arg5) = m ((c : Thread nD τ).loc main_arg5) :=
  (W3_arr m ρ c 4).trans (((dat1 (U2 m ρ) c).arrAt_in 4 rfl _).trans ((A_eq1 (U2 m ρ) c 4).trans
    ((W2_of_ne m ρ c main_arg5 (by decide)).trans ((W1_of m ρ c main_arg5 (by decide)).trans rfl))))

/-- THE FRAME: every weakly fair execution terminates, nothing faulting, with the six argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)) :=
  (θ_run defs _ _).mono (fun r h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c)⟩) (run_all m ρ)

end Run

end Cert.KernelIdeal.Hand

end
-- ==== Proof.Spec.lean ====
/-
  The specification both programs are compared with: attention of one query block against a key/value cache
  into which the new keys and values are written at rows 2048 … 3071.

  For a row m of the input and a head h (columns h·128 … h·128+127):
    Q = X·W_q,  K = X·W_k,  V = X·W_v                       (sums over 4096 input columns)
    Kc[h, l, ·] = K[l − 2048, h·128 + ·] for 2048 ≤ l < 3072, else cache_K[h, l, ·]   (Vc likewise)
    s[h, m, l]  = Σ_d Q[m, h·128 + d] · Kc[h, l, d]
    out[m, h·128 + d] = (Σ_l exp s[h, m, l] · Vc[h, l, d]) / (Σ_l exp s[h, m, l])
  all on the extended reals. The quotient is taken once, after the sums.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- The input's shape, the weights' and the caches'. -/
abbrev SX : Shape := ⟨2, ![1024, 4096]⟩
abbrev SW : Shape := ⟨2, ![4096, 4096]⟩
abbrev SC : Shape := ⟨3, ![32, 4096, 128]⟩

/-- Column h·128 + d of a projection: lane d of head h. -/
def col (h : Fin 32) (d : Fin 128) : Fin 4096 := ⟨h.val * 128 + d.val, by have := h.isLt; have := d.isLt; omega⟩

/-- A projection X·W at row m, column j: the sum over the 4096 input columns. -/
def proj (x : SX.Idx → EReal) (w : SW.Idx → EReal) (m : Fin 1024) (j : Fin 4096) : EReal :=
  ∑ k : Fin 4096, x (ix2 m k) * w (ix2 k j)

/-- Row l of head h of a cache after the new rows (a projection's rows 0 … 1023) are written at 2048 … 3071. -/
def upd (c : SC.Idx → EReal) (p : Fin 1024 → Fin 4096 → EReal) (h : Fin 32) (l : Fin 4096) (d : Fin 128) : EReal :=
  if hl : 2048 ≤ l.val ∧ l.val < 3072 then p ⟨l.val - 2048, by omega⟩ (col h d) else c (ix3 h l d)

/-- The score of query row m against cache row l in head h. -/
def score (x : SX.Idx → EReal) (wq wk : SW.Idx → EReal) (ck : SC.Idx → EReal) (h : Fin 32) (m : Fin 1024) (l : Fin 4096) : EReal :=
  ∑ d : Fin 128, proj x wq m (col h d) * upd ck (proj x wk) h l d

/-- The weight of cache row l: the exponential of the score. -/
def wgt (x : SX.Idx → EReal) (wq wk : SW.Idx → EReal) (ck : SC.Idx → EReal) (h : Fin 32) (m : Fin 1024) (l : Fin 4096) : EReal :=
  Ideal.exp (score x wq wk ck h m l)

/-- The weighted sum of the values and the sum of the weights, over the 4096 cache rows. -/
def num (x : SX.Idx → EReal) (wq wk wv : SW.Idx → EReal) (ck cv : SC.Idx → EReal) (h : Fin 32) (m : Fin 1024) (d : Fin 128) : EReal :=
  ∑ l : Fin 4096, wgt x wq wk ck h m l * upd cv (proj x wv) h l d
def den (x : SX.Idx → EReal) (wq wk : SW.Idx → EReal) (ck : SC.Idx → EReal) (h : Fin 32) (m : Fin 1024) : EReal :=
  ∑ l : Fin 4096, wgt x wq wk ck h m l

/-- The result at row m, head h, lane d. -/
def att (x : SX.Idx → EReal) (wq wk wv : SW.Idx → EReal) (ck cv : SC.Idx → EReal) (h : Fin 32) (m : Fin 1024) (d : Fin 128) : EReal :=
  Ideal.div (num x wq wk wv ck cv h m d) (den x wq wk ck h m)

/-- The result as one array of the input's shape: column j is lane j % 128 of head j / 128. -/
def G (x : SX.Idx → EReal) (wq wk wv : SW.Idx → EReal) (ck cv : SC.Idx → EReal) : SX.Idx → EReal := fun i =>
  att x wq wk wv ck cv ⟨(i 1).val / 128, by have := idx2_lt1 i; omega⟩ (i 0) ⟨(i 1).val % 128, Nat.mod_lt _ (by decide)⟩

end Cert.Spec

end
-- ==== Proof.SpecA.lean ====
/-
  The specification over the three projections as ARRAYS: the same attention, taking q, k, v (1024 × 4096 each)
  where the first form takes the input and the weights.
-/
import proofs.«404418_j31731218382918_3_alg».proof.Proof.Spec

noncomputable section

namespace Cert.Spec

open Idealize.ShloMosaic Idealize.ShloMosaic.ValueIdx

/-- Row l of head h of a cache after the rows 0 … 1023 of the array `p` (head h's columns) are written at 2048 … 3071. -/
def updA (c : SC.Idx → EReal) (p : SX.Idx → EReal) (h : Fin 32) (l : Fin 4096) (d : Fin 128) : EReal :=
  if hl : 2048 ≤ l.val ∧ l.val < 3072 then p (ix2 ⟨l.val - 2048, by omega⟩ (col h d)) else c (ix3 h l d)

/-- The weight of cache row l for query row m in head h, from the arrays. -/
def wgtA (q k : SX.Idx → EReal) (ck : SC.Idx → EReal) (h : Fin 32) (m : Fin 1024) (l : Fin 4096) : EReal :=
  Ideal.exp (∑ d : Fin 128, q (ix2 m (col h d)) * updA ck k h l d)

/-- The result at row m, head h, lane d, from the arrays: the weighted sum of the values over the sum of the weights. -/
def attA (q k v : SX.Idx → EReal) (ck cv : SC.Idx → EReal) (h : Fin 32) (m : Fin 1024) (d : Fin 128) : EReal :=
  Ideal.div (∑ l : Fin 4096, wgtA q k ck h m l * updA cv v h l d) (∑ l : Fin 4096, wgtA q k ck h m l)

/-- The result as one array: column j is lane j % 128 of head j / 128. -/
def GA (q k v : SX.Idx → EReal) (ck cv : SC.Idx → EReal) : SX.Idx → EReal := fun i =>
  attA q k v ck cv ⟨(i 1).val / 128, by have := idx2_lt1 i; omega⟩ (i 0) ⟨(i 1).val % 128, Nat.mod_lt _ (by decide)⟩

/-- The two forms agree when the arrays are the projections. -/
theorem G_eq_GA (x : SX.Idx → EReal) (wq wk wv : SW.Idx → EReal) (ck cv : SC.Idx → EReal) :
    G x wq wk wv ck cv = GA (fun i => proj x wq (i 0) (i 1)) (fun i => proj x wk (i 0) (i 1)) (fun i => proj x wv (i 0) (i 1)) ck cv := rfl

end Cert.Spec

end
-- ==== Proof.KiValue.lean ====
/-
  The idealized kernel's result: what the program leaves in its result array is the specification's attention of
  the six launch arrays, given what each region's pipeline leaves (the projections; the attention over arrays).
-/
import proofs.«404418_j31731218382918_3_alg».proof.Proof.KiRun
import proofs.«404418_j31731218382918_3_alg».proof.Proof.SpecA
import Idealize.ShloMosaic.Lib.StableHlo.Run

noncomputable section

namespace Cert.KernelIdeal.Value

open Cert.KernelIdeal Cert.KernelIdeal.Gen Cert.KernelIdeal.Hand
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The host operation rounds the input to the projection's operand type: the identity on extended reals. -/
theorem U1_main_v0 (c : Dev nD) : U1 m ρ c main_v0 = (m ((c.tc : Thread nD τ).loc main_arg0)) := by
  show StableHlo.after hostOps0 (W0 m ρ c) (Proc.devRef .tc main_v0) = _
  after_results
  rfl

theorem U1_arg (c : Dev nD) (b : Ref sig .tc) (h : b ≠ main_v0) : U1 m ρ c b = m ((c.tc : Thread nD τ).loc b) :=
  (W1_of m ρ c b h).trans rfl

/-- The result array at the end, from the two regions' pipelines. -/
theorem result_eq
    (hq : ∀ (V : (c : Dev nD) → (b : Ref sig .tc) → Buf (Elt Ideal) ((c : Thread nD τ).loc b)) (c : Dev nD),
      (dat0 (F := Ideal) V c).arrAt 4 cfg0.N = fun i => Cert.Spec.proj (V c main_v0) (V c main_arg1) (i 0) (i 1))
    (hk : ∀ (V : (c : Dev nD) → (b : Ref sig .tc) → Buf (Elt Ideal) ((c : Thread nD τ).loc b)) (c : Dev nD),
      (dat0 (F := Ideal) V c).arrAt 5 cfg0.N = fun i => Cert.Spec.proj (V c main_v0) (V c main_arg2) (i 0) (i 1))
    (hv : ∀ (V : (c : Dev nD) → (b : Ref sig .tc) → Buf (Elt Ideal) ((c : Thread nD τ).loc b)) (c : Dev nD),
      (dat0 (F := Ideal) V c).arrAt 6 cfg0.N = fun i => Cert.Spec.proj (V c main_v0) (V c main_arg3) (i 0) (i 1))
    (ha : ∀ (V : (c : Dev nD) → (b : Ref sig .tc) → Buf (Elt Ideal) ((c : Thread nD τ).loc b)) (c : Dev nD),
      (dat1 (F := Ideal) V c).arrAt 5 cfg1.N = Cert.Spec.GA (V c main_v1_0) (V c main_v1_1) (V c main_v1_2) (V c main_arg4) (V c main_arg5))
    (c : Dev nD) :
    W3 m ρ c (Proc.devRef .tc main_v2) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e0 : U2 m ρ c main_v1_0 = fun i => Cert.Spec.proj (m ((c.tc : Thread nD τ).loc main_arg0)) (m ((c.tc : Thread nD τ).loc main_arg1)) (i 0) (i 1) := by
    refine ((W2_arr m ρ c 4).trans (hq (U1 m ρ) c)).trans ?_
    rw [U1_main_v0, U1_arg m ρ c main_arg1 (by decide)]
  have e1 : U2 m ρ c main_v1_1 = fun i => Cert.Spec.proj (m ((c.tc : Thread nD τ).loc main_arg0)) (m ((c.tc : Thread nD τ).loc main_arg2)) (i 0) (i 1) := by
    refine ((W2_arr m ρ c 5).trans (hk (U1 m ρ) c)).trans ?_
    rw [U1_main_v0, U1_arg m ρ c main_arg2 (by decide)]
  have e2 : U2 m ρ c main_v1_2 = fun i => Cert.Spec.proj (m ((c.tc : Thread nD τ).loc main_arg0)) (m ((c.tc : Thread nD τ).loc main_arg3)) (i 0) (i 1) := by
    refine ((W2_arr m ρ c 6).trans (hv (U1 m ρ) c)).trans ?_
    rw [U1_main_v0, U1_arg m ρ c main_arg3 (by decide)]
  have e4 : U2 m ρ c main_arg4 = (m ((c.tc : Thread nD τ).loc main_arg4)) :=
    (W2_of_ne m ρ c main_arg4 (by decide)).trans (U1_arg m ρ c main_arg4 (by decide))
  have e5 : U2 m ρ c main_arg5 = (m ((c.tc : Thread nD τ).loc main_arg5)) :=
    (W2_of_ne m ρ c main_arg5 (by decide)).trans (U1_arg m ρ c main_arg5 (by decide))
  refine ((W3_arr m ρ c 5).trans (ha (U2 m ρ) c)).trans ?_
  rw [e0, e1, e2, e4, e5]
  exact (Cert.Spec.G_eq_GA _ _ _ _ _ _).symm

end Cert.KernelIdeal.Value

end
-- ==== Proof.KiVal0.lean ====
import proofs.«404418_j31731218382918_3_alg».proof.Proof.KiData0
import proofs.«404418_j31731218382918_3_alg».proof.Proof.Spec
import Idealize.ShloMosaic.Lib.Pipeline.Value
import Idealize.ShloMosaic.Lib.ValueIdx
import Idealize.ShloMosaic.PureOps.Ideal.Laws
import Mathlib.Algebra.BigOperators.Fin

set_option maxRecDepth 16384

noncomputable section

/-! # The value of the projection region at the ideal instance

The region computes the three projections X·W_q, X·W_k, X·W_v of the input X (1024 × 4096) by the weights
(4096 × 4096), one block of 512 output columns at a time: the block's accumulator starts at 0 and takes, at each of
the four points of the block, the product of 1024 input columns with the matching 1024 × 512 block of the weight. Over
the extended reals the four partial sums add up to the sum over all 4096 input columns, so each output array ends
holding the projection, entry by entry. -/

namespace Cert.KernelIdeal.Val0

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

/-! ## One step of an accumulator, index by index

At the point (n, k) the step adds to the accumulator, at row p and column q of the block, the sum over the 1024
input columns k·1024 … k·1024+1023 of the input's entry times the weight block's entry. -/

/-- The product's operand indices at output index (p, q) and contraction index kk: (p, kk) and (kk, q). -/
theorem lhs_step_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs_step_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs_step_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs_step_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The product into the zero block, at (p, q): the sum over the contraction index. -/
theorem prod_apply (a : FVec Ideal S1024x1024 .bf16) (b : FVec Ideal S1024x512 .bf16) (p : Fin 1024) (q : Fin 512) :
    matmul dot_S1024x1024_S1024x512_S1024x512_1_0_0_1_n_n none a b (constant (F := Ideal) S1024x512 .f32 0x00000000#32) (ix2 p q)
      = ∑ kk : Fin 1024, a (ix2 p kk) * b (ix2 kk q) := by
  refine (Ideal.matmul_constant_zero_apply dot_S1024x1024_S1024x512_S1024x512_1_0_0_1_n_n none a b (ix2 p q)).trans ?_
  rw [← Equiv.sum_comp (ValueIdx.contrEquiv1 dot_S1024x1024_S1024x512_S1024x512_1_0_0_1_n_n 1024 rfl rfl).symm]
  refine Finset.sum_congr rfl fun k _ => ?_
  have hk := ValueIdx.contrEquiv1_symm_val dot_S1024x1024_S1024x512_S1024x512_1_0_0_1_n_n 1024 rfl rfl k
  have el : dot_S1024x1024_S1024x512_S1024x512_1_0_0_1_n_n.lhsIdx (ix2 p q) ((ValueIdx.contrEquiv1 dot_S1024x1024_S1024x512_S1024x512_1_0_0_1_n_n 1024 rfl rfl).symm k) = ix2 p k := funext fun a => Fin.ext (by
    match a with
    | ⟨0, _⟩ => exact lhs_step_0 _ _
    | ⟨1, _⟩ => exact (lhs_step_1 _ _).trans hk)
  have er : dot_S1024x1024_S1024x512_S1024x512_1_0_0_1_n_n.rhsIdx (ix2 p q) ((ValueIdx.contrEquiv1 dot_S1024x1024_S1024x512_S1024x512_1_0_0_1_n_n 1024 rfl rfl).symm k) = ix2 k q := funext fun a => Fin.ext (by
    match a with
    | ⟨0, _⟩ => exact (rhs_step_0 _ _).trans hk
    | ⟨1, _⟩ => exact rhs_step_1 _ _)
  rw [el, er]

/-- The columns a point reads start at k·1024. -/
theorem off1_eq : ∀ i : grid0.Coords, k0_off1 i = ![0, (i 1).val * 1024] := by
  intro i
  have h : (i 1).val < 4 := (i 1).isLt
  unfold k0_off1
  generalize (i 1).val = n at h
  interval_cases n <;> rfl

/-- Each step's payload: the accumulator plus the product of the input columns and the weight block into the zero block. -/
theorem pay9_eq {F : FTy → Type} [FloatOps F] (v6 : Vec F S1024x1024 .bf16) (w a : Vec F S1024x512 .f32) :
    k0_pay9 v6 w a = addf a (matmul dot_S1024x1024_S1024x512_S1024x512_1_0_0_1_n_n none v6 (truncf .bf16 w bitsLt_bf16_f32) (constant S1024x512 .f32 0x00000000#32)) := by
  unfold k0_pay9 k0_pay8
  simp only [shapeCast_self]
theorem pay10_eq {F : FTy → Type} [FloatOps F] (v6 : Vec F S1024x1024 .bf16) (w a : Vec F S1024x512 .f32) :
    k0_pay10 v6 w a = addf a (matmul dot_S1024x1024_S1024x512_S1024x512_1_0_0_1_n_n none v6 (truncf .bf16 w bitsLt_bf16_f32) (constant S1024x512 .f32 0x00000000#32)) := by
  unfold k0_pay10 k0_pay8
  simp only [shapeCast_self]
theorem pay11_eq {F : FTy → Type} [FloatOps F] (v6 : Vec F S1024x1024 .bf16) (w a : Vec F S1024x512 .f32) :
    k0_pay1 (k0_pay11 v6 w a) = addf a (matmul dot_S1024x1024_S1024x512_S1024x512_1_0_0_1_n_n none v6 (truncf .bf16 w bitsLt_bf16_f32) (constant S1024x512 .f32 0x00000000#32)) := by
  unfold k0_pay1 k0_pay11 k0_pay8
  simp only [shapeCast_self]

/-- The input's columns the point reads: column kk of the point's columns is column k·1024 + kk of the input. -/
theorem xcols_apply (i : grid0.Coords) (x : Vec Ideal S1024x4096 .bf16) (p kk : Fin 1024) (hb : (i 1).val * 1024 + kk.val < 4096) :
    xcols i x (ix2 p kk) = x (ix2 p ⟨(i 1).val * 1024 + kk.val, hb⟩) := by
  unfold xcols
  show x ((rX i).emb (ix2 p kk)) = _
  refine congrArg x (funext fun a => Fin.ext ?_)
  match a with
  | ⟨0, _⟩ => show k0_off1 i 0 + 1 * p.val = p.val; rw [off1_eq i]; show 0 + 1 * p.val = p.val; omega
  | ⟨1, _⟩ => show k0_off1 i 1 + 1 * kk.val = (i 1).val * 1024 + kk.val; rw [off1_eq i]; show (i 1).val * 1024 + 1 * kk.val = _; omega

/-- The sum a step adds at (p, q). -/
abbrev addend (i : grid0.Coords) (x : Vec Ideal S1024x4096 .bf16) (w : Vec Ideal S1024x512 .f32) (p : Fin 1024) (q : Fin 512) : EReal :=
  ∑ kk : Fin 1024, x (ix2 p ⟨(i 1).val * 1024 + kk.val, by have h : (i 1).val < 4 := (i 1).isLt; have := kk.isLt; omega⟩) * w (ix2 kk q)

theorem sum_apply (i : grid0.Coords) (x : Vec Ideal S1024x4096 .bf16) (w a : Vec Ideal S1024x512 .f32) (p : Fin 1024) (q : Fin 512) :
    addf a (matmul dot_S1024x1024_S1024x512_S1024x512_1_0_0_1_n_n none (xcols i x) (truncf .bf16 w bitsLt_bf16_f32) (constant (F := Ideal) S1024x512 .f32 0x00000000#32)) (ix2 p q)
      = a (ix2 p q) + addend i x w p q := by
  rw [addf_apply, prod_apply]
  refine congrArg (a (ix2 p q) + ·) (Finset.sum_congr rfl fun kk _ => ?_)
  rw [xcols_apply i x p kk, truncf_apply]

theorem stepQ_apply (i : grid0.Coords) (x : Vec Ideal S1024x4096 .bf16) (w a : Vec Ideal S1024x512 .f32) (p : Fin 1024) (q : Fin 512) :
    stepQ i x w a (ix2 p q) = a (ix2 p q) + addend i x w p q := by
  unfold stepQ; rw [pay9_eq]; exact sum_apply i x w a p q
theorem stepK_apply (i : grid0.Coords) (x : Vec Ideal S1024x4096 .bf16) (w a : Vec Ideal S1024x512 .f32) (p : Fin 1024) (q : Fin 512) :
    stepK i x w a (ix2 p q) = a (ix2 p q) + addend i x w p q := by
  unfold stepK; rw [pay10_eq]; exact sum_apply i x w a p q
theorem stepV_apply (i : grid0.Coords) (x : Vec Ideal S1024x4096 .bf16) (w a : Vec Ideal S1024x512 .f32) (p : Fin 1024) (q : Fin 512) :
    stepV i x w a (ix2 p q) = a (ix2 p q) + addend i x w p q := by
  unfold stepV; rw [pay11_eq]; exact sum_apply i x w a p q

/-- The zeroed accumulators hold 0 everywhere. -/
theorem zero5_apply (j : S1024x512.Idx) : (k0_pay5 (F := Ideal)) j = 0 := by
  unfold k0_pay5; simp only [shapeCast_self]; exact Ideal.ofBits_zero_f32
theorem zero6_apply (j : S1024x512.Idx) : (k0_pay6 (F := Ideal)) j = 0 := by
  unfold k0_pay6; simp only [shapeCast_self]; exact Ideal.ofBits_zero_f32
theorem zero7_apply (j : S1024x512.Idx) : (k0_pay7 (F := Ideal)) j = 0 := by
  unfold k0_pay7; simp only [shapeCast_self]; exact Ideal.ofBits_zero_f32

/-! ## The blocks a point reads, as entries of the arrays -/

section Blocks

variable {F : FTy → Type} [FloatOps F]
variable (V : (c : Dev nD) → (b : Ref sig .tc) → Buf (Elt F) ((c : Thread nD τ).loc b))

/-- The point t has coordinates (t / 4, t % 4). -/
theorem coords_facts : ∀ t : Fin cfg0.N, (grid0.coords t 0).val = t.val / 4 ∧ (grid0.coords t 1).val = t.val % 4 :=
  (by decide +kernel : ∀ t : Fin grid0.N, (grid0.coords t 0).val = t.val / 4 ∧ (grid0.coords t 1).val = t.val % 4)

/-- The printed index maps, decided over the grid: the input's block never moves, a weight's block is (k, n), an output's (0, n). -/
theorem idx_in : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem idx_w1 : ∀ t : Fin cfg0.N, win0_1.index t (0 : Fin 2) = t.val % 4 ∧ win0_1.index t (1 : Fin 2) = t.val / 4 :=
  (by decide +kernel : ∀ t : Fin grid0.N, win0_1.index t (0 : Fin 2) = t.val % 4 ∧ win0_1.index t (1 : Fin 2) = t.val / 4)
theorem idx_w2 : ∀ t : Fin cfg0.N, win0_2.index t (0 : Fin 2) = t.val % 4 ∧ win0_2.index t (1 : Fin 2) = t.val / 4 :=
  (by decide +kernel : ∀ t : Fin grid0.N, win0_2.index t (0 : Fin 2) = t.val % 4 ∧ win0_2.index t (1 : Fin 2) = t.val / 4)
theorem idx_w3 : ∀ t : Fin cfg0.N, win0_3.index t (0 : Fin 2) = t.val % 4 ∧ win0_3.index t (1 : Fin 2) = t.val / 4 :=
  (by decide +kernel : ∀ t : Fin grid0.N, win0_3.index t (0 : Fin 2) = t.val % 4 ∧ win0_3.index t (1 : Fin 2) = t.val / 4)
theorem idx_o4 : ∀ t : Fin cfg0.N, win0_4.index t (0 : Fin 2) = 0 ∧ win0_4.index t (1 : Fin 2) = t.val / 4 :=
  (by decide +kernel : ∀ t : Fin grid0.N, win0_4.index t (0 : Fin 2) = 0 ∧ win0_4.index t (1 : Fin 2) = t.val / 4)
theorem idx_o5 : ∀ t : Fin cfg0.N, win0_5.index t (0 : Fin 2) = 0 ∧ win0_5.index t (1 : Fin 2) = t.val / 4 :=
  (by decide +kernel : ∀ t : Fin grid0.N, win0_5.index t (0 : Fin 2) = 0 ∧ win0_5.index t (1 : Fin 2) = t.val / 4)
theorem idx_o6 : ∀ t : Fin cfg0.N, win0_6.index t (0 : Fin 2) = 0 ∧ win0_6.index t (1 : Fin 2) = t.val / 4 :=
  (by decide +kernel : ∀ t : Fin grid0.N, win0_6.index t (0 : Fin 2) = 0 ∧ win0_6.index t (1 : Fin 2) = t.val / 4)

/-- The arrays the region reads, at their literal types. -/
abbrev xarr (c : Dev nD) : Vec F S1024x4096 .bf16 := V c main_v0
abbrev warr1 (c : Dev nD) : Vec F S4096x4096 .f32 := V c main_arg1
abbrev warr2 (c : Dev nD) : Vec F S4096x4096 .f32 := V c main_arg2
abbrev warr3 (c : Dev nD) : Vec F S4096x4096 .f32 := V c main_arg3

/-- The resident input block is the whole input. -/
theorem xb_apply (c : Dev nD) (t : Fin cfg0.N) (p : Fin 1024) (k : Fin 4096) :
    xb0 V c t (ix2 p k) = xarr V c (ix2 p k) := by
  show V c main_v0 (((cfg0.win 0).blk t).view.emb (ix2 p k)) = V c main_v0 (ix2 p k)
  refine congrArg (V c main_v0) (funext fun a => Fin.ext ?_)
  match a with
  | ⟨0, _⟩ => show win0_0.index t (0 : Fin 2) * 1024 + 1 * p.val = p.val; rw [(idx_in t).1]; omega
  | ⟨1, _⟩ => show win0_0.index t (1 : Fin 2) * 4096 + 1 * k.val = k.val; rw [(idx_in t).2]; omega

/-- A weight's block at the point t is rows (t % 4)·1024 … and columns (t / 4)·512 … of the weight. -/
theorem wq_apply (c : Dev nD) (t : Fin cfg0.N) (kk : Fin 1024) (q : Fin 512) (h1 : t.val % 4 * 1024 + kk.val < 4096) (h2 : t.val / 4 * 512 + q.val < 4096) :
    wq0 V c t (ix2 kk q) = warr1 V c (ix2 ⟨t.val % 4 * 1024 + kk.val, h1⟩ ⟨t.val / 4 * 512 + q.val, h2⟩) := by
  show V c main_arg1 (((cfg0.win 1).blk t).view.emb (ix2 kk q)) = V c main_arg1 (ix2 ⟨t.val % 4 * 1024 + kk.val, h1⟩ ⟨t.val / 4 * 512 + q.val, h2⟩)
  refine congrArg (V c main_arg1) (funext fun a => Fin.ext ?_)
  match a with
  | ⟨0, _⟩ => show win0_1.index t (0 : Fin 2) * 1024 + 1 * kk.val = t.val % 4 * 1024 + kk.val; rw [(idx_w1 t).1]; omega
  | ⟨1, _⟩ => show win0_1.index t (1 : Fin 2) * 512 + 1 * q.val = t.val / 4 * 512 + q.val; rw [(idx_w1 t).2]; omega
theorem wk_apply (c : Dev nD) (t : Fin cfg0.N) (kk : Fin 1024) (q : Fin 512) (h1 : t.val % 4 * 1024 + kk.val < 4096) (h2 : t.val / 4 * 512 + q.val < 4096) :
    wk0 V c t (ix2 kk q) = warr2 V c (ix2 ⟨t.val % 4 * 1024 + kk.val, h1⟩ ⟨t.val / 4 * 512 + q.val, h2⟩) := by
  show V c main_arg2 (((cfg0.win 2).blk t).view.emb (ix2 kk q)) = V c main_arg2 (ix2 ⟨t.val % 4 * 1024 + kk.val, h1⟩ ⟨t.val / 4 * 512 + q.val, h2⟩)
  refine congrArg (V c main_arg2) (funext fun a => Fin.ext ?_)
  match a with
  | ⟨0, _⟩ => show win0_2.index t (0 : Fin 2) * 1024 + 1 * kk.val = t.val % 4 * 1024 + kk.val; rw [(idx_w2 t).1]; omega
  | ⟨1, _⟩ => show win0_2.index t (1 : Fin 2) * 512 + 1 * q.val = t.val / 4 * 512 + q.val; rw [(idx_w2 t).2]; omega
theorem wv_apply (c : Dev nD) (t : Fin cfg0.N) (kk : Fin 1024) (q : Fin 512) (h1 : t.val % 4 * 1024 + kk.val < 4096) (h2 : t.val / 4 * 512 + q.val < 4096) :
    wv0 V c t (ix2 kk q) = warr3 V c (ix2 ⟨t.val % 4 * 1024 + kk.val, h1⟩ ⟨t.val / 4 * 512 + q.val, h2⟩) := by
  show V c main_arg3 (((cfg0.win 3).blk t).view.emb (ix2 kk q)) = V c main_arg3 (ix2 ⟨t.val % 4 * 1024 + kk.val, h1⟩ ⟨t.val / 4 * 512 + q.val, h2⟩)
  refine congrArg (V c main_arg3) (funext fun a => Fin.ext ?_)
  match a with
  | ⟨0, _⟩ => show win0_3.index t (0 : Fin 2) * 1024 + 1 * kk.val = t.val % 4 * 1024 + kk.val; rw [(idx_w3 t).1]; omega
  | ⟨1, _⟩ => show win0_3.index t (1 : Fin 2) * 512 + 1 * q.val = t.val / 4 * 512 + q.val; rw [(idx_w3 t).2]; omega

end Blocks

/-! ## The four points of a column block -/

section Steps

variable {F : FTy → Type} [FloatOps F]
variable (V : (c : Dev nD) → (b : Ref sig .tc) → Buf (Elt F) ((c : Thread nD τ).loc b))

/-- After the last of the four points n, n+1, n+2, n+3 of a column block the accumulators are the four steps of the zeroed ones. -/
theorem acc_last (c : Dev nD) (n : ℕ) (h0 : n % 4 = 0) (h : n + 3 < cfg0.N) :
    acc0 V c (n + 3) h = step0 V c ⟨n + 3, h⟩ (step0 V c ⟨n + 2, Nat.lt_of_succ_lt h⟩ (step0 V c ⟨n + 1, Nat.lt_of_succ_lt (Nat.lt_of_succ_lt h)⟩
      (step0 V c ⟨n, Nat.lt_of_succ_lt (Nat.lt_of_succ_lt (Nat.lt_of_succ_lt h))⟩ zero3))) := by
  have e3 : acc0 V c (n + 3) h = step0 V c ⟨n + 3, h⟩ (acc0 V c (n + 2) (Nat.lt_of_succ_lt h)) :=
    congrArg (step0 V c ⟨n + 3, h⟩) (if_neg (by omega))
  have e2 : acc0 V c (n + 2) (Nat.lt_of_succ_lt h) = step0 V c ⟨n + 2, Nat.lt_of_succ_lt h⟩ (acc0 V c (n + 1) (Nat.lt_of_succ_lt (Nat.lt_of_succ_lt h))) :=
    congrArg (step0 V c ⟨n + 2, Nat.lt_of_succ_lt h⟩) (if_neg (by omega))
  have e1 : acc0 V c (n + 1) (Nat.lt_of_succ_lt (Nat.lt_of_succ_lt h)) = step0 V c ⟨n + 1, Nat.lt_of_succ_lt (Nat.lt_of_succ_lt h)⟩ (acc0 V c n (Nat.lt_of_succ_lt (Nat.lt_of_succ_lt (Nat.lt_of_succ_lt h)))) :=
    congrArg (step0 V c ⟨n + 1, Nat.lt_of_succ_lt (Nat.lt_of_succ_lt h)⟩) (if_neg (by omega))
  have e0 : acc0 V c n (Nat.lt_of_succ_lt (Nat.lt_of_succ_lt (Nat.lt_of_succ_lt h))) = step0 V c ⟨n, Nat.lt_of_succ_lt (Nat.lt_of_succ_lt (Nat.lt_of_succ_lt h))⟩ zero3 :=
    acc0_first V c ⟨n, Nat.lt_of_succ_lt (Nat.lt_of_succ_lt (Nat.lt_of_succ_lt h))⟩ h0
  rw [e3, e2, e1, e0]

theorem step0_fst (c : Dev nD) (t : Fin cfg0.N) (a : Acc3 F) : (step0 V c t a).1 = stepQ (grid0.coords t) (xb0 V c t) (wq0 V c t) a.1 := rfl
theorem step0_snd (c : Dev nD) (t : Fin cfg0.N) (a : Acc3 F) : (step0 V c t a).2.1 = stepK (grid0.coords t) (xb0 V c t) (wk0 V c t) a.2.1 := rfl
theorem step0_trd (c : Dev nD) (t : Fin cfg0.N) (a : Acc3 F) : (step0 V c t a).2.2 = stepV (grid0.coords t) (xb0 V c t) (wv0 V c t) a.2.2 := rfl

end Steps

/-- Four steps from the zero block add the four addends, at (p, q). -/
theorem four_stepsQ (i0 i1 i2 i3 : grid0.Coords) (x0 x1 x2 x3 : Vec Ideal S1024x4096 .bf16) (w0 w1 w2 w3 : Vec Ideal S1024x512 .f32) (p : Fin 1024) (q : Fin 512) :
    stepQ i3 x3 w3 (stepQ i2 x2 w2 (stepQ i1 x1 w1 (stepQ i0 x0 w0 (k0_pay5 (F := Ideal))))) (ix2 p q)
      = addend i0 x0 w0 p q + addend i1 x1 w1 p q + addend i2 x2 w2 p q + addend i3 x3 w3 p q := by
  rw [stepQ_apply, stepQ_apply, stepQ_apply, stepQ_apply, zero5_apply, zero_add]
theorem four_stepsK (i0 i1 i2 i3 : grid0.Coords) (x0 x1 x2 x3 : Vec Ideal S1024x4096 .bf16) (w0 w1 w2 w3 : Vec Ideal S1024x512 .f32) (p : Fin 1024) (q : Fin 512) :
    stepK i3 x3 w3 (stepK i2 x2 w2 (stepK i1 x1 w1 (stepK i0 x0 w0 (k0_pay6 (F := Ideal))))) (ix2 p q)
      = addend i0 x0 w0 p q + addend i1 x1 w1 p q + addend i2 x2 w2 p q + addend i3 x3 w3 p q := by
  rw [stepK_apply, stepK_apply, stepK_apply, stepK_apply, zero6_apply, zero_add]
theorem four_stepsV (i0 i1 i2 i3 : grid0.Coords) (x0 x1 x2 x3 : Vec Ideal S1024x4096 .bf16) (w0 w1 w2 w3 : Vec Ideal S1024x512 .f32) (p : Fin 1024) (q : Fin 512) :
    stepV i3 x3 w3 (stepV i2 x2 w2 (stepV i1 x1 w1 (stepV i0 x0 w0 (k0_pay7 (F := Ideal))))) (ix2 p q)
      = addend i0 x0 w0 p q + addend i1 x1 w1 p q + addend i2 x2 w2 p q + addend i3 x3 w3 p q := by
  rw [stepV_apply, stepV_apply, stepV_apply, stepV_apply, zero7_apply, zero_add]

/-! ## The four addends are the projection's sum, split into the four blocks of 1024 input columns -/

/-- The part of the projection's sum at row p, column n·512 + q, over the input columns s·1024 … s·1024 + 1023. -/
def part (X : Vec Ideal S1024x4096 .bf16) (W : Vec Ideal S4096x4096 .f32) (n s : ℕ) (hn : n < 8) (hs : s < 4) (p : Fin 1024) (q : Fin 512) : EReal :=
  ∑ kk : Fin 1024, X (ix2 p ⟨s * 1024 + kk.val, by have := kk.isLt; omega⟩)
    * W (ix2 ⟨s * 1024 + kk.val, by have := kk.isLt; omega⟩ ⟨n * 512 + q.val, by have := q.isLt; omega⟩)

/-- A point's addend, with its blocks read off the arrays, is the part of its input-column block. -/
theorem addend_eq (t : Fin cfg0.N) (xb X : Vec Ideal S1024x4096 .bf16) (wb : Vec Ideal S1024x512 .f32) (W : Vec Ideal S4096x4096 .f32)
    (hx : ∀ (p : Fin 1024) (k : Fin 4096), xb (ix2 p k) = X (ix2 p k))
    (hw : ∀ (kk : Fin 1024) (q : Fin 512) (h1 : t.val % 4 * 1024 + kk.val < 4096) (h2 : t.val / 4 * 512 + q.val < 4096),
      wb (ix2 kk q) = W (ix2 ⟨t.val % 4 * 1024 + kk.val, h1⟩ ⟨t.val / 4 * 512 + q.val, h2⟩))
    (n s : ℕ) (hn : n < 8) (hs : s < 4) (en : t.val / 4 = n) (es : t.val % 4 = s) (p : Fin 1024) (q : Fin 512) :
    addend (grid0.coords t) xb wb p q = part X W n s hn hs p q := by
  subst en; subst es
  unfold part
  refine Finset.sum_congr rfl fun kk _ => ?_
  have hk := kk.isLt
  have hq := q.isLt
  rw [hx, hw kk q (by omega) (by omega)]
  have e : (⟨(grid0.coords t 1).val * 1024 + kk.val, by have h : (grid0.coords t 1).val < 4 := (grid0.coords t 1).isLt; omega⟩ : Fin 4096) = ⟨t.val % 4 * 1024 + kk.val, by omega⟩ :=
    Fin.ext (by show (grid0.coords t 1).val * 1024 + kk.val = t.val % 4 * 1024 + kk.val; rw [(coords_facts t).2])
  rw [e]

/-- A sum over the 4096 input columns, in four blocks of 1024. -/
theorem sum_blocks (f : Fin 4096 → EReal) :
    ∑ k : Fin 4096, f k = ∑ s : Fin 4, ∑ kk : Fin 1024, f ⟨s.val * 1024 + kk.val, by have := s.isLt; have := kk.isLt; omega⟩ := by
  refine ((Equiv.sum_comp (finProdFinEquiv (m := 4) (n := 1024)) (fun k : Fin (4 * 1024) => f k)).symm).trans ?_
  rw [Fintype.sum_prod_type]
  refine Finset.sum_congr rfl fun s _ => Finset.sum_congr rfl fun kk _ => congrArg f (Fin.ext ?_)
  show kk.val + 1024 * s.val = s.val * 1024 + kk.val
  omega

theorem proj_blocks (X : Vec Ideal S1024x4096 .bf16) (W : Vec Ideal S4096x4096 .f32) (n : ℕ) (hn : n < 8) (p : Fin 1024) (q : Fin 512) (h2 : n * 512 + q.val < 4096) :
    part X W n 0 hn (by omega) p q + part X W n 1 hn (by omega) p q + part X W n 2 hn (by omega) p q + part X W n 3 hn (by omega) p q
      = Cert.Spec.proj X W p ⟨n * 512 + q.val, h2⟩ := by
  unfold Cert.Spec.proj
  rw [sum_blocks (fun k => X (ix2 p k) * W (ix2 k ⟨n * 512 + q.val, h2⟩)), Fin.sum_univ_four]
  rfl

/-! ## The outputs -/

section Outputs

variable (V : (c : Dev nD) → (b : Ref sig .tc) → Buf (Elt Ideal) ((c : Thread nD τ).loc b))

/-- What accumulator .1 holds after the last point of a column block: the projection by weight 1. -/
theorem acc4_value (c : Dev nD) (n : ℕ) (h0 : n % 4 = 0) (h : n + 3 < cfg0.N) (p : Fin 1024) (q : Fin 512) (h2 : (n + 3) / 4 * 512 + q.val < 4096) :
    (acc0 V c (n + 3) h).1 (ix2 p q) = Cert.Spec.proj (xarr V c) (warr1 V c) p ⟨(n + 3) / 4 * 512 + q.val, h2⟩ := by
  have hN : cfg0.N = 32 := N_0
  rw [acc_last V c n h0 h, step0_fst, step0_fst, step0_fst, step0_fst]
  refine (four_stepsQ _ _ _ _ _ _ _ _ _ _ _ _ p q).trans ?_
  rw [addend_eq ⟨n, Nat.lt_of_succ_lt (Nat.lt_of_succ_lt (Nat.lt_of_succ_lt h))⟩ _ (xarr V c) _ (warr1 V c) (xb_apply V c _) (wq_apply V c _) ((n + 3) / 4) 0 (by omega) (by omega) (by show n / 4 = (n + 3) / 4; omega) (by show n % 4 = 0; omega) p q,
    addend_eq ⟨n + 1, Nat.lt_of_succ_lt (Nat.lt_of_succ_lt h)⟩ _ (xarr V c) _ (warr1 V c) (xb_apply V c _) (wq_apply V c _) ((n + 3) / 4) 1 (by omega) (by omega) (by show (n + 1) / 4 = (n + 3) / 4; omega) (by show (n + 1) % 4 = 1; omega) p q,
    addend_eq ⟨n + 2, Nat.lt_of_succ_lt h⟩ _ (xarr V c) _ (warr1 V c) (xb_apply V c _) (wq_apply V c _) ((n + 3) / 4) 2 (by omega) (by omega) (by show (n + 2) / 4 = (n + 3) / 4; omega) (by show (n + 2) % 4 = 2; omega) p q,
    addend_eq ⟨n + 3, h⟩ _ (xarr V c) _ (warr1 V c) (xb_apply V c _) (wq_apply V c _) ((n + 3) / 4) 3 (by omega) (by omega) (by show (n + 3) / 4 = (n + 3) / 4; rfl) (by show (n + 3) % 4 = 3; omega) p q]
  exact proj_blocks (xarr V c) (warr1 V c) ((n + 3) / 4) (by omega) p q h2

/-- The block written back through output window 4 at a point: the rounding (the identity here) of an accumulator whose
    entries are those of an array G at the block's place is the block of G. -/
theorem flush_core4 (t : Fin cfg0.N) (a : Vec Ideal S1024x512 .f32) (G : S1024x4096.Idx → EReal)
    (ha : ∀ (p : Fin 1024) (q : Fin 512) (h2 : t.val / 4 * 512 + q.val < 4096), a (ix2 p q) = G (ix2 p ⟨t.val / 4 * 512 + q.val, h2⟩)) :
    (cfg0.win 4).cut (cfg0.grid.coords t) (k0_pay2 a) = ((cfg0.win 4).blk t).view.read (Elt Ideal) G := by
  have hN : cfg0.N = 32 := N_0
  have ht := t.isLt
  funext j
  have hj0 : (j 0).val < 1024 := (j 0).isLt
  have hj1 : (j 1).val < 512 := (j 1).isLt
  have e1 : (cfg0.win 4).cut (cfg0.grid.coords t) (k0_pay2 a) j = a (ix2 ⟨(j 0).val, hj0⟩ ⟨(j 1).val, hj1⟩) := by
    show a _ = a _
    refine congrArg a (funext fun b => ?_)
    match b with
    | ⟨0, _⟩ => rfl
    | ⟨1, _⟩ => rfl
  have e2 : ((cfg0.win 4).blk t).view.read (Elt Ideal) G j = G (ix2 ⟨(j 0).val, hj0⟩ ⟨t.val / 4 * 512 + (j 1).val, by omega⟩) := by
    show G (((cfg0.win 4).blk t).view.emb j) = _
    refine congrArg G (funext fun b => Fin.ext ?_)
    match b with
    | ⟨0, _⟩ => show win0_4.index t (0 : Fin 2) * 1024 + 1 * (j 0).val = (j 0).val; rw [(idx_o4 t).1]; omega
    | ⟨1, _⟩ => show win0_4.index t (1 : Fin 2) * 512 + 1 * (j 1).val = t.val / 4 * 512 + (j 1).val; rw [(idx_o4 t).2]; omega
  rw [e1, e2]
  exact ha _ _ _

/-- WHAT A POINT WRITES BACK through window 4 is its block of the projection by weight 1. -/
theorem flushed4_eq (c : Dev nD) (t : Fin cfg0.N) (hf : (cfg0.win 4).flush t = true) :
    (dat0 V c).flushed 4 t = ((cfg0.win 4).blk t).view.read (Elt Ideal) (fun i => Cert.Spec.proj (V c main_v0) (V c main_arg1) (i 0) (i 1)) := by
  have hN : cfg0.N = 32 := N_0
  obtain ⟨tv, ht⟩ := t
  have h3 : tv % 4 = 3 := (flush0_4 ⟨tv, ht⟩).mp hf
  obtain ⟨n, rfl⟩ : ∃ n, tv = n + 3 := ⟨tv - 3, by omega⟩
  show (cfg0.win 4).cut (cfg0.grid.coords ⟨n + 3, ht⟩) ((dat0 V c).after 4 ⟨n + 3, ht⟩) = _
  rw [after0_4]
  exact flush_core4 ⟨n + 3, ht⟩ (acc0 V c (n + 3) ht).1 _ (fun p q h2 => acc4_value V c n (by omega) ht p q h2)

/-- An index of the array is in a point's block of window 4 iff each coordinate is in the block's range on its axis. -/
theorem mem_blk4 (t : Fin cfg0.N) (i : S1024x4096.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v1_0).slice (win0_4.rect t)).set ↔ _
  rw [View.set_slice_whole, Rect.mem_set_unit]
  exact Iff.rfl

/-- Every entry (m, j) of the output lies in the block of the last point of column block j / 512. -/
theorem cover4 (i : S1024x4096.Idx) : ∃ t : Fin cfg0.N, (cfg0.win 4).flush t = true ∧ i ∈ ((cfg0.win 4).blk t).view.set := by
  have hN : cfg0.N = 32 := N_0
  have h0 : (i 0).val < 1024 := idx2_lt0 i
  have h1 : (i 1).val < 4096 := idx2_lt1 i
  have hlt : 4 * ((i 1).val / 512) + 3 < cfg0.N := by omega
  refine ⟨⟨4 * ((i 1).val / 512) + 3, hlt⟩, (flush0_4 _).mpr (by show (4 * ((i 1).val / 512) + 3) % 4 = 3; omega), ?_⟩
  rw [mem_blk4]
  intro a
  match a with
  | ⟨0, _⟩ =>
    show win0_4.index ⟨4 * ((i 1).val / 512) + 3, hlt⟩ (0 : Fin 2) * 1024 ≤ (i 0).val ∧ (i 0).val < win0_4.index ⟨4 * ((i 1).val / 512) + 3, hlt⟩ (0 : Fin 2) * 1024 + 1024
    rw [(idx_o4 _).1]; omega
  | ⟨1, _⟩ =>
    show win0_4.index ⟨4 * ((i 1).val / 512) + 3, hlt⟩ (1 : Fin 2) * 512 ≤ (i 1).val ∧ (i 1).val < win0_4.index ⟨4 * ((i 1).val / 512) + 3, hlt⟩ (1 : Fin 2) * 512 + 512
    rw [(idx_o4 _).2]
    show (4 * ((i 1).val / 512) + 3) / 4 * 512 ≤ (i 1).val ∧ (i 1).val < (4 * ((i 1).val / 512) + 3) / 4 * 512 + 512
    omega

/-- THE ARRAY of output 0 after the region: the projection of the input by weight 1. -/
theorem final0_4 (c : Dev nD) :
    (dat0 (F := Ideal) V c).arrAt 4 cfg0.N = fun i => Cert.Spec.proj (V c main_v0) (V c main_arg1) (i 0) (i 1) :=
  (dat0 V c).arrAt_eq_of_cover 4 (fun i => Cert.Spec.proj (V c main_v0) (V c main_arg1) (i 0) (i 1)) (fun t hf => flushed4_eq V c t hf) (fun i => cover4 i)

/-- What accumulator .2.1 holds after the last point of a column block: the projection by weight 2. -/
theorem acc5_value (c : Dev nD) (n : ℕ) (h0 : n % 4 = 0) (h : n + 3 < cfg0.N) (p : Fin 1024) (q : Fin 512) (h2 : (n + 3) / 4 * 512 + q.val < 4096) :
    (acc0 V c (n + 3) h).2.1 (ix2 p q) = Cert.Spec.proj (xarr V c) (warr2 V c) p ⟨(n + 3) / 4 * 512 + q.val, h2⟩ := by
  have hN : cfg0.N = 32 := N_0
  rw [acc_last V c n h0 h, step0_snd, step0_snd, step0_snd, step0_snd]
  refine (four_stepsK _ _ _ _ _ _ _ _ _ _ _ _ p q).trans ?_
  rw [addend_eq ⟨n, Nat.lt_of_succ_lt (Nat.lt_of_succ_lt (Nat.lt_of_succ_lt h))⟩ _ (xarr V c) _ (warr2 V c) (xb_apply V c _) (wk_apply V c _) ((n + 3) / 4) 0 (by omega) (by omega) (by show n / 4 = (n + 3) / 4; omega) (by show n % 4 = 0; omega) p q,
    addend_eq ⟨n + 1, Nat.lt_of_succ_lt (Nat.lt_of_succ_lt h)⟩ _ (xarr V c) _ (warr2 V c) (xb_apply V c _) (wk_apply V c _) ((n + 3) / 4) 1 (by omega) (by omega) (by show (n + 1) / 4 = (n + 3) / 4; omega) (by show (n + 1) % 4 = 1; omega) p q,
    addend_eq ⟨n + 2, Nat.lt_of_succ_lt h⟩ _ (xarr V c) _ (warr2 V c) (xb_apply V c _) (wk_apply V c _) ((n + 3) / 4) 2 (by omega) (by omega) (by show (n + 2) / 4 = (n + 3) / 4; omega) (by show (n + 2) % 4 = 2; omega) p q,
    addend_eq ⟨n + 3, h⟩ _ (xarr V c) _ (warr2 V c) (xb_apply V c _) (wk_apply V c _) ((n + 3) / 4) 3 (by omega) (by omega) (by show (n + 3) / 4 = (n + 3) / 4; rfl) (by show (n + 3) % 4 = 3; omega) p q]
  exact proj_blocks (xarr V c) (warr2 V c) ((n + 3) / 4) (by omega) p q h2

/-- The block written back through output window 5 at a point: the rounding (the identity here) of an accumulator whose
    entries are those of an array G at the block's place is the block of G. -/
theorem flush_core5 (t : Fin cfg0.N) (a : Vec Ideal S1024x512 .f32) (G : S1024x4096.Idx → EReal)
    (ha : ∀ (p : Fin 1024) (q : Fin 512) (h2 : t.val / 4 * 512 + q.val < 4096), a (ix2 p q) = G (ix2 p ⟨t.val / 4 * 512 + q.val, h2⟩)) :
    (cfg0.win 5).cut (cfg0.grid.coords t) (k0_pay3 a) = ((cfg0.win 5).blk t).view.read (Elt Ideal) G := by
  have hN : cfg0.N = 32 := N_0
  have ht := t.isLt
  funext j
  have hj0 : (j 0).val < 1024 := (j 0).isLt
  have hj1 : (j 1).val < 512 := (j 1).isLt
  have e1 : (cfg0.win 5).cut (cfg0.grid.coords t) (k0_pay3 a) j = a (ix2 ⟨(j 0).val, hj0⟩ ⟨(j 1).val, hj1⟩) := by
    show a _ = a _
    refine congrArg a (funext fun b => ?_)
    match b with
    | ⟨0, _⟩ => rfl
    | ⟨1, _⟩ => rfl
  have e2 : ((cfg0.win 5).blk t).view.read (Elt Ideal) G j = G (ix2 ⟨(j 0).val, hj0⟩ ⟨t.val / 4 * 512 + (j 1).val, by omega⟩) := by
    show G (((cfg0.win 5).blk t).view.emb j) = _
    refine congrArg G (funext fun b => Fin.ext ?_)
    match b with
    | ⟨0, _⟩ => show win0_5.index t (0 : Fin 2) * 1024 + 1 * (j 0).val = (j 0).val; rw [(idx_o5 t).1]; omega
    | ⟨1, _⟩ => show win0_5.index t (1 : Fin 2) * 512 + 1 * (j 1).val = t.val / 4 * 512 + (j 1).val; rw [(idx_o5 t).2]; omega
  rw [e1, e2]
  exact ha _ _ _

/-- WHAT A POINT WRITES BACK through window 5 is its block of the projection by weight 2. -/
theorem flushed5_eq (c : Dev nD) (t : Fin cfg0.N) (hf : (cfg0.win 5).flush t = true) :
    (dat0 V c).flushed 5 t = ((cfg0.win 5).blk t).view.read (Elt Ideal) (fun i => Cert.Spec.proj (V c main_v0) (V c main_arg2) (i 0) (i 1)) := by
  have hN : cfg0.N = 32 := N_0
  obtain ⟨tv, ht⟩ := t
  have h3 : tv % 4 = 3 := (flush0_5 ⟨tv, ht⟩).mp hf
  obtain ⟨n, rfl⟩ : ∃ n, tv = n + 3 := ⟨tv - 3, by omega⟩
  show (cfg0.win 5).cut (cfg0.grid.coords ⟨n + 3, ht⟩) ((dat0 V c).after 5 ⟨n + 3, ht⟩) = _
  rw [after0_5]
  exact flush_core5 ⟨n + 3, ht⟩ (acc0 V c (n + 3) ht).2.1 _ (fun p q h2 => acc5_value V c n (by omega) ht p q h2)

/-- An index of the array is in a point's block of window 5 iff each coordinate is in the block's range on its axis. -/
theorem mem_blk5 (t : Fin cfg0.N) (i : S1024x4096.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v1_1).slice (win0_5.rect t)).set ↔ _
  rw [View.set_slice_whole, Rect.mem_set_unit]
  exact Iff.rfl

/-- Every entry (m, j) of the output lies in the block of the last point of column block j / 512. -/
theorem cover5 (i : S1024x4096.Idx) : ∃ t : Fin cfg0.N, (cfg0.win 5).flush t = true ∧ i ∈ ((cfg0.win 5).blk t).view.set := by
  have hN : cfg0.N = 32 := N_0
  have h0 : (i 0).val < 1024 := idx2_lt0 i
  have h1 : (i 1).val < 4096 := idx2_lt1 i
  have hlt : 4 * ((i 1).val / 512) + 3 < cfg0.N := by omega
  refine ⟨⟨4 * ((i 1).val / 512) + 3, hlt⟩, (flush0_5 _).mpr (by show (4 * ((i 1).val / 512) + 3) % 4 = 3; omega), ?_⟩
  rw [mem_blk5]
  intro a
  match a with
  | ⟨0, _⟩ =>
    show win0_5.index ⟨4 * ((i 1).val / 512) + 3, hlt⟩ (0 : Fin 2) * 1024 ≤ (i 0).val ∧ (i 0).val < win0_5.index ⟨4 * ((i 1).val / 512) + 3, hlt⟩ (0 : Fin 2) * 1024 + 1024
    rw [(idx_o5 _).1]; omega
  | ⟨1, _⟩ =>
    show win0_5.index ⟨4 * ((i 1).val / 512) + 3, hlt⟩ (1 : Fin 2) * 512 ≤ (i 1).val ∧ (i 1).val < win0_5.index ⟨4 * ((i 1).val / 512) + 3, hlt⟩ (1 : Fin 2) * 512 + 512
    rw [(idx_o5 _).2]
    show (4 * ((i 1).val / 512) + 3) / 4 * 512 ≤ (i 1).val ∧ (i 1).val < (4 * ((i 1).val / 512) + 3) / 4 * 512 + 512
    omega

/-- THE ARRAY of output 1 after the region: the projection of the input by weight 2. -/
theorem final0_5 (c : Dev nD) :
    (dat0 (F := Ideal) V c).arrAt 5 cfg0.N = fun i => Cert.Spec.proj (V c main_v0) (V c main_arg2) (i 0) (i 1) :=
  (dat0 V c).arrAt_eq_of_cover 5 (fun i => Cert.Spec.proj (V c main_v0) (V c main_arg2) (i 0) (i 1)) (fun t hf => flushed5_eq V c t hf) (fun i => cover5 i)

/-- What accumulator .2.2 holds after the last point of a column block: the projection by weight 3. -/
theorem acc6_value (c : Dev nD) (n : ℕ) (h0 : n % 4 = 0) (h : n + 3 < cfg0.N) (p : Fin 1024) (q : Fin 512) (h2 : (n + 3) / 4 * 512 + q.val < 4096) :
    (acc0 V c (n + 3) h).2.2 (ix2 p q) = Cert.Spec.proj (xarr V c) (warr3 V c) p ⟨(n + 3) / 4 * 512 + q.val, h2⟩ := by
  have hN : cfg0.N = 32 := N_0
  rw [acc_last V c n h0 h, step0_trd, step0_trd, step0_trd, step0_trd]
  refine (four_stepsV _ _ _ _ _ _ _ _ _ _ _ _ p q).trans ?_
  rw [addend_eq ⟨n, Nat.lt_of_succ_lt (Nat.lt_of_succ_lt (Nat.lt_of_succ_lt h))⟩ _ (xarr V c) _ (warr3 V c) (xb_apply V c _) (wv_apply V c _) ((n + 3) / 4) 0 (by omega) (by omega) (by show n / 4 = (n + 3) / 4; omega) (by show n % 4 = 0; omega) p q,
    addend_eq ⟨n + 1, Nat.lt_of_succ_lt (Nat.lt_of_succ_lt h)⟩ _ (xarr V c) _ (warr3 V c) (xb_apply V c _) (wv_apply V c _) ((n + 3) / 4) 1 (by omega) (by omega) (by show (n + 1) / 4 = (n + 3) / 4; omega) (by show (n + 1) % 4 = 1; omega) p q,
    addend_eq ⟨n + 2, Nat.lt_of_succ_lt h⟩ _ (xarr V c) _ (warr3 V c) (xb_apply V c _) (wv_apply V c _) ((n + 3) / 4) 2 (by omega) (by omega) (by show (n + 2) / 4 = (n + 3) / 4; omega) (by show (n + 2) % 4 = 2; omega) p q,
    addend_eq ⟨n + 3, h⟩ _ (xarr V c) _ (warr3 V c) (xb_apply V c _) (wv_apply V c _) ((n + 3) / 4) 3 (by omega) (by omega) (by show (n + 3) / 4 = (n + 3) / 4; rfl) (by show (n + 3) % 4 = 3; omega) p q]
  exact proj_blocks (xarr V c) (warr3 V c) ((n + 3) / 4) (by omega) p q h2

/-- The block written back through output window 6 at a point: the rounding (the identity here) of an accumulator whose
    entries are those of an array G at the block's place is the block of G. -/
theorem flush_core6 (t : Fin cfg0.N) (a : Vec Ideal S1024x512 .f32) (G : S1024x4096.Idx → EReal)
    (ha : ∀ (p : Fin 1024) (q : Fin 512) (h2 : t.val / 4 * 512 + q.val < 4096), a (ix2 p q) = G (ix2 p ⟨t.val / 4 * 512 + q.val, h2⟩)) :
    (cfg0.win 6).cut (cfg0.grid.coords t) (k0_pay4 a) = ((cfg0.win 6).blk t).view.read (Elt Ideal) G := by
  have hN : cfg0.N = 32 := N_0
  have ht := t.isLt
  funext j
  have hj0 : (j 0).val < 1024 := (j 0).isLt
  have hj1 : (j 1).val < 512 := (j 1).isLt
  have e1 : (cfg0.win 6).cut (cfg0.grid.coords t) (k0_pay4 a) j = a (ix2 ⟨(j 0).val, hj0⟩ ⟨(j 1).val, hj1⟩) := by
    show a _ = a _
    refine congrArg a (funext fun b => ?_)
    match b with
    | ⟨0, _⟩ => rfl
    | ⟨1, _⟩ => rfl
  have e2 : ((cfg0.win 6).blk t).view.read (Elt Ideal) G j = G (ix2 ⟨(j 0).val, hj0⟩ ⟨t.val / 4 * 512 + (j 1).val, by omega⟩) := by
    show G (((cfg0.win 6).blk t).view.emb j) = _
    refine congrArg G (funext fun b => Fin.ext ?_)
    match b with
    | ⟨0, _⟩ => show win0_6.index t (0 : Fin 2) * 1024 + 1 * (j 0).val = (j 0).val; rw [(idx_o6 t).1]; omega
    | ⟨1, _⟩ => show win0_6.index t (1 : Fin 2) * 512 + 1 * (j 1).val = t.val / 4 * 512 + (j 1).val; rw [(idx_o6 t).2]; omega
  rw [e1, e2]
  exact ha _ _ _

/-- WHAT A POINT WRITES BACK through window 6 is its block of the projection by weight 3. -/
theorem flushed6_eq (c : Dev nD) (t : Fin cfg0.N) (hf : (cfg0.win 6).flush t = true) :
    (dat0 V c).flushed 6 t = ((cfg0.win 6).blk t).view.read (Elt Ideal) (fun i => Cert.Spec.proj (V c main_v0) (V c main_arg3) (i 0) (i 1)) := by
  have hN : cfg0.N = 32 := N_0
  obtain ⟨tv, ht⟩ := t
  have h3 : tv % 4 = 3 := (flush0_6 ⟨tv, ht⟩).mp hf
  obtain ⟨n, rfl⟩ : ∃ n, tv = n + 3 := ⟨tv - 3, by omega⟩
  show (cfg0.win 6).cut (cfg0.grid.coords ⟨n + 3, ht⟩) ((dat0 V c).after 6 ⟨n + 3, ht⟩) = _
  rw [after0_6]
  exact flush_core6 ⟨n + 3, ht⟩ (acc0 V c (n + 3) ht).2.2 _ (fun p q h2 => acc6_value V c n (by omega) ht p q h2)

/-- An index of the array is in a point's block of window 6 iff each coordinate is in the block's range on its axis. -/
theorem mem_blk6 (t : Fin cfg0.N) (i : S1024x4096.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v1_2).slice (win0_6.rect t)).set ↔ _
  rw [View.set_slice_whole, Rect.mem_set_unit]
  exact Iff.rfl

/-- Every entry (m, j) of the output lies in the block of the last point of column block j / 512. -/
theorem cover6 (i : S1024x4096.Idx) : ∃ t : Fin cfg0.N, (cfg0.win 6).flush t = true ∧ i ∈ ((cfg0.win 6).blk t).view.set := by
  have hN : cfg0.N = 32 := N_0
  have h0 : (i 0).val < 1024 := idx2_lt0 i
  have h1 : (i 1).val < 4096 := idx2_lt1 i
  have hlt : 4 * ((i 1).val / 512) + 3 < cfg0.N := by omega
  refine ⟨⟨4 * ((i 1).val / 512) + 3, hlt⟩, (flush0_6 _).mpr (by show (4 * ((i 1).val / 512) + 3) % 4 = 3; omega), ?_⟩
  rw [mem_blk6]
  intro a
  match a with
  | ⟨0, _⟩ =>
    show win0_6.index ⟨4 * ((i 1).val / 512) + 3, hlt⟩ (0 : Fin 2) * 1024 ≤ (i 0).val ∧ (i 0).val < win0_6.index ⟨4 * ((i 1).val / 512) + 3, hlt⟩ (0 : Fin 2) * 1024 + 1024
    rw [(idx_o6 _).1]; omega
  | ⟨1, _⟩ =>
    show win0_6.index ⟨4 * ((i 1).val / 512) + 3, hlt⟩ (1 : Fin 2) * 512 ≤ (i 1).val ∧ (i 1).val < win0_6.index ⟨4 * ((i 1).val / 512) + 3, hlt⟩ (1 : Fin 2) * 512 + 512
    rw [(idx_o6 _).2]
    show (4 * ((i 1).val / 512) + 3) / 4 * 512 ≤ (i 1).val ∧ (i 1).val < (4 * ((i 1).val / 512) + 3) / 4 * 512 + 512
    omega

/-- THE ARRAY of output 2 after the region: the projection of the input by weight 3. -/
theorem final0_6 (c : Dev nD) :
    (dat0 (F := Ideal) V c).arrAt 6 cfg0.N = fun i => Cert.Spec.proj (V c main_v0) (V c main_arg3) (i 0) (i 1) :=
  (dat0 V c).arrAt_eq_of_cover 6 (fun i => Cert.Spec.proj (V c main_v0) (V c main_arg3) (i 0) (i 1)) (fun t hf => flushed6_eq V c t hf) (fun i => cover6 i)

end Outputs

end Cert.KernelIdeal.Val0

end
-- ==== Proof.LibRowCasts.lean ====
/-
  Four layout operations read at an index.

  * A rank-3 array `[a, b, c]` cast to `[n, c]` with `n = a · b` merges its two leading axes: row
    `p · b + q` of the matrix is row `(p, q)` of the array; and the cast back splits them.
  * A vector `[a]` cast to the column `[a, 1]` (what a sum with kept dimensions produces).
  * A column `[a, 1]` broadcast to `[a, b]`: every lane of row `i` is the column's entry `i`.
-/
import Idealize.ShloMosaic.Lib.Pipeline.Value
import Idealize.ShloMosaic.Lib.ValueIdx

namespace Idealize.ShloMosaic.RowCasts

open Idealize.ShloMosaic Idealize.ShloMosaic.ValueIdx

variable {α : Type}

/-- `[a, b, c]` cast to `[n, c]`, read at row `r = p · b + q` and lane `d`: the array at `(p, q, d)`. -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- `[n, c]` cast to `[a, b, c]`, read at `(p, q, d)`: the matrix at row `r = p · b + q`, lane `d`. -/
theorem shapeCast_split_apply {a b c n : ℕ} (y : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ y h (ix3 p q d) = y (ix2 r d) :=
  shapeCast_apply y h _ _ (by
    rw [Shape.rowMajor_val_three, Shape.rowMajor_val_two]
    show r.val * c + d.val = (p.val * b + q.val) * c + d.val
    rw [hr])

/-- A vector cast to a column reads, at `(i, u)`, the vector at `i`. -/
theorem shapeCast_column_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_one, Shape.rowMajor_val_two]
    show i.val = i.val * 1 + u.val
    have := u.isLt
    omega)

/-- A column broadcast over the lanes reads, at `(i, j)`, the column at `(i, 0)`. -/
theorem broadcastTo_column_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.RowCasts
-- ==== Proof.KiVal1.lean ====
/-
  The VALUE of the attention region at the ideal instance (floats are extended reals, format changes are the identity).

  For head h the four grid points (h, 0 … 3) each take one tile of 1024 cache rows — the new keys and values in place
  of tile 2 —, form the weights e[m, r] = exp (Σ_d q[m, h·128 + d] · Kt[r, d]) of the tile's rows, and add Σ_r e[m, r]
  to the running denominator and Σ_r e[m, r] · Vt[r, d] to the running numerator, both zeroed at tile 0. A sum over the
  4096 cache rows is the sum of its four tiles' parts (addition of extended reals is commutative and associative), so
  after tile 3 the running sums are the specification's denominator and numerator, and the block written back is their
  quotient: the specification's array at the columns h·128 … h·128 + 127. The 32 heads' blocks cover the array.
-/
import proofs.«404418_j31731218382918_3_alg».proof.Proof.KiData1
import proofs.«404418_j31731218382918_3_alg».proof.Proof.SpecA
import proofs.«404418_j31731218382918_3_alg».proof.Proof.LibRowCasts
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Tactic.IntervalCases

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.ValueIdx Idealize.ShloMosaic.RowCasts Idealize.SL.Sem
open Idealize.ShloMosaic.Pipeline (Dat)

/-- The equality test of the second grid coordinate against 2, as a bit. -/
theorem cmp_two (n : Nat) (hn : n < 4) : Scalar.cmpi .eq (BitVec.ofNat 32 n) 2#32 = if n = 2 then 1#1 else 0#1 := by
  interval_cases n <;> decide

/-- Row r, lane d of the key (or value) tile a point works on: the new rows at tile 2, else the cache tile's. -/
def tile (i : grid1.Coords) (n : Vec Ideal S1024x128 .bf16) (c : Vec Ideal S1x1024x128 .f32) (r : Fin 1024) (d : Fin 128) : EReal :=
  if (i 1).val = 2 then n (ix2 r d) else c (ix3 (0 : Fin 1) r d)

/-- The weight of tile row r for query row p: the exponential of the score. -/
def wt (i : grid1.Coords) (q kn : Vec Ideal S1024x128 .bf16) (kc : Vec Ideal S1x1024x128 .f32) (p r : Fin 1024) : EReal :=
  Ideal.exp (∑ d' : Fin 128, q (ix2 p d') * tile i kn kc r d')

/-- The selected tile, read at an index. -/
theorem sel_apply (i : grid1.Coords) (n : Vec Ideal S1024x128 .bf16) (c : Vec Ideal S1x1024x128 .f32) (r : Fin 1024) (d : Fin 128) :
    (Scalar.select (Scalar.cmpi CmpIPredicate.eq (BitVec.ofNat 32 (i 1).val) 2#32)
        (shapeCast S1024x128 n shapeCasts_S1024x128_S1024x128)
        (truncf FTy.bf16 (shapeCast S1024x128 c shapeCasts_S1x1024x128_S1024x128) bitsLt_bf16_f32) : FVec Ideal S1024x128 .bf16) (ix2 r d)
      = tile i n c r d := by
  unfold tile
  rw [cmp_two (i 1).val (i 1).isLt]
  by_cases h : (i 1).val = 2
  · rw [if_pos h, if_pos h, select_one, shapeCast_self]
  · rw [if_neg h, if_neg h, select_zero]
    exact shapeCast_1ab_ab_apply c shapeCasts_S1x1024x128_S1024x128 r d

theorem lhs5_0 (j : S1024x1024.Idx) (k : dot_S1024x128_S128x1024_S1024x1024_1_0_0_1_n_n.contr.Idx) :
    (dot_S1024x128_S128x1024_S1024x1024_1_0_0_1_n_n.lhsIdx j k 0).val = (j 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem lhs5_1 (j : S1024x1024.Idx) (k : dot_S1024x128_S128x1024_S1024x1024_1_0_0_1_n_n.contr.Idx) :
    (dot_S1024x128_S128x1024_S1024x1024_1_0_0_1_n_n.lhsIdx j k 1).val = (k ⟨0, by decide⟩).val :=
  dot_S1024x128_S128x1024_S1024x1024_1_0_0_1_n_n.lhsIdx_val_of_single rfl j k
theorem rhs5_0 (j : S1024x1024.Idx) (k : dot_S1024x128_S128x1024_S1024x1024_1_0_0_1_n_n.contr.Idx) :
    (dot_S1024x128_S128x1024_S1024x1024_1_0_0_1_n_n.rhsIdx j k 0).val = (k ⟨0, by decide⟩).val :=
  dot_S1024x128_S128x1024_S1024x1024_1_0_0_1_n_n.rhsIdx_val_of_single rfl j k
theorem rhs5_1 (j : S1024x1024.Idx) (k : dot_S1024x128_S128x1024_S1024x1024_1_0_0_1_n_n.contr.Idx) :
    (dot_S1024x128_S128x1024_S1024x1024_1_0_0_1_n_n.rhsIdx j k 1).val = (j 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The exponentials of the scores, read at (query row, tile row). -/
theorem pay5_apply (i : grid1.Coords) (kn : Vec Ideal S1024x128 .bf16) (kc : Vec Ideal S1x1024x128 .f32) (q : Vec Ideal S1024x128 .bf16) (p r : Fin 1024) :
    k1_pay5 (F := Ideal) i kn kc q (ix2 p r) = wt i q kn kc p r := by
  unfold k1_pay5 wt
  dsimp only
  refine congrArg Ideal.exp ?_
  refine (Ideal.matmul_constant_zero_apply dot_S1024x128_S128x1024_S1024x1024_1_0_0_1_n_n none _ _ (ix2 p r)).trans ?_
  rw [← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 p r) ((contrEquiv1 dot_S1024x128_S128x1024_S1024x1024_1_0_0_1_n_n 128 rfl rfl).symm k) = ix2 p k := funext fun a => Fin.ext (by
    match a with
    | ⟨0, _⟩ => exact lhs5_0 _ _
    | ⟨1, _⟩ => exact (lhs5_1 _ _).trans hk)
  have er : dot_S1024x128_S128x1024_S1024x1024_1_0_0_1_n_n.rhsIdx (ix2 p r) ((contrEquiv1 dot_S1024x128_S128x1024_S1024x1024_1_0_0_1_n_n 128 rfl rfl).symm k) = ix2 k r := funext fun a => Fin.ext (by
    match a with
    | ⟨0, _⟩ => exact (rhs5_0 _ _).trans hk
    | ⟨1, _⟩ => exact rhs5_1 _ _)
  rw [el, er, shapeCast_self, transpose_ix2_apply, sel_apply]

/-- The running denominator's step, read at a row: the old value plus the row's weights summed over the tile. -/
theorem pay6_apply (i : grid1.Coords) (kn : Vec Ideal S1024x128 .bf16) (kc : Vec Ideal S1x1024x128 .f32) (q : Vec Ideal S1024x128 .bf16)
    (l : Vec Ideal S1024x1 .f32) (p : Fin 1024) (u : Fin 1) :
    k1_pay6 (F := Ideal) i kn kc q l (ix2 p u) = l (ix2 p u) + ∑ r : Fin 1024, wt i q kn kc p r := by
  unfold k1_pay6
  dsimp only
  rw [shapeCast_self]
  refine congrArg (l (ix2 p u) + ·) ?_
  refine (shapeCast_column_apply _ shapeCasts_S1024_S1024x1 p u).trans ?_
  refine (Ideal.multiReduction_add_single (k1_pay5 (F := Ideal) i kn kc q) 0x00000000#32 reduces_S1024x1024_S1024 (.inl rfl) rfl (ix1 p)).trans ?_
  refine Finset.sum_congr rfl fun r _ => ?_
  have e : reduces_S1024x1024_S1024.lift (ix1 p) r = ix2 p r := funext fun a => Fin.ext (by
    match a with
    | ⟨0, _⟩ => rfl
    | ⟨1, _⟩ => rfl)
  rw [e]
  exact pay5_apply i kn kc q p r

theorem lhs7_0 (j : S1024x128.Idx) (k : dot_S1024x1024_S1024x128_S1024x128_1_0_0_1_n_n.contr.Idx) :
    (dot_S1024x1024_S1024x128_S1024x128_1_0_0_1_n_n.lhsIdx j k 0).val = (j 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs7_1 (j : S1024x128.Idx) (k : dot_S1024x1024_S1024x128_S1024x128_1_0_0_1_n_n.contr.Idx) :
    (dot_S1024x1024_S1024x128_S1024x128_1_0_0_1_n_n.lhsIdx j k 1).val = (k ⟨0, by decide⟩).val :=
  dot_S1024x1024_S1024x128_S1024x128_1_0_0_1_n_n.lhsIdx_val_of_single rfl j k
theorem rhs7_0 (j : S1024x128.Idx) (k : dot_S1024x1024_S1024x128_S1024x128_1_0_0_1_n_n.contr.Idx) :
    (dot_S1024x1024_S1024x128_S1024x128_1_0_0_1_n_n.rhsIdx j k 0).val = (k ⟨0, by decide⟩).val :=
  dot_S1024x1024_S1024x128_S1024x128_1_0_0_1_n_n.rhsIdx_val_of_single rfl j k
theorem rhs7_1 (j : S1024x128.Idx) (k : dot_S1024x1024_S1024x128_S1024x128_1_0_0_1_n_n.contr.Idx) :
    (dot_S1024x1024_S1024x128_S1024x128_1_0_0_1_n_n.rhsIdx j k 1).val = (j 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The weights times the values, read at (query row, lane): the sum over the tile's rows. -/
theorem pay7_apply (i : grid1.Coords) (kn : Vec Ideal S1024x128 .bf16) (kc : Vec Ideal S1x1024x128 .f32) (vn : Vec Ideal S1024x128 .bf16) (vc : Vec Ideal S1x1024x128 .f32)
    (q : Vec Ideal S1024x128 .bf16) (p : Fin 1024) (d : Fin 128) :
    k1_pay7 (F := Ideal) i kn kc vn vc q (ix2 p d) = ∑ r : Fin 1024, wt i q kn kc p r * tile i vn vc r d := by
  unfold k1_pay7
  dsimp only
  refine (Ideal.matmul_constant_zero_apply dot_S1024x1024_S1024x128_S1024x128_1_0_0_1_n_n none _ _ (ix2 p d)).trans ?_
  rw [← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 p d) ((contrEquiv1 dot_S1024x1024_S1024x128_S1024x128_1_0_0_1_n_n 1024 rfl rfl).symm k) = ix2 p k := funext fun a => Fin.ext (by
    match a with
    | ⟨0, _⟩ => exact lhs7_0 _ _
    | ⟨1, _⟩ => exact (lhs7_1 _ _).trans hk)
  have er : dot_S1024x1024_S1024x128_S1024x128_1_0_0_1_n_n.rhsIdx (ix2 p d) ((contrEquiv1 dot_S1024x1024_S1024x128_S1024x128_1_0_0_1_n_n 1024 rfl rfl).symm k) = ix2 k d := funext fun a => Fin.ext (by
    match a with
    | ⟨0, _⟩ => exact (rhs7_0 _ _).trans hk
    | ⟨1, _⟩ => exact rhs7_1 _ _)
  rw [el, er, truncf_apply, pay5_apply, sel_apply]

/-- ONE STEP of the running denominator at row p. -/
theorem stepL_apply (i : grid1.Coords) (q kn : Vec Ideal S1024x128 .bf16) (kc : Vec Ideal S1x1024x128 .f32) (l : Vec Ideal S1024x1 .f32) (p : Fin 1024) (u : Fin 1) :
    stepL (F := Ideal) i q kn kc l (ix2 p u) = l (ix2 p u) + ∑ r : Fin 1024, wt i q kn kc p r :=
  pay6_apply i kn kc q l p u

/-- ONE STEP of the running numerator at row p, lane d. -/
theorem stepA_apply (i : grid1.Coords) (q kn vn : Vec Ideal S1024x128 .bf16) (kc vc : Vec Ideal S1x1024x128 .f32) (a : Vec Ideal S1024x128 .f32) (p : Fin 1024) (d : Fin 128) :
    stepA (F := Ideal) i q kn vn kc vc a (ix2 p d) = a (ix2 p d) + ∑ r : Fin 1024, wt i q kn kc p r * tile i vn vc r d := by
  unfold stepA k1_pay1
  rw [shapeCast_self]
  exact congrArg (a (ix2 p d) + ·) (pay7_apply i kn kc vn vc q p d)

/-- The quotient of the running sums, read at (row, lane): the denominator's row is broadcast over the lanes. -/
theorem pay2_apply (a : Vec Ideal S1024x128 .f32) (l : Vec Ideal S1024x1 .f32) (p : Fin 1024) (d : Fin 128) :
    k1_pay2 (F := Ideal) a l (ix2 p d) = Ideal.div (a (ix2 p d)) (l (ix2 p (0 : Fin 1))) := by
  unfold k1_pay2
  exact congrArg (Ideal.div (a (ix2 p d))) (broadcastTo_column_apply l broadcasts_S1024x1_S1024x128 p d)

/-- The specification's array at column h·128 + d is head h's lane d. -/
theorem attA_congr (q k v : Cert.Spec.SX.Idx → EReal) (ck cv : Cert.Spec.SC.Idx → EReal) {h h' : Fin 32} {d d' : Fin 128} (p : Fin 1024)
    (e1 : h.val = h'.val) (e2 : d.val = d'.val) : Cert.Spec.attA q k v ck cv h p d = Cert.Spec.attA q k v ck cv h' p d' := by
  obtain rfl := Fin.ext e1
  obtain rfl := Fin.ext e2
  rfl
theorem GA_col (q k v : Cert.Spec.SX.Idx → EReal) (ck cv : Cert.Spec.SC.Idx → EReal) (h : Fin 32) (p : Fin 1024) (d : Fin 128) :
    Cert.Spec.GA q k v ck cv (ix2 p (Cert.Spec.col h d)) = Cert.Spec.attA q k v ck cv h p d := by
  have hd := d.isLt
  unfold Cert.Spec.GA
  exact attA_congr q k v ck cv p (by show (h.val * 128 + d.val) / 128 = h.val; omega) (by show (h.val * 128 + d.val) % 128 = d.val; omega)

/-- The part of a sum over the 4096 cache rows that tile k's 1024 rows contribute. -/
def part (f : Fin 4096 → EReal) (k : ℕ) : EReal :=
  ∑ r : Fin 1024, if h : k * 1024 + r.val < 4096 then f ⟨k * 1024 + r.val, h⟩ else 0

/-- A sum over the 4096 cache rows is the sum of its four tiles' parts. -/
theorem sum_parts (f : Fin 4096 → EReal) : ∑ k ∈ Finset.range 4, part f k = ∑ l : Fin 4096, f l := by
  rw [Finset.sum_range, ← Equiv.sum_comp (finProdFinEquiv : Fin 4 × Fin 1024 ≃ Fin (4 * 1024)) f, Fintype.sum_prod_type]
  refine Finset.sum_congr rfl fun k _ => Finset.sum_congr rfl fun r _ => ?_
  have hb : k.val * 1024 + r.val < 4096 := by have := k.isLt; have := r.isLt; omega
  rw [dif_pos hb]
  exact congrArg f (Fin.ext (by rw [finProdFinEquiv_apply_val]; show k.val * 1024 + r.val = r.val + 1024 * k.val; omega))

theorem part_first (f : Fin 4096 → EReal) (n : ℕ) (h0 : n % 4 = 0) :
    (0 : EReal) + part f (n % 4) = 0 + ∑ k ∈ Finset.range (n % 4 + 1), part f k := by
  rw [h0, Finset.sum_range_one]

theorem part_next (f : Fin 4096 → EReal) (n : ℕ) (h0 : ¬(n + 1) % 4 = 0) :
    ((0 : EReal) + ∑ k ∈ Finset.range (n % 4 + 1), part f k) + part f ((n + 1) % 4) = 0 + ∑ k ∈ Finset.range ((n + 1) % 4 + 1), part f k := by
  have e : n % 4 + 1 = (n + 1) % 4 := by omega
  rw [e, Finset.sum_range_succ, add_assoc]

/-- The zeroed running sums are zero. -/
theorem zeroL_apply (j : S1024x1.Idx) : (k1_pay3 (F := Ideal)) j = 0 := by
  unfold k1_pay3
  rw [shapeCast_self]
  exact Ideal.ofBits_zero_f32
theorem zeroA_apply (j : S1024x128.Idx) : (k1_pay4 (F := Ideal)) j = 0 := by
  unfold k1_pay4
  rw [shapeCast_self]
  exact Ideal.ofBits_zero_f32

section Region

variable (V : (c : Dev nD) → (b : Ref sig .tc) → Buf (Elt Ideal) ((c : Thread nD τ).loc b))

/-- The region's five input arrays at their literal types. -/
abbrev arrQ (c : Dev nD) : Cert.Spec.SX.Idx → EReal := V c main_v1_0
abbrev arrK (c : Dev nD) : Cert.Spec.SX.Idx → EReal := V c main_v1_1
abbrev arrV (c : Dev nD) : Cert.Spec.SX.Idx → EReal := V c main_v1_2
abbrev arrCK (c : Dev nD) : Cert.Spec.SC.Idx → EReal := V c main_arg4
abbrev arrCV (c : Dev nD) : Cert.Spec.SC.Idx → EReal := V c main_arg5

theorem lt128 (t : Fin cfg1.N) : t.val < 128 := lt_of_lt_of_eq t.isLt N_1

/-- The head of a grid point, and the cache row its tile's row r is. -/
def hd (t : Fin cfg1.N) : Fin 32 := ⟨t.val / 4, by have := lt128 t; omega⟩
def crow (t : Fin cfg1.N) (r : Fin 1024) : Fin 4096 := ⟨t.val % 4 * 1024 + r.val, by have := r.isLt; omega⟩

/-- The printed index maps, decided over the grid. -/
theorem idx_facts : ∀ t : Fin cfg1.N,
    win1_0.index t 0 = 0 ∧ win1_0.index t 1 = t.val / 4
    ∧ win1_1.index t 0 = 0 ∧ win1_1.index t 1 = t.val / 4
    ∧ win1_2.index t 0 = 0 ∧ win1_2.index t 1 = t.val / 4
    ∧ win1_3.index t 0 = t.val / 4 ∧ win1_3.index t 1 = (if t.val % 4 = 2 then 1 else t.val % 4) ∧ win1_3.index t 2 = 0
    ∧ win1_4.index t 0 = t.val / 4 ∧ win1_4.index t 1 = (if t.val % 4 = 2 then 1 else t.val % 4) ∧ win1_4.index t 2 = 0
    ∧ win1_5.index t 0 = 0 ∧ win1_5.index t 1 = t.val / 4
    ∧ (grid1.coords t 1).val = t.val % 4 :=
  (by decide +kernel : ∀ t : Fin grid1.N, _)

/-- Head h's queries: the block of window 0 at point t is columns h·128 … of the array. -/
theorem q1_apply (c : Dev nD) (t : Fin cfg1.N) (p : Fin 1024) (d : Fin 128) :
    q1 V c t (ix2 p d) = arrQ V c (ix2 p (Cert.Spec.col (hd t) d)) := by
  obtain ⟨e0, e1, -⟩ := idx_facts t
  unfold q1 iblk1
  rw [View.read_apply]
  show V c main_v1_0 _ = V c main_v1_0 _
  congr 1
  funext a
  apply Fin.ext
  match a with
  | ⟨0, _⟩ => show win1_0.index t 0 * 1024 + 1 * p.val = p.val; rw [e0]; omega
  | ⟨1, _⟩ => show win1_0.index t 1 * 128 + 1 * d.val = t.val / 4 * 128 + d.val; rw [e1]; omega

/-- Head h's new keys and values likewise. -/
theorem kn1_apply (c : Dev nD) (t : Fin cfg1.N) (p : Fin 1024) (d : Fin 128) :
    kn1 V c t (ix2 p d) = arrK V c (ix2 p (Cert.Spec.col (hd t) d)) := by
  obtain ⟨-, -, e0, e1, -⟩ := idx_facts t
  unfold kn1 iblk1
  rw [View.read_apply]
  show V c main_v1_1 _ = V c main_v1_1 _
  congr 1
  funext a
  apply Fin.ext
  match a with
  | ⟨0, _⟩ => show win1_1.index t 0 * 1024 + 1 * p.val = p.val; rw [e0]; omega
  | ⟨1, _⟩ => show win1_1.index t 1 * 128 + 1 * d.val = t.val / 4 * 128 + d.val; rw [e1]; omega

theorem vn1_apply (c : Dev nD) (t : Fin cfg1.N) (p : Fin 1024) (d : Fin 128) :
    vn1 V c t (ix2 p d) = arrV V c (ix2 p (Cert.Spec.col (hd t) d)) := by
  obtain ⟨-, -, -, -, e0, e1, -⟩ := idx_facts t
  unfold vn1 iblk1
  rw [View.read_apply]
  show V c main_v1_2 _ = V c main_v1_2 _
  congr 1
  funext a
  apply Fin.ext
  match a with
  | ⟨0, _⟩ => show win1_2.index t 0 * 1024 + 1 * p.val = p.val; rw [e0]; omega
  | ⟨1, _⟩ => show win1_2.index t 1 * 128 + 1 * d.val = t.val / 4 * 128 + d.val; rw [e1]; omega

/-- Away from tile 2 the cache windows' blocks are tile t % 4 of head h's cache rows. -/
theorem kc1_apply (c : Dev nD) (t : Fin cfg1.N) (h2 : ¬t.val % 4 = 2) (u : Fin 1) (r : Fin 1024) (d : Fin 128) :
    kc1 V c t (ix3 u r d) = arrCK V c (ix3 (hd t) (crow t r) d) := by
  obtain ⟨-, -, -, -, -, -, e0, e1, e2, -⟩ := idx_facts t
  rw [if_neg h2] at e1
  unfold kc1 iblk1
  rw [View.read_apply]
  show V c main_arg4 _ = V c main_arg4 _
  congr 1
  funext a
  apply Fin.ext
  match a with
  | ⟨0, _⟩ => show win1_3.index t 0 * 1 + 1 * u.val = t.val / 4; rw [e0]; omega
  | ⟨1, _⟩ => show win1_3.index t 1 * 1024 + 1 * r.val = t.val % 4 * 1024 + r.val; rw [e1]; omega
  | ⟨2, _⟩ => show win1_3.index t 2 * 128 + 1 * d.val = d.val; rw [e2]; omega

theorem vc1_apply (c : Dev nD) (t : Fin cfg1.N) (h2 : ¬t.val % 4 = 2) (u : Fin 1) (r : Fin 1024) (d : Fin 128) :
    vc1 V c t (ix3 u r d) = arrCV V c (ix3 (hd t) (crow t r) d) := by
  obtain ⟨-, -, -, -, -, -, -, -, -, e0, e1, e2, -⟩ := idx_facts t
  rw [if_neg h2] at e1
  unfold vc1 iblk1
  rw [View.read_apply]
  show V c main_arg5 _ = V c main_arg5 _
  congr 1
  funext a
  apply Fin.ext
  match a with
  | ⟨0, _⟩ => show win1_4.index t 0 * 1 + 1 * u.val = t.val / 4; rw [e0]; omega
  | ⟨1, _⟩ => show win1_4.index t 1 * 1024 + 1 * r.val = t.val % 4 * 1024 + r.val; rw [e1]; omega
  | ⟨2, _⟩ => show win1_4.index t 2 * 128 + 1 * d.val = d.val; rw [e2]; omega

theorem coord1 (t : Fin cfg1.N) : (grid1.coords t 1).val = t.val % 4 := (idx_facts t).2.2.2.2.2.2.2.2.2.2.2.2.2.2

/-- THE TILE of point t is rows t % 4 · 1024 … of head h's keys after the new rows are written. -/
theorem tileK_eq (c : Dev nD) (t : Fin cfg1.N) (r : Fin 1024) (d : Fin 128) :
    tile (grid1.coords t) (kn1 V c t) (kc1 V c t) r d = Cert.Spec.updA (arrCK V c) (arrK V c) (hd t) (crow t r) d := by
  have hl : (crow t r).val = t.val % 4 * 1024 + r.val := rfl
  have hr := r.isLt
  unfold tile Cert.Spec.updA
  rw [coord1 t]
  by_cases h2 : t.val % 4 = 2
  · rw [if_pos h2, dif_pos (by omega), kn1_apply]
    exact congrArg (fun x => arrK V c (ix2 x (Cert.Spec.col (hd t) d))) (Fin.ext (by show r.val = (crow t r).val - 2048; omega))
  · rw [if_neg h2, dif_neg (by omega), kc1_apply V c t h2]

theorem tileV_eq (c : Dev nD) (t : Fin cfg1.N) (r : Fin 1024) (d : Fin 128) :
    tile (grid1.coords t) (vn1 V c t) (vc1 V c t) r d = Cert.Spec.updA (arrCV V c) (arrV V c) (hd t) (crow t r) d := by
  have hl : (crow t r).val = t.val % 4 * 1024 + r.val := rfl
  have hr := r.isLt
  unfold tile Cert.Spec.updA
  rw [coord1 t]
  by_cases h2 : t.val % 4 = 2
  · rw [if_pos h2, dif_pos (by omega), vn1_apply]
    exact congrArg (fun x => arrV V c (ix2 x (Cert.Spec.col (hd t) d))) (Fin.ext (by show r.val = (crow t r).val - 2048; omega))
  · rw [if_neg h2, dif_neg (by omega), vc1_apply V c t h2]

/-- The weight of tile row r at point t is the specification's weight of cache row t % 4 · 1024 + r. -/
theorem wt_eq (c : Dev nD) (t : Fin cfg1.N) (p r : Fin 1024) :
    wt (grid1.coords t) (q1 V c t) (kn1 V c t) (kc1 V c t) p r
      = Cert.Spec.wgtA (arrQ V c) (arrK V c) (arrCK V c) (hd t) p (crow t r) := by
  unfold wt Cert.Spec.wgtA
  refine congrArg Ideal.exp (Finset.sum_congr rfl fun d' _ => ?_)
  rw [q1_apply, tileK_eq]

/-- The specification's weight of cache row x for head h, query row p, and that weight times the value at lane d. -/
abbrev Wf (c : Dev nD) (h : Fin 32) (p : Fin 1024) : Fin 4096 → EReal :=
  fun x => Cert.Spec.wgtA (arrQ V c) (arrK V c) (arrCK V c) h p x
abbrev Nf (c : Dev nD) (h : Fin 32) (p : Fin 1024) (d : Fin 128) : Fin 4096 → EReal :=
  fun x => Cert.Spec.wgtA (arrQ V c) (arrK V c) (arrCK V c) h p x * Cert.Spec.updA (arrCV V c) (arrV V c) h x d

/-- A sum over the rows of point t's tile is tile t % 4's part. -/
theorem tile_part (t : Fin cfg1.N) (f : Fin 4096 → EReal) : ∑ r : Fin 1024, f (crow t r) = part f (t.val % 4) := by
  unfold part
  refine Finset.sum_congr rfl fun r _ => ?_
  have hb : t.val % 4 * 1024 + r.val < 4096 := (crow t r).isLt
  rw [dif_pos hb]
  rfl

/-- ONE POINT's step of the running denominator and numerator, in the specification's terms. -/
theorem den_step (c : Dev nD) (t : Fin cfg1.N) (l : Vec Ideal S1024x1 .f32) (p : Fin 1024) (u : Fin 1) :
    stepL (F := Ideal) (grid1.coords t) (q1 V c t) (kn1 V c t) (kc1 V c t) l (ix2 p u)
      = l (ix2 p u) + part (Wf V c (hd t) p) (t.val % 4) := by
  refine (stepL_apply (grid1.coords t) (q1 V c t) (kn1 V c t) (kc1 V c t) l p u).trans ?_
  rw [← tile_part]
  exact congrArg (l (ix2 p u) + ·) (Finset.sum_congr rfl fun r _ => wt_eq V c t p r)

theorem num_step (c : Dev nD) (t : Fin cfg1.N) (a : Vec Ideal S1024x128 .f32) (p : Fin 1024) (d : Fin 128) :
    stepA (F := Ideal) (grid1.coords t) (q1 V c t) (kn1 V c t) (vn1 V c t) (kc1 V c t) (vc1 V c t) a (ix2 p d)
      = a (ix2 p d) + part (Nf V c (hd t) p d) (t.val % 4) := by
  refine (stepA_apply (grid1.coords t) (q1 V c t) (kn1 V c t) (vn1 V c t) (kc1 V c t) (vc1 V c t) a p d).trans ?_
  rw [← tile_part]
  refine congrArg (a (ix2 p d) + ·) (Finset.sum_congr rfl fun r _ => ?_)
  rw [wt_eq V c t p r, tileV_eq V c t r d]

/-- THE RUNNING SUMS after position n: zero plus the parts of the tiles 0 … n % 4 of the head n / 4. -/
theorem acc_inv (c : Dev nD) : ∀ (n : ℕ) (hn : n < cfg1.N) (p : Fin 1024),
    (∀ u : Fin 1, (acc1 V c n hn).1 (ix2 p u) = 0 + ∑ k ∈ Finset.range (n % 4 + 1), part (Wf V c (hd ⟨n, hn⟩) p) k)
    ∧ (∀ d : Fin 128, (acc1 V c n hn).2 (ix2 p d) = 0 + ∑ k ∈ Finset.range (n % 4 + 1), part (Nf V c (hd ⟨n, hn⟩) p d) k) := by
  intro n
  induction n with
  | zero =>
    intro hn p
    have e : acc1 V c 0 hn = step1 V c ⟨0, hn⟩ zero2 := acc1_first V c ⟨0, hn⟩ rfl
    rw [e]
    constructor
    · intro u
      show stepL (F := Ideal) (grid1.coords ⟨0, hn⟩) (q1 V c ⟨0, hn⟩) (kn1 V c ⟨0, hn⟩) (kc1 V c ⟨0, hn⟩) (k1_pay3 (F := Ideal)) (ix2 p u) = _
      rw [den_step V c ⟨0, hn⟩ (k1_pay3 (F := Ideal)) p u, zeroL_apply]
      exact part_first _ 0 rfl
    · intro d
      show stepA (F := Ideal) (grid1.coords ⟨0, hn⟩) (q1 V c ⟨0, hn⟩) (kn1 V c ⟨0, hn⟩) (vn1 V c ⟨0, hn⟩) (kc1 V c ⟨0, hn⟩) (vc1 V c ⟨0, hn⟩) (k1_pay4 (F := Ideal)) (ix2 p d) = _
      rw [num_step V c ⟨0, hn⟩ (k1_pay4 (F := Ideal)) p d, zeroA_apply]
      exact part_first _ 0 rfl
  | succ n ih =>
    intro hn p
    have hn' : n < cfg1.N := Nat.lt_of_succ_lt hn
    by_cases h0 : (n + 1) % 4 = 0
    · have e : acc1 V c (n + 1) hn = step1 V c ⟨n + 1, hn⟩ zero2 := acc1_first V c ⟨n + 1, hn⟩ h0
      rw [e]
      constructor
      · intro u
        show stepL (F := Ideal) (grid1.coords ⟨n + 1, hn⟩) (q1 V c ⟨n + 1, hn⟩) (kn1 V c ⟨n + 1, hn⟩) (kc1 V c ⟨n + 1, hn⟩) (k1_pay3 (F := Ideal)) (ix2 p u) = _
        rw [den_step V c ⟨n + 1, hn⟩ (k1_pay3 (F := Ideal)) p u, zeroL_apply]
        exact part_first _ (n + 1) h0
      · intro d
        show stepA (F := Ideal) (grid1.coords ⟨n + 1, hn⟩) (q1 V c ⟨n + 1, hn⟩) (kn1 V c ⟨n + 1, hn⟩) (vn1 V c ⟨n + 1, hn⟩) (kc1 V c ⟨n + 1, hn⟩) (vc1 V c ⟨n + 1, hn⟩) (k1_pay4 (F := Ideal)) (ix2 p d) = _
        rw [num_step V c ⟨n + 1, hn⟩ (k1_pay4 (F := Ideal)) p d, zeroA_apply]
        exact part_first _ (n + 1) h0
    · have e : acc1 V c (n + 1) hn = step1 V c ⟨n + 1, hn⟩ (acc1 V c n hn') := acc1_next V c ⟨n + 1, hn⟩ h0
      obtain ⟨ihL, ihA⟩ := ih hn' p
      have hh : hd ⟨n, hn'⟩ = hd ⟨n + 1, hn⟩ := Fin.ext (by show n / 4 = (n + 1) / 4; omega)
      rw [hh] at ihL ihA
      rw [e]
      constructor
      · intro u
        show stepL (F := Ideal) (grid1.coords ⟨n + 1, hn⟩) (q1 V c ⟨n + 1, hn⟩) (kn1 V c ⟨n + 1, hn⟩) (kc1 V c ⟨n + 1, hn⟩) (acc1 V c n hn').1 (ix2 p u) = _
        rw [den_step V c ⟨n + 1, hn⟩ (acc1 V c n hn').1 p u, ihL u]
        exact part_next _ n h0
      · intro d
        show stepA (F := Ideal) (grid1.coords ⟨n + 1, hn⟩) (q1 V c ⟨n + 1, hn⟩) (kn1 V c ⟨n + 1, hn⟩) (vn1 V c ⟨n + 1, hn⟩) (kc1 V c ⟨n + 1, hn⟩) (vc1 V c ⟨n + 1, hn⟩) (acc1 V c n hn').2 (ix2 p d) = _
        rw [num_step V c ⟨n + 1, hn⟩ (acc1 V c n hn').2 p d, ihA d]
        exact part_next _ n h0

/-- After a head's last tile the running sums are the specification's denominator and numerator. -/
theorem acc_last (c : Dev nD) (t : Fin cfg1.N) (h3 : t.val % 4 = 3) (p : Fin 1024) :
    (∀ u : Fin 1, (acc1 V c t.val t.isLt).1 (ix2 p u) = ∑ x : Fin 4096, Wf V c (hd t) p x)
    ∧ (∀ d : Fin 128, (acc1 V c t.val t.isLt).2 (ix2 p d) = ∑ x : Fin 4096, Nf V c (hd t) p d x) := by
  obtain ⟨hL, hA⟩ := acc_inv V c t.val t.isLt p
  constructor
  · intro u
    rw [hL u, h3, zero_add]
    exact sum_parts _
  · intro d
    rw [hA d, h3, zero_add]
    exact sum_parts _

/-- WHAT A HEAD'S LAST POINT WRITES BACK is its block of the specification's array. -/
theorem flushed_eq (c : Dev nD) (t : Fin cfg1.N) (hf : (cfg1.win 5).flush t = true) :
    (dat1 V c).flushed 5 t = ((cfg1.win 5).blk t).view.read (Elt Ideal)
      (Cert.Spec.GA (arrQ V c) (arrK V c) (arrV V c) (arrCK V c) (arrCV V c)) := by
  have h3 : t.val % 4 = 3 := (flush1_5 t).mp hf
  obtain ⟨-, -, -, -, -, -, -, -, -, -, -, -, e0, e1, -⟩ := idx_facts t
  show (cfg1.win 5).cut (cfg1.grid.coords t) ((dat1 V c).after 5 t) = _
  rw [after1_5]
  funext y
  have hy0 : (y 0).val < 1024 := (y 0).isLt
  have hy1 : (y 1).val < 128 := (y 1).isLt
  rw [View.read_apply]
  have ei : ((cfg1.win 5).blk t).view.emb y = ix2 (⟨(y 0).val, hy0⟩ : Fin 1024) (Cert.Spec.col (hd t) ⟨(y 1).val, hy1⟩) := funext fun a => Fin.ext (by
    match a with
    | ⟨0, _⟩ => show win1_5.index t 0 * 1024 + 1 * (y 0).val = (y 0).val; rw [e0]; omega
    | ⟨1, _⟩ => show win1_5.index t 1 * 128 + 1 * (y 1).val = t.val / 4 * 128 + (y 1).val; rw [e1]; omega)
  have ex : (cfg1.win 5).xinj (cfg1.grid.coords t) y = ix2 (⟨(y 0).val, hy0⟩ : Fin 1024) (⟨(y 1).val, hy1⟩ : Fin 128) := funext fun a => Fin.ext (by
    match a with
    | ⟨0, _⟩ => rfl
    | ⟨1, _⟩ => rfl)
  rw [ei]
  show k1_pay2 (F := Ideal) (acc1 V c t.val t.isLt).2 (acc1 V c t.val t.isLt).1 ((cfg1.win 5).xinj (cfg1.grid.coords t) y)
    = Cert.Spec.GA (arrQ V c) (arrK V c) (arrV V c) (arrCK V c) (arrCV V c) (ix2 (⟨(y 0).val, hy0⟩ : Fin 1024) (Cert.Spec.col (hd t) ⟨(y 1).val, hy1⟩))
  obtain ⟨hL, hA⟩ := acc_last V c t h3 ⟨(y 0).val, hy0⟩
  rw [ex, GA_col, pay2_apply, hL, hA]
  rfl

/-- Every index of the output array lies in the block a head's last point writes back. -/
theorem cover (i : Cert.Spec.SX.Idx) : ∃ t : Fin cfg1.N, (cfg1.win 5).flush t = true ∧ i ∈ ((cfg1.win 5).blk t).view.set := by
  have h0 : (i 0).val < 1024 := (i 0).isLt
  have h1 : (i 1).val < 4096 := (i 1).isLt
  have hb : 4 * ((i 1).val / 128) + 3 < cfg1.N := by rw [show cfg1.N = 128 from N_1]; omega
  refine ⟨⟨4 * ((i 1).val / 128) + 3, hb⟩, (flush1_5 _).mpr (by show (4 * ((i 1).val / 128) + 3) % 4 = 3; omega), ?_⟩
  obtain ⟨-, -, -, -, -, -, -, -, -, -, -, -, e0, e1, -⟩ := idx_facts ⟨4 * ((i 1).val / 128) + 3, hb⟩
  have e1' : win1_5.index ⟨4 * ((i 1).val / 128) + 3, hb⟩ 1 = (i 1).val / 128 := by rw [e1]; show (4 * ((i 1).val / 128) + 3) / 4 = _; omega
  show i ∈ ((View.whole main_v2).slice (win1_5.rect ⟨4 * ((i 1).val / 128) + 3, hb⟩)).set
  rw [View.set_slice_whole, Rect.mem_set_unit]
  intro a
  match a with
  | ⟨0, _⟩ =>
    show win1_5.index ⟨4 * ((i 1).val / 128) + 3, hb⟩ 0 * 1024 ≤ (i 0).val ∧ (i 0).val < win1_5.index ⟨4 * ((i 1).val / 128) + 3, hb⟩ 0 * 1024 + 1024
    rw [e0]; omega
  | ⟨1, _⟩ =>
    show win1_5.index ⟨4 * ((i 1).val / 128) + 3, hb⟩ 1 * 128 ≤ (i 1).val ∧ (i 1).val < win1_5.index ⟨4 * ((i 1).val / 128) + 3, hb⟩ 1 * 128 + 128
    rw [e1']; omega

/-- THE OUTPUT ARRAY after the region is the specification's attention of the arrays the region finds. -/
theorem final1_5 (c : Dev nD) : (dat1 (F := Ideal) V c).arrAt 5 cfg1.N
    = Cert.Spec.GA (V c main_v1_0) (V c main_v1_1) (V c main_v1_2) (V c main_arg4) (V c main_arg5) :=
  (dat1 V c).arrAt_eq_of_cover 5 (Cert.Spec.GA (arrQ V c) (arrK V c) (arrV V c) (arrCK V c) (arrCV V c))
    (fun t hf => flushed_eq V c t hf) cover

end Region

end Cert.KernelIdeal.Val1

end
-- ==== Proof.RefJoin.lean ====
/-
  The reference's run ends with its result at the last stage of the stage-by-stage reading: the run's composed term
  and the stages are one term.
-/
import proofs.«404418_j31731218382918_3_alg».proof.Proof.RefRunP
import proofs.«404418_j31731218382918_3_alg».proof.Proof.RefReadP

noncomputable section

namespace Cert.RefJoin

open Cert.ReferenceIdeal Cert.ReferenceIdeal.Gen Idealize.ShloMosaic Idealize.ShloMosaic.TcCoe Idealize.SL.Sem Idealize.ShloMosaic.StableHlo

variable {F : FTy → Type} [FloatOps F]

/-- The term the run names is the last stage, at the launch contents of the six arguments. -/
theorem res_eq_val (m : (ℓ : Loc nD τ sig) → Buf (Elt F) ℓ) (c : Dev nD) :
    Cert.ReferenceIdeal.ValueP.res_main_v21 m c = Cert.ReferenceIdeal.ReadP.val_main_v21 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.ValueP.res_main_v21; rfl

end Cert.RefJoin

end
-- ==== Proof.RefValue.lean ====
/-
  The reference program's result at real inputs is the specification's function.

  The reference multiplies the input by the three weight matrices joined along their columns, cuts the product into the
  query, key and value projections (columns 0 …, 4096 …, 8192 …), regroups each by head (head h, row m, lane d is
  column h·128 + d of row m), writes the new keys and values into the caches at rows 2048 … 3071, takes the scores
  Σ_d q·Kc, their exponentials e, the normalised weights e / Σ_l e, and the sums Σ_l (e_l / Σ e)·Vc. The specification
  takes the quotient once: (Σ_l e_l·Vc_l) / (Σ_l e_l). Every number on the way is a real: the inputs by hypothesis,
  the projections, the caches' rows and the scores as finite sums of products of reals, the exponentials as positive
  reals; so the sum S of the exponentials is a positive real, dividing by S is multiplying by the real 1 / S, and in ℝ
  the factor 1 / S comes out of the sum over the cache rows.
-/
import proofs.«404418_j31731218382918_3_alg».proof.Proof.RefReadP
import proofs.«404418_j31731218382918_3_alg».proof.Proof.Spec
import Idealize.ShloMosaic.Lib.ValueIdx
import Idealize.ShloMosaic.Lib.Pipeline.Value
import Idealize.ShloMosaic.PureOps.Ideal.Laws
import Mathlib.Algebra.BigOperators.Fin
import Mathlib.Algebra.BigOperators.Ring.Finset
import Mathlib.Algebra.Order.BigOperators.Group.Finset
import Mathlib.Analysis.Complex.Exponential
import Mathlib.Data.EReal.Basic

noncomputable section

namespace Cert.RefValue

open Cert.ReferenceIdeal Cert.ReferenceIdeal.Gen Cert.ReferenceIdeal.ReadP Cert.Spec
open Idealize.ShloMosaic Idealize.ShloMosaic.ValueIdx

/-! ## The joined weights at an index -/

/-- Columns 0 … 4095 of the joined weight matrix are the query weights. -/
theorem cat_q (x1 x2 x3 : SW.Idx → EReal) (k j : Fin 4096) :
    val_main_v0 (F := Ideal) x1 x2 x3 (ix2 k (⟨j.val, by omega⟩ : Fin 12288)) = x1 (ix2 k j) := by
  unfold val_main_v0
  refine concatenate_apply_piece (t := S4096x12288) 1 [⟨S4096x4096, x1⟩, ⟨S4096x4096, x2⟩, ⟨S4096x4096, x3⟩] _ _ 0 (Nat.zero_lt_succ _)
    S4096x4096 x1 rfl rfl 0 rfl (ix2 k j) ?_ ?_
  · intro b hb
    match b with
    | ⟨0, _⟩ => rfl
    | ⟨1, _⟩ => exact absurd rfl hb
  · show 0 + j.val = j.val
    omega

/-- Columns 4096 … 8191 are the key weights. -/
theorem cat_k (x1 x2 x3 : SW.Idx → EReal) (k j : Fin 4096) :
    val_main_v0 (F := Ideal) x1 x2 x3 (ix2 k (⟨4096 + j.val, by omega⟩ : Fin 12288)) = x2 (ix2 k j) := by
  unfold val_main_v0
  refine concatenate_apply_piece (t := S4096x12288) 1 [⟨S4096x4096, x1⟩, ⟨S4096x4096, x2⟩, ⟨S4096x4096, x3⟩] _ _ 1 (Nat.succ_lt_succ (Nat.zero_lt_succ _))
    S4096x4096 x2 rfl rfl 4096 rfl (ix2 k j) ?_ ?_
  · intro b hb
    match b with
    | ⟨0, _⟩ => rfl
    | ⟨1, _⟩ => exact absurd rfl hb
  · show 4096 + j.val = 4096 + j.val
    rfl

/-- Columns 8192 … 12287 are the value weights. -/
theorem cat_v (x1 x2 x3 : SW.Idx → EReal) (k j : Fin 4096) :
    val_main_v0 (F := Ideal) x1 x2 x3 (ix2 k (⟨8192 + j.val, by omega⟩ : Fin 12288)) = x3 (ix2 k j) := by
  unfold val_main_v0
  refine concatenate_apply_piece (t := S4096x12288) 1 [⟨S4096x4096, x1⟩, ⟨S4096x4096, x2⟩, ⟨S4096x4096, x3⟩] _ _ 2 (Nat.succ_lt_succ (Nat.succ_lt_succ (Nat.zero_lt_succ _)))
    S4096x4096 x3 rfl rfl 8192 rfl (ix2 k j) ?_ ?_
  · intro b hb
    match b with
    | ⟨0, _⟩ => rfl
    | ⟨1, _⟩ => exact absurd rfl hb
  · show 8192 + j.val = 8192 + j.val
    rfl

/-! ## The three projections -/

/-- The joined product at row m, column j of the first block: the query projection. -/
theorem v1_q (x0 : SX.Idx → EReal) (x1 x2 x3 : SW.Idx → EReal) (m : Fin 1024) (j : Fin 4096) :
    val_main_v1 (F := Ideal) x0 x1 x2 x3 (ix2 m (⟨j.val, by omega⟩ : Fin 12288)) = proj x0 x1 m j := by
  rw [val_main_v1_apply]
  unfold proj
  refine Finset.sum_congr rfl fun k _ => ?_
  have el : lidx_main_v1 (ix2 m (⟨j.val, by omega⟩ : Fin 12288)) k = ix2 m k :=
    funext fun a => by match a with | ⟨0, _⟩ => rfl | ⟨1, _⟩ => rfl
  have er : ridx_main_v1 (ix2 m (⟨j.val, by omega⟩ : Fin 12288)) k = ix2 k (⟨j.val, by omega⟩ : Fin 12288) :=
    funext fun a => by match a with | ⟨0, _⟩ => rfl | ⟨1, _⟩ => rfl
  rw [el, er, cat_q]

/-- The same in the second block of columns: the key projection. -/
theorem v1_k (x0 : SX.Idx → EReal) (x1 x2 x3 : SW.Idx → EReal) (m : Fin 1024) (j : Fin 4096) :
    val_main_v1 (F := Ideal) x0 x1 x2 x3 (ix2 m (⟨4096 + j.val, by omega⟩ : Fin 12288)) = proj x0 x2 m j := by
  rw [val_main_v1_apply]
  unfold proj
  refine Finset.sum_congr rfl fun k _ => ?_
  have el : lidx_main_v1 (ix2 m (⟨4096 + j.val, by omega⟩ : Fin 12288)) k = ix2 m k :=
    funext fun a => by match a with | ⟨0, _⟩ => rfl | ⟨1, _⟩ => rfl
  have er : ridx_main_v1 (ix2 m (⟨4096 + j.val, by omega⟩ : Fin 12288)) k = ix2 k (⟨4096 + j.val, by omega⟩ : Fin 12288) :=
    funext fun a => by match a with | ⟨0, _⟩ => rfl | ⟨1, _⟩ => rfl
  rw [el, er, cat_k]

/-- The same in the third block of columns: the value projection. -/
theorem v1_v (x0 : SX.Idx → EReal) (x1 x2 x3 : SW.Idx → EReal) (m : Fin 1024) (j : Fin 4096) :
    val_main_v1 (F := Ideal) x0 x1 x2 x3 (ix2 m (⟨8192 + j.val, by omega⟩ : Fin 12288)) = proj x0 x3 m j := by
  rw [val_main_v1_apply]
  unfold proj
  refine Finset.sum_congr rfl fun k _ => ?_
  have el : lidx_main_v1 (ix2 m (⟨8192 + j.val, by omega⟩ : Fin 12288)) k = ix2 m k :=
    funext fun a => by match a with | ⟨0, _⟩ => rfl | ⟨1, _⟩ => rfl
  have er : ridx_main_v1 (ix2 m (⟨8192 + j.val, by omega⟩ : Fin 12288)) k = ix2 k (⟨8192 + j.val, by omega⟩ : Fin 12288) :=
    funext fun a => by match a with | ⟨0, _⟩ => rfl | ⟨1, _⟩ => rfl
  rw [el, er, cat_v]

/-- Row m, head h, lane d of the split array is row m, column h·128 + d of the flat one. -/
theorem split_idx (m : Fin 1024) (h : Fin 32) (d : Fin 128) :
    idx_main_v5 (ix3 m h d) = ix2 m (col h d) := by
  have hm := m.isLt; have hh := h.isLt; have hd := d.isLt
  funext a
  match a with
  | ⟨0, _⟩ => exact Fin.ext (by show ((m.val * 32 + h.val) * 128 + d.val) / 4096 = m.val; omega)
  | ⟨1, _⟩ => exact Fin.ext (by show ((m.val * 32 + h.val) * 128 + d.val) % 4096 = h.val * 128 + d.val; omega)

/-- The queries by head: head h, row m, lane d is the query projection at row m, column h·128 + d. -/
theorem q_at (x0 : SX.Idx → EReal) (x1 x2 x3 : SW.Idx → EReal) (h : Fin 32) (m : Fin 1024) (d : Fin 128) :
    val_main_v6 (F := Ideal) x0 x1 x2 x3 (ix3 h m d) = proj x0 x1 m (col h d) := by
  have e6 : idx_main_v6 (ix3 h m d) = ix3 m h d := funext fun a => by match a with | ⟨0, _⟩ => rfl | ⟨1, _⟩ => rfl | ⟨2, _⟩ => rfl
  have e2 : idx_main_v2 (ix2 m (col h d)) = ix2 m (⟨(col h d).val, by omega⟩ : Fin 12288) :=
    funext fun a => by match a with | ⟨0, _⟩ => rfl | ⟨1, _⟩ => rfl
  rw [val_main_v6_apply, e6, val_main_v5_apply, split_idx, val_main_v2_apply, e2, v1_q]

/-- The keys by head. -/
theorem k_at (x0 : SX.Idx → EReal) (x1 x2 x3 : SW.Idx → EReal) (h : Fin 32) (m : Fin 1024) (d : Fin 128) :
    val_main_v8 (F := Ideal) x0 x1 x2 x3 (ix3 h m d) = proj x0 x2 m (col h d) := by
  have e8 : idx_main_v8 (ix3 h m d) = ix3 m h d := funext fun a => by match a with | ⟨0, _⟩ => rfl | ⟨1, _⟩ => rfl | ⟨2, _⟩ => rfl
  have e3 : idx_main_v3 (ix2 m (col h d)) = ix2 m (⟨4096 + (col h d).val, by omega⟩ : Fin 12288) :=
    funext fun a => by match a with | ⟨0, _⟩ => rfl | ⟨1, _⟩ => rfl
  rw [val_main_v8_apply, e8, val_main_v7_apply, show idx_main_v7 (ix3 m h d) = ix2 m (col h d) from split_idx m h d,
    val_main_v3_apply, e3, v1_k]

/-- The values by head. -/
theorem v_at (x0 : SX.Idx → EReal) (x1 x2 x3 : SW.Idx → EReal) (h : Fin 32) (m : Fin 1024) (d : Fin 128) :
    val_main_v10 (F := Ideal) x0 x1 x2 x3 (ix3 h m d) = proj x0 x3 m (col h d) := by
  have e10 : idx_main_v10 (ix3 h m d) = ix3 m h d := funext fun a => by match a with | ⟨0, _⟩ => rfl | ⟨1, _⟩ => rfl | ⟨2, _⟩ => rfl
  have e4 : idx_main_v4 (ix2 m (col h d)) = ix2 m (⟨8192 + (col h d).val, by omega⟩ : Fin 12288) :=
    funext fun a => by match a with | ⟨0, _⟩ => rfl | ⟨1, _⟩ => rfl
  rw [val_main_v10_apply, e10, val_main_v9_apply, show idx_main_v9 (ix3 m h d) = ix2 m (col h d) from split_idx m h d,
    val_main_v4_apply, e4, v1_v]

/-! ## The caches after the new rows are written -/

/-- An array of the caches' shape with a block of 1024 rows written at the starts (0, 2048, 0): rows 2048 … 3071 are the
    block's, every other row is the array's own. -/
theorem dus_at (x : SC.Idx → EReal) (u : S32x1024x128.Idx → EReal) (start : Fin 3 → Int)
    (hs0 : start 0 = 0) (hs1 : start 1 = 2048) (hs2 : start 2 = 0) (h : Fin 32) (l : Fin 4096) (d : Fin 128) :
    Host.dynamicUpdateSlice (s := S32x4096x128) x u start updateFits_S32x4096x128_S32x1024x128 (ix3 h l d)
      = if hl : 2048 ≤ l.val ∧ l.val < 3072 then u (ix3 h (⟨l.val - 2048, by omega⟩ : Fin 1024) d) else x (ix3 h l d) := by
  have hfit : S32x4096x128.Slices (![0, 2048, 0] : Fin 3 → Nat) S32x1024x128 := by decide
  rw [Host.dynamicUpdateSlice_eq_updateSlice x u start updateFits_S32x4096x128_S32x1024x128 ![0, 2048, 0]
    (fun a => by
      match a with
      | ⟨0, _⟩ => show (min (max (start 0) 0) ((32 - 32 : Nat) : Int)).toNat = 0; rw [hs0]; rfl
      | ⟨1, _⟩ => show (min (max (start 1) 0) ((4096 - 1024 : Nat) : Int)).toNat = 2048; rw [hs1]; rfl
      | ⟨2, _⟩ => show (min (max (start 2) 0) ((128 - 128 : Nat) : Int)).toNat = 0; rw [hs2]; rfl) hfit]
  unfold updateSlice
  by_cases hl : 2048 ≤ l.val ∧ l.val < 3072
  · rw [dif_pos hl, dif_pos (fun a => by
      match a with
      | ⟨0, _⟩ => exact ⟨Nat.zero_le _, by show h.val < 0 + 32; have := h.isLt; omega⟩
      | ⟨1, _⟩ => exact ⟨hl.1, by show l.val < 2048 + 1024; omega⟩
      | ⟨2, _⟩ => exact ⟨Nat.zero_le _, by show d.val < 0 + 128; have := d.isLt; omega⟩)]
    congr 1
    funext b
    match b with
    | ⟨0, _⟩ => rfl
    | ⟨1, _⟩ => rfl
    | ⟨2, _⟩ => rfl
  · rw [dif_neg hl, dif_neg (fun hin => hl (by
      have h1 := hin 1
      exact ⟨h1.1, by have := h1.2; show l.val < 3072; exact this⟩))]

/-- The key cache with the new keys: the specification's updated cache. -/
theorem kc_at (x0 : SX.Idx → EReal) (x1 x2 x3 : SW.Idx → EReal) (x4 : SC.Idx → EReal) (h : Fin 32) (l : Fin 4096) (d : Fin 128) :
    val_main_v11 (F := Ideal) x0 x1 x2 x3 x4 (ix3 h l d) = upd x4 (proj x0 x2) h l d := by
  unfold val_main_v11
  rw [dus_at x4 _ _ (by decide) (by decide) (by decide) h l d]
  unfold upd
  by_cases hl : 2048 ≤ l.val ∧ l.val < 3072
  · rw [dif_pos hl, dif_pos hl, k_at]
  · rw [dif_neg hl, dif_neg hl]

/-- The value cache with the new values. -/
theorem vc_at (x0 : SX.Idx → EReal) (x1 x2 x3 : SW.Idx → EReal) (x5 : SC.Idx → EReal) (h : Fin 32) (l : Fin 4096) (d : Fin 128) :
    val_main_v12 (F := Ideal) x0 x1 x2 x3 x5 (ix3 h l d) = upd x5 (proj x0 x3) h l d := by
  unfold val_main_v12
  rw [dus_at x5 _ _ (by decide) (by decide) (by decide) h l d]
  unfold upd
  by_cases hl : 2048 ≤ l.val ∧ l.val < 3072
  · rw [dif_pos hl, dif_pos hl, v_at]
  · rw [dif_neg hl, dif_neg hl]

/-! ## Scores, weights and their sum -/

/-- The score of query row m against cache row l in head h. -/
theorem score_at (x0 : SX.Idx → EReal) (x1 x2 x3 : SW.Idx → EReal) (x4 : SC.Idx → EReal) (h : Fin 32) (m : Fin 1024) (l : Fin 4096) :
    val_main_v13 (F := Ideal) x0 x1 x2 x3 x4 (ix3 h m l) = score x0 x1 x2 x4 h m l := by
  rw [val_main_v13_apply]
  unfold score
  refine Finset.sum_congr rfl fun k _ => ?_
  have el : lidx_main_v13 (ix3 h m l) k = ix3 h m k := funext fun a => by match a with | ⟨0, _⟩ => rfl | ⟨1, _⟩ => rfl | ⟨2, _⟩ => rfl
  have er : ridx_main_v13 (ix3 h m l) k = ix3 h l k := funext fun a => by match a with | ⟨0, _⟩ => rfl | ⟨1, _⟩ => rfl | ⟨2, _⟩ => rfl
  rw [el, er, q_at, kc_at]

/-- The weight: the exponential of the score. -/
theorem wgt_at (x0 : SX.Idx → EReal) (x1 x2 x3 : SW.Idx → EReal) (x4 : SC.Idx → EReal) (h : Fin 32) (m : Fin 1024) (l : Fin 4096) :
    val_main_v14 (F := Ideal) x0 x1 x2 x3 x4 (ix3 h m l) = wgt x0 x1 x2 x4 h m l := by
  rw [val_main_v14_apply, score_at, Ideal.hostUnary_exp_def]
  rfl

/-- The sum of the weights over the 4096 cache rows (the sum's initial value is zero). -/
theorem den_at (x0 : SX.Idx → EReal) (x1 x2 x3 : SW.Idx → EReal) (x4 : SC.Idx → EReal) (h : Fin 32) (m : Fin 1024) :
    val_main_v15 (F := Ideal) x0 x1 x2 x3 x4 (ix2 h m) = den x0 x1 x2 x4 h m := by
  rw [val_main_v15_apply, val_main_cst_apply]
  unfold den
  have hz : (FloatOps.ofBits .f32 0x00000000#32 : Ideal .f32) = 0 := Ideal.ofBits_zero_f32
  rw [hz, zero_add]
  refine Finset.sum_congr rfl fun k _ => ?_
  have e : idx_main_v15 (ix2 h m) k = ix3 h m k := funext fun a => by match a with | ⟨0, _⟩ => rfl | ⟨1, _⟩ => rfl | ⟨2, _⟩ => rfl
  rw [e, wgt_at]

/-- The sum broadcast back along the cache rows. -/
theorem den_bcast_at (x0 : SX.Idx → EReal) (x1 x2 x3 : SW.Idx → EReal) (x4 : SC.Idx → EReal) (h : Fin 32) (m : Fin 1024) (l : Fin 4096) :
    val_main_v17 (F := Ideal) x0 x1 x2 x3 x4 (ix3 h m l) = den x0 x1 x2 x4 h m := by
  have e17 : idx_main_v17 (ix3 h m l) = ix3 h m (⟨0, Nat.one_pos⟩ : Fin 1) :=
    funext fun a => by match a with | ⟨0, _⟩ => rfl | ⟨1, _⟩ => rfl | ⟨2, _⟩ => rfl
  have e16 : idx_main_v16 (ix3 h m (⟨0, Nat.one_pos⟩ : Fin 1)) = ix2 h m :=
    funext fun a => by match a with | ⟨0, _⟩ => rfl | ⟨1, _⟩ => rfl
  rw [val_main_v17_apply, e17, val_main_v16_apply, e16, den_at]

/-- The normalised weight: the weight divided by the sum. -/
theorem nwgt_at (x0 : SX.Idx → EReal) (x1 x2 x3 : SW.Idx → EReal) (x4 : SC.Idx → EReal) (h : Fin 32) (m : Fin 1024) (l : Fin 4096) :
    val_main_v18 (F := Ideal) x0 x1 x2 x3 x4 (ix3 h m l) = Ideal.div (wgt x0 x1 x2 x4 h m l) (den x0 x1 x2 x4 h m) := by
  rw [val_main_v18_apply, wgt_at, den_bcast_at, Ideal.hostDivf_def]

/-- The reference's result by head: the sum over the cache rows of normalised weight times value. -/
theorem out_at (x0 : SX.Idx → EReal) (x1 x2 x3 : SW.Idx → EReal) (x4 x5 : SC.Idx → EReal) (h : Fin 32) (m : Fin 1024) (d : Fin 128) :
    val_main_v19 (F := Ideal) x0 x1 x2 x3 x4 x5 (ix3 h m d)
      = ∑ l : Fin 4096, Ideal.div (wgt x0 x1 x2 x4 h m l) (den x0 x1 x2 x4 h m) * upd x5 (proj x0 x3) h l d := by
  rw [val_main_v19_apply]
  refine Finset.sum_congr rfl fun k _ => ?_
  have el : lidx_main_v19 (ix3 h m d) k = ix3 h m k := funext fun a => by match a with | ⟨0, _⟩ => rfl | ⟨1, _⟩ => rfl | ⟨2, _⟩ => rfl
  have er : ridx_main_v19 (ix3 h m d) k = ix3 h k d := funext fun a => by match a with | ⟨0, _⟩ => rfl | ⟨1, _⟩ => rfl | ⟨2, _⟩ => rfl
  rw [el, er, nwgt_at, vc_at]

/-! ## Every number involved is a real -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is a real number. -/
def IsReal (x : EReal) : Prop := ∃ r : ℝ, x = (r : EReal)

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.sum {ι : Type*} (s : Finset ι) (f : ι → EReal) (hf : ∀ i, IsReal (f i)) : IsReal (∑ i ∈ s, f i) := by
  choose r hr using hf
  exact ⟨∑ i ∈ s, r i, by rw [coe_sum]; exact Finset.sum_congr rfl fun i _ => hr i⟩

/-- A projection of real inputs by real weights is real. -/
theorem proj_real (x : SX.Idx → EReal) (w : SW.Idx → EReal) (hx : ∀ i, IsReal (x i)) (hw : ∀ i, IsReal (w i))
    (m : Fin 1024) (j : Fin 4096) : IsReal (proj x w m j) :=
  IsReal.sum _ _ fun k => (hx _).mul (hw _)

/-- A real cache with real rows written into it is real. -/
theorem upd_real (c : SC.Idx → EReal) (p : Fin 1024 → Fin 4096 → EReal) (hc : ∀ i, IsReal (c i)) (hp : ∀ m j, IsReal (p m j))
    (h : Fin 32) (l : Fin 4096) (d : Fin 128) : IsReal (upd c p h l d) := by
  unfold upd
  split
  · exact hp _ _
  · exact hc _

/-- A score of real data is real. -/
theorem score_real (x : SX.Idx → EReal) (wq wk : SW.Idx → EReal) (ck : SC.Idx → EReal)
    (hx : ∀ i, IsReal (x i)) (hq : ∀ i, IsReal (wq i)) (hk : ∀ i, IsReal (wk i)) (hc : ∀ i, IsReal (ck i))
    (h : Fin 32) (m : Fin 1024) (l : Fin 4096) : IsReal (score x wq wk ck h m l) :=
  IsReal.sum _ _ fun d => (proj_real x wq hx hq m _).mul (upd_real ck _ hc (fun m j => proj_real x wk hx hk m j) h l d)

/-- A weight of real data is a positive real. -/
theorem wgt_pos (x : SX.Idx → EReal) (wq wk : SW.Idx → EReal) (ck : SC.Idx → EReal)
    (hx : ∀ i, IsReal (x i)) (hq : ∀ i, IsReal (wq i)) (hk : ∀ i, IsReal (wk i)) (hc : ∀ i, IsReal (ck i))
    (h : Fin 32) (m : Fin 1024) (l : Fin 4096) : ∃ r : ℝ, 0 < r ∧ wgt x wq wk ck h m l = (r : EReal) := by
  obtain ⟨s, hs⟩ := score_real x wq wk ck hx hq hk hc h m l
  exact ⟨Real.exp s, Real.exp_pos s, by unfold wgt; rw [hs]; rfl⟩

/-! ## One quotient after the sums -/

/-- With positive real weights w and real values v: Σ (w / Σ w) · v = (Σ w · v) / Σ w. The sum of the weights is a positive
    real S, so dividing by it is multiplying by the real 1 / S, and in ℝ the factor 1 / S comes out of the sum. -/
theorem sum_div_eq {ι : Type*} [Fintype ι] [Nonempty ι] (w v : ι → EReal)
    (hw : ∀ l, ∃ r : ℝ, 0 < r ∧ w l = (r : EReal)) (hv : ∀ l, IsReal (v l)) :
    ∑ l, Ideal.div (w l) (∑ l', w l') * v l = Ideal.div (∑ l, w l * v l) (∑ l, w l) := by
  choose a ha0 ha using hw
  choose b hb using hv
  have hS : ∑ l, w l = ((∑ l, a l : ℝ) : EReal) := by
    rw [coe_sum]; exact Finset.sum_congr rfl fun l _ => ha l
  have hpos : 0 < ∑ l, a l := Finset.sum_pos (fun l _ => ha0 l) Finset.univ_nonempty
  have hN : ∑ l, w l * v l = ((∑ l, a l * b l : ℝ) : EReal) := by
    rw [coe_sum]; exact Finset.sum_congr rfl fun l _ => by rw [ha l, hb l, EReal.coe_mul]
  have hL : ∀ l, Ideal.div (w l) (∑ l', w l') * v l = ((a l * b l * (1 / ∑ l', a l') : ℝ) : EReal) := fun l => by
    rw [hS, Ideal.div_coe hpos.ne', ha l, hb l, ← EReal.coe_mul, ← EReal.coe_mul, mul_right_comm]
  have hR : Ideal.div (∑ l, w l * v l) (∑ l, w l) = (((∑ l, a l * b l) * (1 / ∑ l', a l') : ℝ) : EReal) := by
    rw [hS, hN, Ideal.div_coe hpos.ne', ← EReal.coe_mul]
  rw [hR, Finset.sum_mul, coe_sum]
  exact Finset.sum_congr rfl fun l _ => hL l

/-! ## The reference's result is the specification -/

/-- The reference's result at row m, column h·128 + d. -/
theorem v21_at (x0 : SX.Idx → EReal) (x1 x2 x3 : SW.Idx → EReal) (x4 x5 : SC.Idx → EReal)
    (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (h : Fin 32) (m : Fin 1024) (d : Fin 128) :
    val_main_v21 (F := Ideal) x0 x1 x2 x3 x4 x5 (ix2 m (col h d)) = att x0 x1 x2 x3 x4 x5 h m d := by
  have hm := m.isLt; have hh := h.isLt; have hd := d.isLt
  have e21 : idx_main_v21 (ix2 m (col h d)) = ix3 m h d := funext fun a => by
    match a with
    | ⟨0, _⟩ => exact Fin.ext (by show (m.val * 4096 + (h.val * 128 + d.val)) / 4096 = m.val; omega)
    | ⟨1, _⟩ => exact Fin.ext (by show (m.val * 4096 + (h.val * 128 + d.val)) / 128 % 32 = h.val; omega)
    | ⟨2, _⟩ => exact Fin.ext (by show (m.val * 4096 + (h.val * 128 + d.val)) % 128 = d.val; omega)
  have e20 : idx_main_v20 (ix3 m h d) = ix3 h m d := funext fun a => by match a with | ⟨0, _⟩ => rfl | ⟨1, _⟩ => rfl | ⟨2, _⟩ => rfl
  rw [val_main_v21_apply, e21, val_main_v20_apply, e20, out_at]
  unfold att num den
  exact sum_div_eq (fun l => wgt x0 x1 x2 x4 h m l) (fun l => upd x5 (proj x0 x3) h l d)
    (fun l => wgt_pos x0 x1 x2 x4 h0 h1 h2 h4 h m l)
    (fun l => upd_real x5 _ h5 (fun m j => proj_real x0 x3 h0 h3 m j) h l d)

/-- The reference program's result, at real inputs, is the specification. -/
theorem ref_eq_G (x0 : Cert.Spec.SX.Idx → EReal) (x1 x2 x3 : Cert.Spec.SW.Idx → EReal) (x4 x5 : Cert.Spec.SC.Idx → EReal)
    (h0 : ∀ i, ∃ r : ℝ, x0 i = (r : EReal)) (h1 : ∀ i, ∃ r : ℝ, x1 i = (r : EReal)) (h2 : ∀ i, ∃ r : ℝ, x2 i = (r : EReal)) (h3 : ∀ i, ∃ r : ℝ, x3 i = (r : EReal))
    (h4 : ∀ i, ∃ r : ℝ, x4 i = (r : EReal)) (h5 : ∀ i, ∃ r : ℝ, x5 i = (r : EReal)) :
    Cert.ReferenceIdeal.ReadP.val_main_v21 (F := Ideal) x0 x1 x2 x3 x4 x5 = Cert.Spec.G x0 x1 x2 x3 x4 x5 := by
  funext i
  obtain ⟨m, j, rfl⟩ : ∃ (m : Fin 1024) (j : Fin 4096), i = ix2 m j := ⟨i 0, i 1, eq_ix2 i⟩
  have hj : j = col ⟨j.val / 128, by have := j.isLt; omega⟩ ⟨j.val % 128, Nat.mod_lt _ (by decide)⟩ :=
    Fin.ext (by show j.val = j.val / 128 * 128 + j.val % 128; omega)
  exact (congrArg (fun t => val_main_v21 (F := Ideal) x0 x1 x2 x3 x4 x5 (ix2 m t)) hj).trans
    (v21_at x0 x1 x2 x3 x4 x5 h0 h1 h2 h3 h4 h5 _ m _)

end Cert.RefValue

end
-- ==== Proof.PreFinite.lean ====
import proofs.«404418_j31731218382918_3_alg».proof.Pre_finite_inputs
import proofs.«404418_j31731218382918_3_alg».proof.Proof.Gen.Pre_finite_inputs
import Idealize.ShloMosaic.PureOps.Ideal
import Idealize.ShloMosaic.Lib.ReduceAll
import Idealize.ShloMosaic.Lib.ValueIdx
import Mathlib.Data.EReal.Basic

namespace Cert.PreFinite

open Idealize.ShloMosaic Cert.Pre_finite_inputs

instance : Subsingleton S_.Idx := ⟨fun a b => funext fun d => d.elim0⟩

/-- The pattern 0x7F800000 denotes +∞. -/
theorem inf_bits : Ideal.ofBits .f32 0x7F800000#32 = (⊤ : EReal) := by
  simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- all(|x| < +∞) = 1 gives that every entry of x is a real number. -/
theorem real_of_all {s : Shape} {axes : List (Fin s.rank)} (x : s.Idx → EReal)
    (hb : S_.BroadcastsInDim s (![] : Fin 0 → Fin s.rank)) (hr : s.ReducesTo axes S_) (hu : 0 < S_.numel)
    (e : Host.reduce IntOp.andi
          (cmpf (F := Ideal) (φ := .f32) .olt (Host.absf (F := Ideal) (φ := .f32) x)
            (broadcastInDim s ![] hb (constant (F := Ideal) S_ .f32 0x7F800000#32)))
          (constantI S_ 1 1#1) hr hu ValueIdx.ix0 = 1#1) :
    ∀ i, ∃ r : ℝ, x i = (r : EReal) := by
  intro i
  have h1 := Host.reduce_andi_all _ _ hr hu ValueIdx.ix0 e i
  apply real_of_abs_lt_top
  have h2 : Ideal.cmp .olt (max (x i) (-x i)) (Ideal.ofBits .f32 0x7F800000#32) = 1#1 := h1
  rw [inf_bits] at h2
  by_contra hn
  have hd : decide (max (x i) (-x i) < (⊤ : EReal)) = false := decide_eq_false hn
  simp only [Ideal.cmp, hd] at h2
  exact absurd h2 (by decide)

/-- The precondition, all ones, says every entry of each of the six inputs is a real number. -/
theorem real_of_pre [hPre_finite_inputs : Cert.Pre_finite_inputs.Facts]
    (x0 : (⟨2, ![1024, 4096]⟩ : Shape).Idx → EReal) (x1 x2 x3 : (⟨2, ![4096, 4096]⟩ : Shape).Idx → EReal)
    (x4 x5 : (⟨3, ![32, 4096, 128]⟩ : Shape).Idx → EReal)
    (h : Cert.Pre_finite_inputs.fn (F := Ideal) x0 x1 x2 x3 x4 x5 = (fun _ => 1#1)) :
    (∀ i, ∃ r : ℝ, x0 i = (r : EReal)) ∧ (∀ i, ∃ r : ℝ, x1 i = (r : EReal)) ∧ (∀ i, ∃ r : ℝ, x2 i = (r : EReal)) ∧
    (∀ i, ∃ r : ℝ, x3 i = (r : EReal)) ∧ (∀ i, ∃ r : ℝ, x4 i = (r : EReal)) ∧ (∀ i, ∃ r : ℝ, x5 i = (r : EReal)) := by
  have e := congrFun h ValueIdx.ix0
  dsimp only [fn, fn_part1, andi] at e
  simp only [IntOp.andi_eq_one] at e
  obtain ⟨⟨⟨⟨⟨e0, e1⟩, e2⟩, e3⟩, e4⟩, e5⟩ := e
  exact ⟨real_of_all x0 _ _ _ e0, real_of_all x1 _ _ _ e1, real_of_all x2 _ _ _ e2,
    real_of_all x3 _ _ _ e3, real_of_all x4 _ _ _ e4, real_of_all x5 _ _ _ e5⟩

end Cert.PreFinite
-- ==== Proof.lean ====
/-
  Fused query/key/value projection, key/value-cache write and exponential attention, against its plain reference.

  The kernel computes Q = X·W_q, K = X·W_k, V = X·W_v block by block (the sum over the 4096 input columns taken
  in four blocks of 1024, accumulated), then, per head and over four tiles of 1024 cache rows — the new keys and
  values taking the place of rows 2048 … 3071 —, the row sums of exp(q·kᵀ) and their product with the values, and
  divides once at the end: (Σ_l e_l·v_l) / (Σ_l e_l). The reference forms the three projections as one product
  with the concatenated weights, writes the cache, and normalises first: Σ_l (e_l / Σ e)·v_l. On the extended
  reals the two agree for finite inputs: every number involved is then a real, the sum of the exponentials is a
  positive real, and division by it distributes over the finite sum; sums regroup freely.

  The frames of the two kernel programs are one text read at both instances: each region's body is run once per
  kind of grid point (first, middle, last of a reduction), the accumulators' contents carried in the region's
  invariant from point to point. The value of the idealized kernel is read off that run (Val0, Val1); the
  reference's off its run, stage by stage (RefValue); the precondition yields the finiteness (PreFinite).
-/
import proofs.«404418_j31731218382918_3_alg».proof.Defs
import proofs.«404418_j31731218382918_3_alg».proof.Proof.Gen.Kernel
import proofs.«404418_j31731218382918_3_alg».proof.Proof.Gen.KernelIdeal
import proofs.«404418_j31731218382918_3_alg».proof.Proof.Gen.ReferenceIdeal
import proofs.«404418_j31731218382918_3_alg».proof.Proof.Gen.Pre_finite_inputs
import proofs.«404418_j31731218382918_3_alg».proof.Proof.KRun
import proofs.«404418_j31731218382918_3_alg».proof.Proof.KiRun
import proofs.«404418_j31731218382918_3_alg».proof.Proof.KiValue
import proofs.«404418_j31731218382918_3_alg».proof.Proof.KiVal0
import proofs.«404418_j31731218382918_3_alg».proof.Proof.KiVal1
import proofs.«404418_j31731218382918_3_alg».proof.Proof.RefRunP
import proofs.«404418_j31731218382918_3_alg».proof.Proof.RefJoin
import proofs.«404418_j31731218382918_3_alg».proof.Proof.RefValue
import proofs.«404418_j31731218382918_3_alg».proof.Proof.PreFinite
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_p : Cert.frame_Kernel := fun m ρ _ => Cert.Kernel.Hand.frame_all m ρ

/-- So does the idealized kernel. -/
theorem frame_pi : Cert.frame_KernelIdeal := fun m ρ _ => Cert.KernelIdeal.Hand.frame_all m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The one rewrite of the idealization: widening after narrowing the 1024 × 1024 exponentials is the identity on
    extended reals, the rounding through the narrower format on words. -/
theorem preserves : Cert.preserves_Kernel_KernelIdeal :=
  IdealRules.truncf_extf.statement Cert.KernelIdeal.S1024x1024 .f32 .bf16

/-- Both idealized programs end with the specification's attention of the six arrays. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c =>
      ⟨(h c _ (Cert.KernelIdeal.Hand.mem_uc Cert.KernelIdeal.main_v2 (by decide))).trans
          (Cert.KernelIdeal.Value.result_eq m ρ Cert.KernelIdeal.Val0.final0_4 Cert.KernelIdeal.Val0.final0_5 Cert.KernelIdeal.Val0.final0_6 Cert.KernelIdeal.Val1.final1_5 c),
        (h c _ (Cert.KernelIdeal.Hand.mem_uc Cert.KernelIdeal.main_arg0 (by decide))).trans (Cert.KernelIdeal.Hand.W3_main_arg0 m ρ c),
        (h c _ (Cert.KernelIdeal.Hand.mem_uc Cert.KernelIdeal.main_arg1 (by decide))).trans (Cert.KernelIdeal.Hand.W3_main_arg1 m ρ c),
        (h c _ (Cert.KernelIdeal.Hand.mem_uc Cert.KernelIdeal.main_arg2 (by decide))).trans (Cert.KernelIdeal.Hand.W3_main_arg2 m ρ c),
        (h c _ (Cert.KernelIdeal.Hand.mem_uc Cert.KernelIdeal.main_arg3 (by decide))).trans (Cert.KernelIdeal.Hand.W3_main_arg3 m ρ c),
        (h c _ (Cert.KernelIdeal.Hand.mem_uc Cert.KernelIdeal.main_arg4 (by decide))).trans (Cert.KernelIdeal.Hand.W3_main_arg4 m ρ c),
        (h c _ (Cert.KernelIdeal.Hand.mem_uc Cert.KernelIdeal.main_arg5 (by decide))).trans (Cert.KernelIdeal.Hand.W3_main_arg5 m ρ c)⟩)
      (Cert.KernelIdeal.Hand.run_all m ρ)
  · refine (θ_run Cert.ReferenceIdeal.defs _ _).mono (fun r h c => ⟨(h c).1.trans ?_, (h c).2⟩) (Cert.ReferenceIdeal.ValueP.run (F := Ideal) m' ρ')
    obtain ⟨h0, h1, h2, h3, h4, h5⟩ := Cert.PreFinite.real_of_pre _ _ _ _ _ _ (hpre c)
    rw [Cert.RefJoin.res_eq_val, (hagree c).1, (hagree c).2.1, (hagree c).2.2.1, (hagree c).2.2.2.1, (hagree c).2.2.2.2.1, (hagree c).2.2.2.2.2]
    exact Cert.RefValue.ref_eq_G _ _ _ _ _ _ h0 h1 h2 h3 h4 h5

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
